-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S4096x8 : Shape := ⟨2, ![4096, 8]⟩
abbrev S512x1024 : Shape := ⟨2, ![512, 1024]⟩
abbrev S512x1 : Shape := ⟨2, ![512, 1]⟩
abbrev S1x512 : Shape := ⟨2, ![1, 512]⟩
abbrev S512x8 : Shape := ⟨2, ![512, 8]⟩
abbrev S1024x512 : Shape := ⟨2, ![1024, 512]⟩
abbrev S512x512 : Shape := ⟨2, ![512, 512]⟩
abbrev S512 : Shape := ⟨1, ![512]⟩
abbrev S_ : Shape := ⟨0, ![]⟩
abbrev S1 : Shape := ⟨1, ![1]⟩
abbrev S4 : Shape := ⟨1, ![4]⟩

abbrev nBuf : Space → Nat
  | .hbm => 50
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x8, .f32⟩
  | .hbm, ⟨5, _⟩ => ⟨S4096x1, .f32⟩
  | .hbm, ⟨6, _⟩ => ⟨S4096, .f32⟩
  | .hbm, ⟨7, _⟩ => ⟨S4096x1, .f32⟩
  | .hbm, ⟨8, _⟩ => ⟨S4096, .f32⟩
  | .hbm, ⟨9, _⟩ => ⟨S4096x1, .f32⟩
  | .hbm, ⟨10, _⟩ => ⟨S4096, .f32⟩
  | .hbm, ⟨11, _⟩ => ⟨S4096x1, .f32⟩
  | .hbm, ⟨12, _⟩ => ⟨S4096, .f32⟩
  | .hbm, ⟨13, _⟩ => ⟨S4096x1, .f32⟩
  | .hbm, ⟨14, _⟩ => ⟨S4096, .f32⟩
  | .hbm, ⟨15, _⟩ => ⟨S4096x1, .f32⟩
  | .hbm, ⟨16, _⟩ => ⟨S4096, .f32⟩
  | .hbm, ⟨17, _⟩ => ⟨S4096x1, .f32⟩
  | .hbm, ⟨18, _⟩ => ⟨S4096, .f32⟩
  | .hbm, ⟨19, _⟩ => ⟨S4096x1, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S4, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x8, .f32⟩
  | .local _ .vmem, ⟨9, _⟩ => ⟨S512x8, .f32⟩
  | .local _ .vmem, ⟨10, _⟩ => ⟨S512x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S4096x1 : S4096.ShapeCasts S4096x1
  shapeCasts_S4096_S1x4096 : S4096.ShapeCasts S1x4096
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  reduces_S512x1024_S512 : S512x1024.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x1_d0_w32 : S512x1.Iotas .tc 32 [0]
  iota_S1x512_d1_w32 : S1x512.Iotas .tc 32 [1]
  reduces_S512x512_S512 : S512x512.Reduces [1] S512
  natLt_1_32 : 1 < 32
  inb_S512x8_S512x1_0_0 : ∀ a, (![0, 0] : Fin 2 → Nat) a + S512x1.size a ≤ S512x8.size a
  inb_S512x8_S512x1_0_1 : ∀ a, (![0, 1] : Fin 2 → Nat) a + S512x1.size a ≤ S512x8.size a
  inb_S512x8_S512x1_0_2 : ∀ a, (![0, 2] : Fin 2 → Nat) a + S512x1.size a ≤ S512x8.size a
  inb_S512x8_S512x1_0_3 : ∀ a, (![0, 3] : Fin 2 → Nat) a + S512x1.size a ≤ S512x8.size a
  inb_S512x8_S512x1_0_4 : ∀ a, (![0, 4] : Fin 2 → Nat) a + S512x1.size a ≤ S512x8.size a
  inb_S512x8_S512x1_0_5 : ∀ a, (![0, 5] : Fin 2 → Nat) a + S512x1.size a ≤ S512x8.size a
  inb_S512x8_S512x1_0_6 : ∀ a, (![0, 6] : Fin 2 → Nat) a + S512x1.size a ≤ S512x8.size a
  inb_S512x8_S512x1_0_7 : ∀ a, (![0, 7] : Fin 2 → Nat) a + S512x1.size a ≤ S512x8.size a
  slices_S4096x8_S4096x1_0_0 : S4096x8.Slices ![0, 0] S4096x1
  shapeCasts_S4096x1_S4096 : S4096x1.ShapeCasts S4096
  slices_S4096x8_S4096x1_0_1 : S4096x8.Slices ![0, 1] S4096x1
  slices_S4096x8_S4096x1_0_2 : S4096x8.Slices ![0, 2] S4096x1
  slices_S4096x8_S4096x1_0_3 : S4096x8.Slices ![0, 3] S4096x1
  slices_S4096x8_S4096x1_0_4 : S4096x8.Slices ![0, 4] S4096x1
  slices_S4096x8_S4096x1_0_5 : S4096x8.Slices ![0, 5] S4096x1
  slices_S4096x8_S4096x1_0_6 : S4096x8.Slices ![0, 6] S4096x1
  slices_S4096x8_S4096x1_0_7 : S4096x8.Slices ![0, 7] S4096x1
  bcast_S_S4096 : S_.BroadcastsInDim S4096 (![] : Fin 0 → Fin S4096.rank)
  reducesTo_S4096_S_d0 : S4096.ReducesTo [0] S_
  h_S_ : 0 < S_.numel
  bcast_S_S1 : S_.BroadcastsInDim S1 (![] : Fin 0 → Fin S1.rank)
  concatenates_S1_S1_S1_S1_S4_d0 : Shape.Concatenates [S1, S1, S1, S1] S4 0
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S4096x8.size a
  hwx0_4 : ∀ i : grid0.Coords, EltTy.bits .f32 = 32 ∨ (Rect.block (s := S4096x8) S512x8.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩
abbrev S1 : Shape := ⟨1, ![1]⟩
abbrev S4 : Shape := ⟨1, ![4]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S_, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096, .f32⟩
  | .hbm, ⟨88, _⟩ => ⟨S4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S_, .f32⟩
  | .hbm, ⟨99, _⟩ => ⟨S4096x4096, .i32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S_, .f32⟩
  | .hbm, ⟨110, _⟩ => ⟨S4096x4096, .i32⟩
  | .hbm, ⟨111, _⟩ => ⟨S_, .i32⟩
  | .hbm, ⟨112, _⟩ => ⟨S_, .i32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S1, .f32⟩
  | .hbm, ⟨120, _⟩ => ⟨S4, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_call4_v0 : Ref sig .tc := ⟨.hbm, 81, rfl⟩
abbrev main_call4_v1 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_17 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩
abbrev main_cst_19 : Ref sig .tc := ⟨.hbm, 93, rfl⟩
abbrev main_call5_v0 : Ref sig .tc := ⟨.hbm, 94, rfl⟩
abbrev main_call5_v1 : Ref sig .tc := ⟨.hbm, 95, rfl⟩
abbrev main_v60 : Ref sig .tc := ⟨.hbm, 96, rfl⟩
abbrev main_cst_20 : Ref sig .tc := ⟨.hbm, 97, rfl⟩
abbrev main_v61 : Ref sig .tc := ⟨.hbm, 98, rfl⟩
abbrev main_v62 : Ref sig .tc := ⟨.hbm, 99, rfl⟩
abbrev main_c_21 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_22 : Ref sig .tc := ⟨.hbm, 104, rfl⟩
abbrev main_call6_v0 : Ref sig .tc := ⟨.hbm, 105, rfl⟩
abbrev main_call6_v1 : Ref sig .tc := ⟨.hbm, 106, rfl⟩
abbrev main_v66 : Ref sig .tc := ⟨.hbm, 107, rfl⟩
abbrev main_cst_23 : Ref sig .tc := ⟨.hbm, 108, rfl⟩
abbrev main_v67 : Ref sig .tc := ⟨.hbm, 109, rfl⟩
abbrev main_v68 : Ref sig .tc := ⟨.hbm, 110, rfl⟩
abbrev main_c_24 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_25 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  reducesTo_S4096x4096_S_d0_1 : S4096x4096.ReducesTo [0, 1] S_
  natLt_1_32 : 1 < 32
  bcast_S_S1 : S_.BroadcastsInDim S1 (![] : Fin 0 → Fin S1.rank)
  concatenates_S1_S1_S1_S1_S4_d0 : Shape.Concatenates [S1, S1, S1, S1] S4 0
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.WBase.lean ====
/-
  What the two runs of the kernel body, the contents point by point and the launch share.

  The grid has 64 points, point `t` at row block `t / 8` and column block `t % 8`. The body begins with a
  branch on "column block = 0": there it resets its eight accumulator columns (a scratch buffer of 512 rows
  by 8) to zero, elsewhere it keeps what the point before left. Stated here: that condition in closed form
  over the grid; each window's current buffer at a point as the pipeline passes it; the scratch as a buffer
  and as a view; and the region's invariant with the scratch spelled as a buffer owned at some contents.
-/
import proofs.«108788_j55748675502676_1_alg».proof.Proof.Gen.Kernel.Launch
import proofs.«108788_j55748675502676_1_alg».proof.Proof.Gen.Kernel.Skeleton
import proofs.«108788_j55748675502676_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition "column block = 0", as its scalar chain over the grid coordinates. -/
abbrev cond0 (i : grid0.Coords) : Prop :=
  (Scalar.cmpi .ne (Scalar.extui (Scalar.cmpi .eq (BitVec.ofNat 32 (i 1).val) 0#32)) 0#32) = 1#1

/-- It holds exactly at the points that start a row block. -/
theorem hcond0 : ∀ t : Fin cfg0.N, cond0 (grid0.coords t) ↔ t.val % 8 = 0 :=
  (by decide +kernel : ∀ t : Fin grid0.N, cond0 (grid0.coords t) ↔ t.val % 8 = 0)

/-- Each window's current buffer at point `t`, as the pipeline passes it to the body, and that it is a whole buffer. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .f32 := win0_4.stage (cfg0.slots t 4)
abbrev hs4 (t : Fin cfg0.N) : (ms4 t).IsWhole := hstage0_4 ((cfg0.slots t 4).cast nbuf0_4)

/-- The accumulator: a whole scoped buffer of the kernel's own, and the view through which its contents are stated. -/
abbrev scM : Memref sig .tc .vmem S512x8 .f32 := Memref.whole cc0_scratch0
abbrev VS : View sig .tc .vmem S512x8 .f32 := scM.view
/-- One buffer of the result window, through which the result block's contents are stated. -/
abbrev VO : View sig .tc .vmem S512x8 .f32 := (Memref.whole cc0_stg4_0 : Memref sig .tc .vmem S512x8 .f32).view

/-- The invariant the launch hands the region: the accumulator owned at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- No window is idle at any point, and the result window is written back exactly at a row block's last point. -/
theorem live_all : ∀ (w : Fin cfg0.W) (t : Fin cfg0.N), cfg0.idle w (grid0.coords t) = false := fun _ _ => rfl

end Cert.Kernel.Hand

end
-- ==== Proof.WRunA.lean ====
/-
  The kernel body run whole at a point that STARTS a row block (the branch "column block = 0" taken).

  On whole buffers — the four input blocks at given contents, the result block and the accumulator at
  anything — the body runs to the end and leaves the inputs as they were, the result block and the
  accumulator each overwritten by a list of pieces (last store first). The pieces are found by running the
  body: first the accumulator is stored whole with zeros, then each of its eight columns is loaded and
  stored back with the tile's row sum added, then the accumulator is loaded whole and stored into the
  result block.
-/
import proofs.«108788_j55748675502676_1_alg».proof.Proof.WBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a point where the accumulator is reset: the pieces the result block (`L4`) and the
    accumulator (`LS`) end with, and the body's triple over them. -/
noncomputable def runReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i)
    (x0 : Vec F S512x1024 .f32) (x1 : Vec F S512x1024 .f32) (x2 : Vec F S512x1 .i32) (x3 : Vec F S1x512 .i32) :
    Σ' (L4 : List (View.Piece (Elt F) S512x8 .f32)), { LS : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.WRunB.lean ====
/-
  The kernel body run whole at a point that CONTINUES a row block (the branch "column block = 0" not taken).

  On whole buffers — the four input blocks at given contents, the result block at anything, the accumulator
  at the contents `xs` the point before left — the body runs to the end and leaves the inputs as they were,
  the result block and the accumulator each overwritten by a list of pieces (last store first): each of the
  accumulator's eight columns is loaded and stored back with the tile's row sum added, then the accumulator
  is loaded whole and stored into the result block.
-/
import proofs.«108788_j55748675502676_1_alg».proof.Proof.WRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a point where the accumulator is carried: the pieces the result block (`L4`) and the
    accumulator (`LS`) end with, and the body's triple over them. -/
noncomputable def runCarry (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i)
    (x0 : Vec F S512x1024 .f32) (x1 : Vec F S512x1024 .f32) (x2 : Vec F S512x1 .i32) (x3 : Vec F S1x512 .i32) (xs : Vec F S512x8 .f32) :
    Σ' (L4 : List (View.Piece (Elt F) S512x8 .f32)), { LS : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.Kernel.Hand

end
-- ==== Proof.WData.lean ====
/-
  What the kernel region leaves, point by point, and the body's obligation at every point.

  At a point that starts a row block the accumulator ends at the tile's eight row sums over zeros; at any
  other point at the tile's row sums added to what the point before left; at every point the result block
  ends as a copy of the accumulator. `outsAt` is that recursion (result block, accumulator); the invariant
  between points says the accumulator holds `outsAt`'s second component of the point before (anything
  before the first point). The two input windows on the embeddings read ONE array: the region holds it as
  two half shares, one per window; the label arrays and the result array are held whole.
-/
import proofs.«108788_j55748675502676_1_alg».proof.Proof.WRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: after the two reshapes of the labels. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: the pieces read back, and that they cover -/

/-- The result block after a point that starts a row block: its one whole store read back. -/
def outA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) : Vec F S512x8 .f32 :=
  VO.read (Elt F) (VO.writes (Elt F) VO.junk (runReset c i arg2 harg2 arg3 harg3 arg4 harg4 arg5 harg5 arg6 harg6 arg7 harg7 hc x0 x1 x2 x3).1)
theorem coverA_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) (y : S512x8.Idx) :
    ∃ pc ∈ (runReset c i arg2 harg2 arg3 harg3 arg4 harg4 arg5 harg5 arg6 harg6 arg7 harg7 hc x0 x1 x2 x3).1, y ∈ pc.1.set :=
  View.cover_of_tiledL (runReset c i arg2 harg2 arg3 harg3 arg4 harg4 arg5 harg5 arg6 harg6 arg7 harg7 hc x0 x1 x2 x3).1 S512x8.size (by sl_kernel_rfl) y
/-- The accumulator after such a point: the zero fill and the eight column stores read back. -/
def soutA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) : Vec F S512x8 .f32 :=
  VS.read (Elt F) (VS.writes (Elt F) VS.junk (runReset c i arg2 harg2 arg3 harg3 arg4 harg4 arg5 harg5 arg6 harg6 arg7 harg7 hc x0 x1 x2 x3).2.1)
theorem coverA_s (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) (y : S512x8.Idx) :
    ∃ pc ∈ (runReset c i arg2 harg2 arg3 harg3 arg4 harg4 arg5 harg5 arg6 harg6 arg7 harg7 hc x0 x1 x2 x3).2.1, y ∈ pc.1.set :=
  View.cover_of_wholeMem (runReset c i arg2 harg2 arg3 harg3 arg4 harg4 arg5 harg5 arg6 harg6 arg7 harg7 hc x0 x1 x2 x3).2.1 (by sl_whole_mem) y

/-- The result block after a point that continues a row block. -/
def outB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) : Vec F S512x8 .f32 :=
  VO.read (Elt F) (VO.writes (Elt F) VO.junk (runCarry c i arg2 harg2 arg3 harg3 arg4 harg4 arg5 harg5 arg6 harg6 arg7 harg7 hc x0 x1 x2 x3 xs).1)
theorem coverB_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) (y : S512x8.Idx) :
    ∃ pc ∈ (runCarry c i arg2 harg2 arg3 harg3 arg4 harg4 arg5 harg5 arg6 harg6 arg7 harg7 hc x0 x1 x2 x3 xs).1, y ∈ pc.1.set :=
  View.cover_of_tiledL (runCarry c i arg2 harg2 arg3 harg3 arg4 harg4 arg5 harg5 arg6 harg6 arg7 harg7 hc x0 x1 x2 x3 xs).1 S512x8.size (by sl_kernel_rfl) y
/-- The accumulator after such a point: the eight column stores read back (they tile it). -/
def soutB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) : Vec F S512x8 .f32 :=
  VS.read (Elt F) (VS.writes (Elt F) VS.junk (runCarry c i arg2 harg2 arg3 harg3 arg4 harg4 arg5 harg5 arg6 harg6 arg7 harg7 hc x0 x1 x2 x3 xs).2.1)
theorem coverB_s (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) (y : S512x8.Idx) :
    ∃ pc ∈ (runCarry c i arg2 harg2 arg3 harg3 arg4 harg4 arg5 harg5 arg6 harg6 arg7 harg7 hc x0 x1 x2 x3 xs).2.1, y ∈ pc.1.set :=
  View.cover_of_tiledL (runCarry c i arg2 harg2 arg3 harg3 arg4 harg4 arg5 harg5 arg6 harg6 arg7 harg7 hc x0 x1 x2 x3 xs).2.1 S512x1.size (by sl_kernel_rfl) y

/-! ## Point by point -/

/-- What the result window's buffer and the accumulator hold after the body at point `n`: at a row block's first point
    the reset case on the point's blocks, elsewhere the carry case on the point's blocks and the accumulator the point
    before left. -/
def outsAt (c : Dev nD) : (n : ℕ) → n < cfg0.N → Vec F S512x8 .f32 × Vec F S512x8 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩),
       soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- `outsAt` at a point that starts a row block. -/
theorem outsAt_A (c : Dev nD) (t : Fin cfg0.N) (h0 : t.val % 8 = 0) :
    outsAt m c t.val t.isLt = (outA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt` at a point that continues one: over what the point before left. -/
theorem outsAt_B (c : Dev nD) (t : Fin cfg0.N) (h0 : ¬t.val % 8 = 0) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2,
      soutB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before point `n`: before the first point the accumulator at anything; afterwards at what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The proof data on core `c`: the arrays as the region finds them; after the body each input's buffer at its block and
    the result's at `outsAt`; the invariant `PhiS`; nothing owed; the embeddings' array held as two halves, one per
    window on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 4800000 in
/-- The body at any point: the inputs' buffers hold their blocks; the closed form says which case the point is in; the
    invariant hands the body the accumulator (at anything before the first point, else at what the point before left)
    and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4]
  have hN : t.val < 64 := lt_of_lt_of_eq t.isLt (show cfg0.N = 64 from N_0)
  by_cases h0 : t.val % 8 = 0
  · rw [outsAt_A m c t h0]
    unfold outA soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ ((hcond0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverA_s c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA_out c _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ ((hcond0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverA_s c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA_out c _ _ _ _ _ _ _ _ _ _ _ _ _ _ _ _ _ _)
  · rw [outsAt_B m c t h0]
    unfold outB soutB; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runCarry c (grid0.coords t) _ _ _ _ _ _ _ _ _ _ _ _ (fun h => h0 ((hcond0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverB_s c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.Kernel.Hand

end
-- ==== Proof.WLaunch.lean ====
/-
  The launch: @main as three segments, and the run it gives.

  @main is two host operations (the two reshapes of the labels), the kernel region, and forty-five host
  operations on the region's result. Between segments a core holds every unscoped buffer whole at a
  valuation, the generator register at some state, and owes nothing. The region is entered by splitting the
  buffers behind its windows' arrays off the rest — the embeddings' buffer into two half shares, one for each
  of the two windows that read it — and left by joining the halves again (an input array is never written,
  so both halves still hold the entry contents) and putting the result array back at what the sixty-four
  write-backs left in it. The run's post: every unscoped buffer at the last segment's valuation.
-/
import proofs.«108788_j55748675502676_1_alg».proof.Proof.WData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped TensorCore references, as device buffers: what a host segment runs within. -/
abbrev ucR : Finset (DevRef τ sig) := Pipeline.ucRefs τ sig

/-- Core `c`'s buffers at launch, as a valuation. -/
abbrev Vl (c : Dev nD) : Valuation τ sig (Elt F) := fun b => m (c, b)

/-- Core `c`'s buffers when the region is left: the result array at what the write-backs left, everything else as the
    region found it. -/
def Vx (c : Dev nD) : Valuation τ sig (Elt F) :=
  Function.update (V0 m c) (Proc.devRef .tc main_v2) ((dats m 0 c).arrAt 4 cfg0.N)

/-- Core `c`'s buffers at the end: after the forty-five operations that follow the region. -/
abbrev Vend (c : Dev nD) : Valuation τ sig (Elt F) := StableHlo.after hostOps1 (Vx m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers from segment to segment: the generator register at some state, and the core owing nothing. -/
abbrev R (c : Dev nD) : sProp 𝕄 := iprop((∃ r, prngReg c r) ∗ ∃ W, owes (c : Thread nD τ) (0 : CellTallies nD τ sig Unit) W)

/-! ## The windows' arrays, one by one -/

/-- The buffers behind the windows' arrays are four: the embeddings (two windows), the two reshaped label arrays, the result. -/
theorem arrRefs_eq : (Finset.univ.image (Pipeline.arrRef spec0) : Finset (Ref sig .tc)) = [main_arg0, main_v0, main_v1, main_v2].toFinset := by decide

/-- The pipeline's arrays at contents `G`, window by window: the embeddings' buffer as two halves. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The buffers behind the arrays, each whole at contents `W`, one by one. -/
theorem arrBufs_eq4 (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) :=
  bigSep_eq_bigSepL_of_eq [main_arg0, main_v0, main_v1, main_v2] arrRefs_eq (by decide) _

/-! ## Entering and leaving the region -/

theorem Vx_v2 (c : Dev nD) : Vx m c (Proc.devRef .tc main_v2) = (dats m 0 c).arrAt 4 cfg0.N := by
  unfold Vx; exact Function.update_self _ _ _
theorem Vx_of_ne (c : Dev nD) (b : Ref sig .tc) (hb : b ≠ main_v2) : Vx m c (Proc.devRef .tc b) = V m c b := by
  unfold Vx; exact Function.update_of_ne (fun h => hb (Proc.devRef_injective _ h)) _ _

/-- ENTRY: a core's unscoped buffers at the region-entry valuation are the pipeline's arrays at their entry contents —
    the embeddings' buffer dealt as two halves — and the buffers that bypass the region. -/
theorem entry_split (c : Dev nD) :
    (StableHlo.held (c : Thread nD τ) ucR (V0 m c) : sProp 𝕄)
      ⊢ iprop((dats m 0 c).arrays ((dats m 0 c).arrAt · 0) ∗ Pipeline.unscopedRest spec0 c (V m c)) := by
  rw [← Pipeline.unscopedBufs_held c (V0 m c)]
  rw [Pipeline.PerCore.unscopedBufs_split₀ (fun _ : Dev nD => cfgs) (0 : Fin 1) c winFacts₀0.arr_unscoped]
  rw [arrBufs_eq4, arrays_eq5]
  iintro ⟨⟨H0, H2, H3, H4⟩, Hr⟩
  ihave H0 := (pointsTo_share (PosShare.mem_left_op_right fullShare)).1 $$ H0
  icases H0 with ⟨H0a, H0b⟩
  isplitr [Hr]
  · isplitl [H0a]; · iexact H0a
    isplitl [H0b]; · iexact H0b
    isplitl [H2]; · iexact H2
    isplitl [H3]; · iexact H3
    iexact H4
  iexact Hr

/-- EXIT: the arrays at their final contents and the bypassing buffers are a core's unscoped buffers at the exit
    valuation: the inputs' arrays were never written, the two halves of the embeddings' buffer join. -/
theorem exit_join (c : Dev nD) :
    iprop((dats m 0 c).arrays ((dats m 0 c).arrAt · cfg0.N) ∗ Pipeline.unscopedRest spec0 c (V m c))
      ⊢ (StableHlo.held (c : Thread nD τ) ucR (Vx m c) : sProp 𝕄) := by
  rw [← Pipeline.unscopedBufs_held c (Vx m c)]
  rw [Pipeline.PerCore.unscopedBufs_split₀ (fun _ : Dev nD => cfgs) (0 : Fin 1) c winFacts₀0.arr_unscoped]
  have hrest : (Pipeline.unscopedRest spec0 c (fun b => Vx m c b) : sProp 𝕄) = Pipeline.unscopedRest spec0 c (V m c) := by
    unfold Pipeline.unscopedRest
    refine bigSep_congr fun b hb => ?_
    have hne : b ≠ main_v2 := fun h => (Finset.mem_sdiff.mp hb).2 (h ▸ Finset.mem_image.mpr ⟨4, Finset.mem_univ _, rfl⟩)
    dsimp only
    rw [Vx_of_ne m c b hne]
  rw [hrest]
  rw [arrBufs_eq4, arrays_eq5]
  dsimp only
  rw [Vx_of_ne m c main_arg0 (by decide), Vx_of_ne m c main_v0 (by decide), Vx_of_ne m c main_v1 (by decide), Vx_v2]
  rw [(dats m 0 c).arrAt_in 0 rfl, (dats m 0 c).arrAt_in 1 rfl, (dats m 0 c).arrAt_in 2 rfl, (dats m 0 c).arrAt_in 3 rfl]
  iintro ⟨⟨H0a, H0b, H2, H3, H4⟩, Hr⟩
  ihave H0 := (pointsTo_share (PosShare.mem_left_op_right fullShare)).2 $$ [H0a H0b]
  · isplitl [H0a]; · iexact H0a
    iexact H0b
  isplitr [Hr]
  · isplitl [H0]; · iexact H0
    isplitl [H2]; · iexact H2
    isplitl [H3]; · iexact H3
    iexact H4
  iexact Hr

/-! ## The three segments -/

/-- The two reshapes of the labels, over the unscoped buffers. -/
def seg0 : Pipeline.HostSeg (Name := ℕ) (U := UR sig nD τ) (pcfgs (F := F)) defs₀ 𝒱₀ L lv :=
  Pipeline.HostSeg.ofOps _ _ _ _ _ ucR hostOps0 (fun op h => Pipeline.sub_ucRefs op ((List.forall_iff_forall_mem.mp hostOps0_sub) op h))
    (fun op h => (List.forall_iff_forall_mem.mp hostOps0_fresh) op h) (Vl m) R

/-- The forty-five operations on the region's result, over the unscoped buffers. -/
def seg1 : Pipeline.HostSeg (Name := ℕ) (U := UR sig nD τ) (pcfgs (F := F)) defs₀ 𝒱₀ L lv :=
  Pipeline.HostSeg.ofOps _ _ _ _ _ ucR hostOps1 (fun op h => Pipeline.sub_ucRefs op ((List.forall_iff_forall_mem.mp hostOps1_sub) op h))
    (fun op h => (List.forall_iff_forall_mem.mp hostOps1_fresh) op h) (Vx m) R

-- an entailment stated over `cfgs p` at the pinned configuration unifies only when unification may unfold plain
-- definitions in a metavariable's type
set_option backward.isDefEq.respectTransparency.types false in
/-- The kernel region: the decided layout, no semaphore of the kernel's own, the body obligation; entered from what the
    reshapes left (the arrays into the pipeline, the generator register into the invariant, every other buffer
    bypassing), left with the result array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) ucR (StableHlo.after hostOps0 (Vl m c)) ∗ R c)
  post c := iprop(StableHlo.held (c : Thread nD τ) ucR (Vx m c) ∗ R c)
  X c := iprop(∃ r, prngReg c r)
  Y c := iprop(∃ r, prngReg c r)
  Z c := Pipeline.unscopedRest spec0 c (V m c)
  hentry c := by
    iintro ⟨⟨Hh, ⟨Hp, HO⟩⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec0 c from by
    unfold Pipeline.ΦA
    iintro ⟨Hp, -, Hr⟩
    isplitl [Hr] <;> iassumption).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Hh := (exit_join m c) $$ [Ha HZ]
    · isplitl [Ha]; · iexact Ha
      iexact HZ
    imodintro
    isplitl [Hh]; · iexact Hh
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What a core holds at the end: every unscoped buffer at the last valuation, the generator register at some state. -/
abbrev Tend (c : Dev nD) : sProp 𝕄 := iprop(StableHlo.held (c : Thread nD τ) ucR (Vend m c) ∗ ∃ r, prngReg c r)

-- the launch theorem's implicit arguments are found by unifying its conclusion with this one, which takes unfolding plain
-- definitions in a metavariable's type
set_option backward.isDefEq.respectTransparency.types false in
/-- At the compiled mesh, for any float values, from any memory with zero counters: every weakly fair execution of @main
    terminates, nothing faulting, and every final state has every unscoped buffer at the last segment's valuation. -/
theorem run_main : θ_run defs (onTc (τ := τ) (main (F := F))) ⟨m, fun _ => 0, ρ⟩
    (fun r => ∀ c : Dev nD, ∀ b ∈ ucR, r.2.mem ((c : Thread nD τ).1, b) = Vend m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (Vl m c) ∗ R c)) (Tₙ := Tend m)
    (hch := ⟨fun _ => .rfl, fun _ => .rfl, fun _ => .rfl, fun c => by
      show iprop(StableHlo.held (c : Thread nD τ) ucR (StableHlo.after hostOps1 (Vx m c)) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) ucR (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucR, s.mem ((c : Thread nD τ).1, b) = Vend m c b)
    (hfin := fun c s' => by
      iintro ⟨⟨Hh, -⟩, HSI⟩
      unfold StableHlo.held
      imodintro
      iapply (pointsTo_read_all ucR (fun b => ((c : Thread nD τ).1, b)) (Vend m c) s')
      isplitl [Hh] <;> iassumption)
    (hQ := fun _ h => h)

end Cert.Kernel.Hand

end
-- ==== Proof.Spec.lean ====
/-
  The mathematics both programs compute, stated once over the extended reals.

  For embeddings `x` (4096 rows of 1024 numbers) and class labels `tg` (one word per row):
  the squared length of a row, the inner product of two rows, and from them the clamped distance
  `dist r c = sqrt (max ε (|x r|² + |x c|² - 2 ⟨x r, x c⟩))`. A pair `(r, c)` is POSITIVE when the two rows carry
  the same label and are different rows, NEGATIVE when their labels differ. Eight quantities are summed
  over all columns `c` of a row `r` (`stat`): the two exponential weights `exp (40 (1 - dist))` over the
  positive and over the negative pairs, `exp (20 (dist - 0.8))` over the positive pairs,
  `exp (20 (1.1 - dist))` over the negative pairs, the distance itself over the positive and over the
  negative pairs, and the two pair counts. `final` is the four numbers made from a table of such row sums:
  the mean over rows of `(1 - p / (p + n)) (log a + log b)`, zero, and the two mean distances
  (total distance over total count). The float literals are kept as the bit patterns both programs print.
-/
import Idealize.ShloMosaic.PureOps.Ideal
import Idealize.ShloMosaic.Lib.ValueIdx

noncomputable section

open scoped BigOperators

namespace Cert.PairStats

open Idealize.ShloMosaic Idealize.ShloMosaic.ValueIdx

/-- The embeddings' shape and the labels' shape. -/
abbrev SX : Shape := ⟨2, ![4096, 1024]⟩
abbrev ST : Shape := ⟨1, ![4096]⟩

/-- The squared length of row `r`. -/
def sq (x : SX.Idx → EReal) (r : Fin 4096) : EReal := ∑ k : Fin 1024, x (ix2 r k) * x (ix2 r k)

/-- The inner product of rows `r` and `c`. -/
def dotp (x : SX.Idx → EReal) (r c : Fin 4096) : EReal := ∑ k : Fin 1024, x (ix2 r k) * x (ix2 c k)

/-- The clamped Euclidean distance of rows `r` and `c`. -/
def dist (x : SX.Idx → EReal) (r c : Fin 4096) : EReal :=
  Ideal.sqrt (max (Ideal.ofBits .f32 0x2B8CBCCC#32) (sq x r + sq x c - Ideal.ofBits .f32 0x40000000#32 * dotp x r c))

/-- Rows `r` and `c` carry the same label and are different rows. -/
def pos (tg : ST.Idx → BitVec 32) (r c : Fin 4096) : Prop := tg (ix1 r) = tg (ix1 c) ∧ r ≠ c

/-- Rows `r` and `c` carry different labels. -/
def neg (tg : ST.Idx → BitVec 32) (r c : Fin 4096) : Prop := tg (ix1 r) ≠ tg (ix1 c)

instance (tg : ST.Idx → BitVec 32) (r c : Fin 4096) : Decidable (pos tg r c) := by unfold pos; infer_instance
instance (tg : ST.Idx → BitVec 32) (r c : Fin 4096) : Decidable (neg tg r c) := by unfold neg; infer_instance

/-- `exp (40 (1 - d))`. -/
def wA (d : EReal) : EReal := Ideal.exp (Ideal.ofBits .f32 0x42200000#32 * (Ideal.ofBits .f32 0x3F800000#32 - d))
/-- `exp (20 (d - 0.8))`. -/
def wP (d : EReal) : EReal := Ideal.exp (Ideal.ofBits .f32 0x41A00000#32 * (d - Ideal.ofBits .f32 0x3F4CCCCD#32))
/-- `exp (20 (1.1 - d))`. -/
def wN (d : EReal) : EReal := Ideal.exp (Ideal.ofBits .f32 0x41A00000#32 * (Ideal.ofBits .f32 0x3F8CCCCD#32 - d))

/-- What the pair `(r, c)` adds to the `k`-th quantity of row `r`. -/
def cell (x : SX.Idx → EReal) (tg : ST.Idx → BitVec 32) (k : Fin 8) (r c : Fin 4096) : EReal :=
  match k with
  | ⟨0, _⟩ => if pos tg r c then wA (dist x r c) else 0
  | ⟨1, _⟩ => if neg tg r c then wA (dist x r c) else 0
  | ⟨2, _⟩ => if pos tg r c then wP (dist x r c) else 0
  | ⟨3, _⟩ => if neg tg r c then wN (dist x r c) else 0
  | ⟨4, _⟩ => if pos tg r c then dist x r c else 0
  | ⟨5, _⟩ => if neg tg r c then dist x r c else 0
  | ⟨6, _⟩ => if pos tg r c then 1 else 0
  | ⟨7, _⟩ => if neg tg r c then 1 else 0
  | ⟨_ + 8, h⟩ => absurd h (Nat.not_lt.2 (Nat.le_add_left _ _))

/-- The `k`-th quantity of row `r`: the pairs' contributions summed over every column. -/
def stat (x : SX.Idx → EReal) (tg : ST.Idx → BitVec 32) (r : Fin 4096) (k : Fin 8) : EReal :=
  ∑ c : Fin 4096, cell x tg k r c

/-- Row `p` of the `I`-th block of 512 rows. -/
def row (I : Fin 8) (p : Fin 512) : Fin 4096 := ⟨512 * I.val + p.val, by have := I.isLt; have := p.isLt; omega⟩

/-- The part of row `row I p`'s `k`-th quantity that comes from the `J`-th block of 512 columns. -/
def tileStat (x : SX.Idx → EReal) (tg : ST.Idx → BitVec 32) (k : Fin 8) (I J : Fin 8) (p : Fin 512) : EReal :=
  ∑ q : Fin 512, cell x tg k (row I p) (row J q)

/-- The four results from a table `S` of row quantities. -/
def final (S : Fin 4096 → Fin 8 → EReal) (i : Fin 4) : EReal :=
  match i with
  | ⟨0, _⟩ =>
    Ideal.div (∑ r : Fin 4096, (Ideal.ofBits .f32 0x3F800000#32 - Ideal.div (S r 0) (S r 0 + S r 1)) * (Ideal.log (S r 2) + Ideal.log (S r 3)))
      (Ideal.ofBits .f32 0x45800000#32)
  | ⟨1, _⟩ => 0
  | ⟨2, _⟩ => Ideal.div (∑ r : Fin 4096, S r 4) (∑ r : Fin 4096, S r 6)
  | ⟨3, _⟩ => Ideal.div (∑ r : Fin 4096, S r 5) (∑ r : Fin 4096, S r 7)
  | ⟨_ + 4, h⟩ => absurd h (Nat.not_lt.2 (Nat.le_add_left _ _))

end Cert.PairStats

end
-- ==== Proof.WTailValueA.lean ====
/-
  The host operations after the kernel region, as one pure function of the table of per-row sums.

  The table has eight columns. The tail cuts each column out as a vector over the 4096 rows, forms per row
  `(1 - p / (p + n)) * (log a + log b)` from columns 0 to 3, sums it over the rows and divides by 4096; it divides the total
  of column 4 by the total of column 6 and the total of column 5 by the total of column 7; and lays these three numbers
  and a zero end to end. `tailFn` is that composition, at any float instance; `after_tail` says that running the
  operations from any contents of the buffers leaves the result buffer at `tailFn` of the table's contents, and
  `after_tail_arg0`, `after_tail_arg1`, `after_tail_table` that the arguments and the table are left as they were.
-/
import proofs.«108788_j55748675502676_1_alg».proof.Proof.Gen.Kernel.Launch
import proofs.«108788_j55748675502676_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section
namespace Cert.Kernel.Tail
open Idealize.ShloMosaic Idealize.ShloMosaic.TcCoe
open Cert.Kernel Cert.Kernel.Gen

variable {F : FTy → Type} [FloatOps F]

/-- Column 0 of the table as a vector over its rows: the slice of that column with its unit axis dropped. -/
def col0 (A : FVec F S4096x8 .f32) : FVec F S4096 .f32 :=
  shapeCast S4096 (extractStridedSlice S4096x1 ![0, 0] A slices_S4096x8_S4096x1_0_0) shapeCasts_S4096x1_S4096
/-- Column 1 of the table. -/
def col1 (A : FVec F S4096x8 .f32) : FVec F S4096 .f32 :=
  shapeCast S4096 (extractStridedSlice S4096x1 ![0, 1] A slices_S4096x8_S4096x1_0_1) shapeCasts_S4096x1_S4096
/-- Column 2 of the table. -/
def col2 (A : FVec F S4096x8 .f32) : FVec F S4096 .f32 :=
  shapeCast S4096 (extractStridedSlice S4096x1 ![0, 2] A slices_S4096x8_S4096x1_0_2) shapeCasts_S4096x1_S4096
/-- Column 3 of the table. -/
def col3 (A : FVec F S4096x8 .f32) : FVec F S4096 .f32 :=
  shapeCast S4096 (extractStridedSlice S4096x1 ![0, 3] A slices_S4096x8_S4096x1_0_3) shapeCasts_S4096x1_S4096
/-- Column 4 of the table. -/
def col4 (A : FVec F S4096x8 .f32) : FVec F S4096 .f32 :=
  shapeCast S4096 (extractStridedSlice S4096x1 ![0, 4] A slices_S4096x8_S4096x1_0_4) shapeCasts_S4096x1_S4096
/-- Column 5 of the table. -/
def col5 (A : FVec F S4096x8 .f32) : FVec F S4096 .f32 :=
  shapeCast S4096 (extractStridedSlice S4096x1 ![0, 5] A slices_S4096x8_S4096x1_0_5) shapeCasts_S4096x1_S4096
/-- Column 6 of the table. -/
def col6 (A : FVec F S4096x8 .f32) : FVec F S4096 .f32 :=
  shapeCast S4096 (extractStridedSlice S4096x1 ![0, 6] A slices_S4096x8_S4096x1_0_6) shapeCasts_S4096x1_S4096
/-- Column 7 of the table. -/
def col7 (A : FVec F S4096x8 .f32) : FVec F S4096 .f32 :=
  shapeCast S4096 (extractStridedSlice S4096x1 ![0, 7] A slices_S4096x8_S4096x1_0_7) shapeCasts_S4096x1_S4096

/-- Per row: `(1 - p / (p + n)) * (log a + log b)` from columns 0 to 3. -/
def rowLoss (A : FVec F S4096x8 .f32) : FVec F S4096 .f32 :=
  mulf
    (subf (broadcastInDim S4096 ![] bcast_S_S4096 (constant (F := F) S_ .f32 0x3F800000#32))
      (Host.divf (col0 A) (addf (col0 A) (col1 A))))
    (addf (Host.log (col2 A)) (Host.log (col3 A)))

/-- The sum of a vector over the rows, from zero. -/
def sumRows (v : FVec F S4096 .f32) : FVec F S_ .f32 :=
  Host.reduceAdd v (constant (F := F) S_ .f32 0x00000000#32) reducesTo_S4096_S_d0 h_S_

/-- The first result: the mean over the rows of the per-row loss. -/
def out0 (A : FVec F S4096x8 .f32) : FVec F S_ .f32 :=
  Host.divf (sumRows (rowLoss A)) (constant (F := F) S_ .f32 0x45800000#32)
/-- The second result: zero. -/
def out1 : FVec F S_ .f32 := constant (F := F) S_ .f32 0x00000000#32
/-- The third result: total of column 4 over total of column 6. -/
def out2 (A : FVec F S4096x8 .f32) : FVec F S_ .f32 := Host.divf (sumRows (col4 A)) (sumRows (col6 A))
/-- The fourth result: total of column 5 over total of column 7. -/
def out3 (A : FVec F S4096x8 .f32) : FVec F S_ .f32 := Host.divf (sumRows (col5 A)) (sumRows (col7 A))

/-- The tail as one pure function of the table: the four results laid end to end. -/
def tailFn (A : FVec F S4096x8 .f32) : FVec F S4 .f32 :=
  concatenate S4 0
    [⟨S1, broadcastInDim S1 ![] bcast_S_S1 (out0 A)⟩, ⟨S1, broadcastInDim S1 ![] bcast_S_S1 (out1 (F := F))⟩,
     ⟨S1, broadcastInDim S1 ![] bcast_S_S1 (out2 A)⟩, ⟨S1, broadcastInDim S1 ![] bcast_S_S1 (out3 A)⟩]
    concatenates_S1_S1_S1_S1_S4_d0

/-- The last operation of the tail: the four one-element results laid end to end. -/
abbrev lastOp : HloOp τ sig (Elt F) :=
  StableHlo.nary ![main_v35, main_v36, main_v37, main_v38] main_v39 (fun u => concatenate S4 0 [⟨S1, u 0⟩, ⟨S1, u 1⟩, ⟨S1, u 2⟩, ⟨S1, u 3⟩] concatenates_S1_S1_S1_S1_S4_d0)

/-- The tail without its last operation. -/
def hostPre : List (HloOp τ sig (Elt F)) := (hostOps1 (F := F)).dropLast

theorem hostOps1_split : (hostOps1 (F := F)) = hostPre (F := F) ++ [lastOp (F := F)] := rfl

/-- A line of operations followed by one more: the last one's result over the line's. -/
theorem after_concat (l : List (HloOp τ sig (Elt F))) (op : HloOp τ sig (Elt F)) (V : Valuation τ sig (Elt F)) :
    StableHlo.after (l ++ [op]) V = op.result (StableHlo.after l V) := by
  induction l generalizing V with
  | nil => rfl
  | cons a l ih => exact ih (a.result V)

/-- A buffer other than the result keeps, over the whole tail, what the tail without its last operation left there. -/
theorem after_pre (W : Valuation τ sig (Elt F)) {r : Ref sig .tc} (h : r ≠ main_v39) :
    StableHlo.after (hostPre (F := F)) W (Proc.devRef .tc r) = StableHlo.after (hostOps1 (F := F)) W (Proc.devRef .tc r) := by
  rw [hostOps1_split, after_concat, StableHlo.nary_result_ne]; exact h

theorem after_v35 (W : Valuation τ sig (Elt F)) :
    StableHlo.after (hostOps1 (F := F)) W (Proc.devRef .tc main_v35) = broadcastInDim S1 ![] bcast_S_S1 (out0 (W (Proc.devRef .tc main_v2))) := by
  after_results_simp
  rfl
theorem after_v36 (W : Valuation τ sig (Elt F)) :
    StableHlo.after (hostOps1 (F := F)) W (Proc.devRef .tc main_v36) = broadcastInDim S1 ![] bcast_S_S1 (out1 (F := F)) := by
  after_results_simp
  rfl
theorem after_v37 (W : Valuation τ sig (Elt F)) :
    StableHlo.after (hostOps1 (F := F)) W (Proc.devRef .tc main_v37) = broadcastInDim S1 ![] bcast_S_S1 (out2 (W (Proc.devRef .tc main_v2))) := by
  after_results_simp
  rfl
theorem after_v38 (W : Valuation τ sig (Elt F)) :
    StableHlo.after (hostOps1 (F := F)) W (Proc.devRef .tc main_v38) = broadcastInDim S1 ![] bcast_S_S1 (out3 (W (Proc.devRef .tc main_v2))) := by
  after_results_simp
  rfl

/-- Running the 45 operations from any contents `W` of the buffers leaves the result buffer at `tailFn` of `W`'s table. -/
theorem after_tail (W : Valuation τ sig (Elt F)) :
    StableHlo.after (hostOps1 (F := F)) W (Proc.devRef .tc main_v39) = tailFn (W (Proc.devRef .tc main_v2)) := by
  rw [hostOps1_split, after_concat, StableHlo.nary4_result,
    after_pre W (r := main_v35) (by decide), after_pre W (r := main_v36) (by decide),
    after_pre W (r := main_v37) (by decide), after_pre W (r := main_v38) (by decide),
    after_v35, after_v36, after_v37, after_v38]
  rfl

/-- None of the 45 operations writes the first argument. -/
theorem after_tail_arg0 (W : Valuation τ sig (Elt F)) :
    StableHlo.after (hostOps1 (F := F)) W (Proc.devRef .tc main_arg0) = W (Proc.devRef .tc main_arg0) := by
  after_results_simp

/-- None of the 45 operations writes the second argument. -/
theorem after_tail_arg1 (W : Valuation τ sig (Elt F)) :
    StableHlo.after (hostOps1 (F := F)) W (Proc.devRef .tc main_arg1) = W (Proc.devRef .tc main_arg1) := by
  after_results_simp

/-- None of the 45 operations writes the table. -/
theorem after_tail_table (W : Valuation τ sig (Elt F)) :
    StableHlo.after (hostOps1 (F := F)) W (Proc.devRef .tc main_v2) = W (Proc.devRef .tc main_v2) := by
  after_results_simp

end Cert.Kernel.Tail
-- ==== Proof.WFrame.lean ====
/-
  What the run says of the argument arrays and of the result.

  The run leaves every unscoped buffer at the last segment's valuation. The embeddings and the labels are
  written by no operation of @main (the two reshapes write the reshaped copies, the forty-five later
  operations each write their own result) and are only read by the region, so they end as launched; the
  result is the forty-five operations' one function of the table the region wrote.
-/
import proofs.«108788_j55748675502676_1_alg».proof.Proof.WLaunch
import proofs.«108788_j55748675502676_1_alg».proof.Proof.WTailValueA

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Neither reshape writes a buffer other than its own result. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The arguments reach the region as launched. -/
theorem V_arg0 (c : Dev nD) : V m c main_arg0 = m ((c : Thread nD τ).loc main_arg0) :=
  StableHlo.after_of_forall_not_mem (b := Proc.devRef .tc main_arg0) hostOps0 (Vl m c) (not_written0 main_arg0 (by decide))
theorem V_arg1 (c : Dev nD) : V m c main_arg1 = m ((c : Thread nD τ).loc main_arg1) :=
  StableHlo.after_of_forall_not_mem (b := Proc.devRef .tc main_arg1) hostOps0 (Vl m c) (not_written0 main_arg1 (by decide))

/-- And they end as launched. -/
theorem Vend_arg0 (c : Dev nD) : Vend m c (Proc.devRef .tc main_arg0) = m ((c : Thread nD τ).loc main_arg0) := by
  show StableHlo.after hostOps1 (Vx m c) (Proc.devRef .tc main_arg0) = _
  rw [Cert.Kernel.Tail.after_tail_arg0, Vx_of_ne m c main_arg0 (by decide)]
  exact V_arg0 m c
theorem Vend_arg1 (c : Dev nD) : Vend m c (Proc.devRef .tc main_arg1) = m ((c : Thread nD τ).loc main_arg1) := by
  show StableHlo.after hostOps1 (Vx m c) (Proc.devRef .tc main_arg1) = _
  rw [Cert.Kernel.Tail.after_tail_arg1, Vx_of_ne m c main_arg1 (by decide)]
  exact V_arg1 m c

/-- The result is the later operations' function of the table the region wrote. -/
theorem Vend_res (c : Dev nD) :
    Vend m c (Proc.devRef .tc main_v39) = Cert.Kernel.Tail.tailFn ((dats m 0 c).arrAt 4 cfg0.N) := by
  show StableHlo.after hostOps1 (Vx m c) (Proc.devRef .tc main_v39) = _
  rw [Cert.Kernel.Tail.after_tail, Vx_v2]

/-- An unscoped TensorCore reference is among the buffers the run's post speaks of. -/
theorem mem_ucR (b : Ref sig .tc) (hb : b.isScoped = false) : (Proc.devRef .tc b : DevRef τ sig) ∈ ucR := by
  unfold ucR Pipeline.ucRefs StableHlo.tcRefs
  refine Finset.mem_filter.mpr ⟨Finset.mem_map.mpr ⟨b, Finset.mem_univ _, rfl⟩, ?_⟩
  intro h
  exact Bool.false_ne_true (hb.symm.trans h)

/-- THE RUN, read at the result and the arguments: every weakly fair execution of @main terminates, nothing faulting,
    with the result at the later operations' function of the region's table and both arguments as launched. -/
theorem run_value : θ_run defs (onTc (τ := τ) (main (F := F))) ⟨m, fun _ => 0, ρ⟩ (fun r => ∀ c : Dev nD,
      r.2.mem ((c.tc : Thread nD τ).loc main_v39) = Cert.Kernel.Tail.tailFn ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucR main_v39 rfl)).trans (Vend_res m c),
     (h c _ (mem_ucR main_arg0 rfl)).trans (Vend_arg0 m c),
     (h c _ (mem_ucR main_arg1 rfl)).trans (Vend_arg1 m c)⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.Kernel.Hand

end
-- ==== Proof.KBase.lean ====
/-
  What the two runs of the kernel body, the contents point by point and the launch share.

  The grid has 64 points, point `t` at row block `t / 8` and column block `t % 8`. The body begins with a
  branch on "column block = 0": there it resets its eight accumulator columns (a scratch buffer of 512 rows
  by 8) to zero, elsewhere it keeps what the point before left. Stated here: that condition in closed form
  over the grid; each window's current buffer at a point as the pipeline passes it; the scratch as a buffer
  and as a view; and the region's invariant with the scratch spelled as a buffer owned at some contents.
-/
import proofs.«108788_j55748675502676_1_alg».proof.Proof.Gen.KernelIdeal.Launch
import proofs.«108788_j55748675502676_1_alg».proof.Proof.Gen.KernelIdeal.Skeleton
import proofs.«108788_j55748675502676_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition "column block = 0", as its scalar chain over the grid coordinates. -/
abbrev cond0 (i : grid0.Coords) : Prop :=
  (Scalar.cmpi .ne (Scalar.extui (Scalar.cmpi .eq (BitVec.ofNat 32 (i 1).val) 0#32)) 0#32) = 1#1

/-- It holds exactly at the points that start a row block. -/
theorem hcond0 : ∀ t : Fin cfg0.N, cond0 (grid0.coords t) ↔ t.val % 8 = 0 :=
  (by decide +kernel : ∀ t : Fin grid0.N, cond0 (grid0.coords t) ↔ t.val % 8 = 0)

/-- Each window's current buffer at point `t`, as the pipeline passes it to the body, and that it is a whole buffer. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x8 .f32 := win0_4.stage (cfg0.slots t 4)
abbrev hs4 (t : Fin cfg0.N) : (ms4 t).IsWhole := hstage0_4 ((cfg0.slots t 4).cast nbuf0_4)

/-- The accumulator: a whole scoped buffer of the kernel's own, and the view through which its contents are stated. -/
abbrev scM : Memref sig .tc .vmem S512x8 .f32 := Memref.whole cc0_scratch0
abbrev VS : View sig .tc .vmem S512x8 .f32 := scM.view
/-- One buffer of the result window, through which the result block's contents are stated. -/
abbrev VO : View sig .tc .vmem S512x8 .f32 := (Memref.whole cc0_stg4_0 : Memref sig .tc .vmem S512x8 .f32).view

/-- The invariant the launch hands the region: the accumulator owned at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- No window is idle at any point, and the result window is written back exactly at a row block's last point. -/
theorem live_all : ∀ (w : Fin cfg0.W) (t : Fin cfg0.N), cfg0.idle w (grid0.coords t) = false := fun _ _ => rfl

end Cert.KernelIdeal.Hand

end
-- ==== Proof.KRunA.lean ====
/-
  The kernel body run whole at a point that STARTS a row block (the branch "column block = 0" taken).

  On whole buffers — the four input blocks at given contents, the result block and the accumulator at
  anything — the body runs to the end and leaves the inputs as they were, the result block and the
  accumulator each overwritten by a list of pieces (last store first). The pieces are found by running the
  body: first the accumulator is stored whole with zeros, then each of its eight columns is loaded and
  stored back with the tile's row sum added, then the accumulator is loaded whole and stored into the
  result block.
-/
import proofs.«108788_j55748675502676_1_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a point where the accumulator is reset: the pieces the result block (`L4`) and the
    accumulator (`LS`) end with, and the body's triple over them. -/
noncomputable def runReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i)
    (x0 : Vec F S512x1024 .f32) (x1 : Vec F S512x1024 .f32) (x2 : Vec F S512x1 .i32) (x3 : Vec F S1x512 .i32) :
    Σ' (L4 : List (View.Piece (Elt F) S512x8 .f32)), { LS : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.KRunB.lean ====
/-
  The kernel body run whole at a point that CONTINUES a row block (the branch "column block = 0" not taken).

  On whole buffers — the four input blocks at given contents, the result block at anything, the accumulator
  at the contents `xs` the point before left — the body runs to the end and leaves the inputs as they were,
  the result block and the accumulator each overwritten by a list of pieces (last store first): each of the
  accumulator's eight columns is loaded and stored back with the tile's row sum added, then the accumulator
  is loaded whole and stored into the result block.
-/
import proofs.«108788_j55748675502676_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a point where the accumulator is carried: the pieces the result block (`L4`) and the
    accumulator (`LS`) end with, and the body's triple over them. -/
noncomputable def runCarry (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i)
    (x0 : Vec F S512x1024 .f32) (x1 : Vec F S512x1024 .f32) (x2 : Vec F S512x1 .i32) (x3 : Vec F S1x512 .i32) (xs : Vec F S512x8 .f32) :
    Σ' (L4 : List (View.Piece (Elt F) S512x8 .f32)), { LS : List (View.Piece (Elt F) S512x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

end Cert.KernelIdeal.Hand

end
-- ==== Proof.KData.lean ====
/-
  What the kernel region leaves, point by point, and the body's obligation at every point.

  At a point that starts a row block the accumulator ends at the tile's eight row sums over zeros; at any
  other point at the tile's row sums added to what the point before left; at every point the result block
  ends as a copy of the accumulator. `outsAt` is that recursion (result block, accumulator); the invariant
  between points says the accumulator holds `outsAt`'s second component of the point before (anything
  before the first point). The two input windows on the embeddings read ONE array: the region holds it as
  two half shares, one per window; the label arrays and the result array are held whole.
-/
import proofs.«108788_j55748675502676_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s buffer contents when the region is entered: after the two reshapes of the labels. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: the pieces read back, and that they cover -/

/-- The result block after a point that starts a row block: its one whole store read back. -/
def outA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) : Vec F S512x8 .f32 :=
  VO.read (Elt F) (VO.writes (Elt F) VO.junk (runReset c i arg2 harg2 arg3 harg3 arg4 harg4 arg5 harg5 arg6 harg6 arg7 harg7 hc x0 x1 x2 x3).1)
theorem coverA_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) (y : S512x8.Idx) :
    ∃ pc ∈ (runReset c i arg2 harg2 arg3 harg3 arg4 harg4 arg5 harg5 arg6 harg6 arg7 harg7 hc x0 x1 x2 x3).1, y ∈ pc.1.set :=
  View.cover_of_tiledL (runReset c i arg2 harg2 arg3 harg3 arg4 harg4 arg5 harg5 arg6 harg6 arg7 harg7 hc x0 x1 x2 x3).1 S512x8.size (by sl_kernel_rfl) y
/-- The accumulator after such a point: the zero fill and the eight column stores read back. -/
def soutA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) : Vec F S512x8 .f32 :=
  VS.read (Elt F) (VS.writes (Elt F) VS.junk (runReset c i arg2 harg2 arg3 harg3 arg4 harg4 arg5 harg5 arg6 harg6 arg7 harg7 hc x0 x1 x2 x3).2.1)
theorem coverA_s (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i) (x0 : Vec F S512x1024 .f32) (x1 : Vec F S512x1024 .f32) (x2 : Vec F S512x1 .i32) (x3 : Vec F S1x512 .i32) (y : S512x8.Idx) :
    ∃ pc ∈ (runReset c i arg2 harg2 arg3 harg3 arg4 harg4 arg5 harg5 arg6 harg6 arg7 harg7 hc x0 x1 x2 x3).2.1, y ∈ pc.1.set :=
  View.cover_of_wholeMem (runReset c i arg2 harg2 arg3 harg3 arg4 harg4 arg5 harg5 arg6 harg6 arg7 harg7 hc x0 x1 x2 x3).2.1 (by sl_whole_mem) y

/-- The result block after a point that continues a row block. -/
def outB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) : Vec F S512x8 .f32 :=
  VO.read (Elt F) (VO.writes (Elt F) VO.junk (runCarry c i arg2 harg2 arg3 harg3 arg4 harg4 arg5 harg5 arg6 harg6 arg7 harg7 hc x0 x1 x2 x3 xs).1)
theorem coverB_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) (y : S512x8.Idx) :
    ∃ pc ∈ (runCarry c i arg2 harg2 arg3 harg3 arg4 harg4 arg5 harg5 arg6 harg6 arg7 harg7 hc x0 x1 x2 x3 xs).1, y ∈ pc.1.set :=
  View.cover_of_tiledL (runCarry c i arg2 harg2 arg3 harg3 arg4 harg4 arg5 harg5 arg6 harg6 arg7 harg7 hc x0 x1 x2 x3 xs).1 S512x8.size (by sl_kernel_rfl) y
/-- The accumulator after such a point: the eight column stores read back (they tile it). -/
def soutB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) : Vec F S512x8 .f32 :=
  VS.read (Elt F) (VS.writes (Elt F) VS.junk (runCarry c i arg2 harg2 arg3 harg3 arg4 harg4 arg5 harg5 arg6 harg6 arg7 harg7 hc x0 x1 x2 x3 xs).2.1)
theorem coverB_s (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i) (x0 : Vec F S512x1024 .f32) (x1 : Vec F S512x1024 .f32) (x2 : Vec F S512x1 .i32) (x3 : Vec F S1x512 .i32) (xs : Vec F S512x8 .f32) (y : S512x8.Idx) :
    ∃ pc ∈ (runCarry c i arg2 harg2 arg3 harg3 arg4 harg4 arg5 harg5 arg6 harg6 arg7 harg7 hc x0 x1 x2 x3 xs).2.1, y ∈ pc.1.set :=
  View.cover_of_tiledL (runCarry c i arg2 harg2 arg3 harg3 arg4 harg4 arg5 harg5 arg6 harg6 arg7 harg7 hc x0 x1 x2 x3 xs).2.1 S512x1.size (by sl_kernel_rfl) y

/-! ## Point by point -/

/-- What the result window's buffer and the accumulator hold after the body at point `n`: at a row block's first point
    the reset case on the point's blocks, elsewhere the carry case on the point's blocks and the accumulator the point
    before left. -/
def outsAt (c : Dev nD) : (n : ℕ) → n < cfg0.N → Vec F S512x8 .f32 × Vec F S512x8 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 8 = 0 then
      (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩),
       soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- `outsAt` at a point that starts a row block. -/
theorem outsAt_A (c : Dev nD) (t : Fin cfg0.N) (h0 : t.val % 8 = 0) :
    outsAt m c t.val t.isLt = (outA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcond0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt` at a point that continues one: over what the point before left. -/
theorem outsAt_B (c : Dev nD) (t : Fin cfg0.N) (h0 : ¬t.val % 8 = 0) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2,
      soutB c (grid0.coords t) (ms0 t) (hs0 t) (ms1 t) (hs1 t) (ms2 t) (hs2 t) (ms3 t) (hs3 t) (ms4 t) (hs4 t) scM (Memref.isWhole_whole _) (fun h => h0 ((hcond0 t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before point `n`: before the first point the accumulator at anything; afterwards at what the
    point before left in it; the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The proof data on core `c`: the arrays as the region finds them; after the body each input's buffer at its block and
    the result's at `outsAt`; the invariant `PhiS`; nothing owed; the embeddings' array held as two halves, one per
    window on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 4800000 in
/-- The body at any point: the inputs' buffers hold their blocks; the closed form says which case the point is in; the
    invariant hands the body the accumulator (at anything before the first point, else at what the point before left)
    and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4]
  have hN : t.val < 64 := lt_of_lt_of_eq t.isLt (show cfg0.N = 64 from N_0)
  by_cases h0 : t.val % 8 = 0
  · rw [outsAt_A m c t h0]
    unfold outA soutA; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ ((hcond0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverA_s c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA_out c _ _ _ _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ ((hcond0 t).mpr h0) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverA_s c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverA_out c _ _ _ _ _ _ _ _ _ _ _ _ _ _ _ _ _ _)
  · rw [outsAt_B m c t h0]
    unfold outB soutB; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runCarry c (grid0.coords t) _ _ _ _ _ _ _ _ _ _ _ _ (fun h => h0 ((hcond0 t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverB_s c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB_out c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

end Cert.KernelIdeal.Hand

end
-- ==== Proof.KLaunch.lean ====
/-
  The launch: @main as three segments, and the run it gives.

  @main is two host operations (the two reshapes of the labels), the kernel region, and forty-five host
  operations on the region's result. Between segments a core holds every unscoped buffer whole at a
  valuation, the generator register at some state, and owes nothing. The region is entered by splitting the
  buffers behind its windows' arrays off the rest — the embeddings' buffer into two half shares, one for each
  of the two windows that read it — and left by joining the halves again (an input array is never written,
  so both halves still hold the entry contents) and putting the result array back at what the sixty-four
  write-backs left in it. The run's post: every unscoped buffer at the last segment's valuation.
-/
import proofs.«108788_j55748675502676_1_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unscoped TensorCore references, as device buffers: what a host segment runs within. -/
abbrev ucR : Finset (DevRef τ sig) := Pipeline.ucRefs τ sig

/-- Core `c`'s buffers at launch, as a valuation. -/
abbrev Vl (c : Dev nD) : Valuation τ sig (Elt F) := fun b => m (c, b)

/-- Core `c`'s buffers when the region is left: the result array at what the write-backs left, everything else as the
    region found it. -/
def Vx (c : Dev nD) : Valuation τ sig (Elt F) :=
  Function.update (V0 m c) (Proc.devRef .tc main_v2) ((dats m 0 c).arrAt 4 cfg0.N)

/-- Core `c`'s buffers at the end: after the forty-five operations that follow the region. -/
abbrev Vend (c : Dev nD) : Valuation τ sig (Elt F) := StableHlo.after hostOps1 (Vx m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers from segment to segment: the generator register at some state, and the core owing nothing. -/
abbrev R (c : Dev nD) : sProp 𝕄 := iprop((∃ r, prngReg c r) ∗ ∃ W, owes (c : Thread nD τ) (0 : CellTallies nD τ sig Unit) W)

/-! ## The windows' arrays, one by one -/

/-- The buffers behind the windows' arrays are four: the embeddings (two windows), the two reshaped label arrays, the result. -/
theorem arrRefs_eq : (Finset.univ.image (Pipeline.arrRef spec0) : Finset (Ref sig .tc)) = [main_arg0, main_v0, main_v1, main_v2].toFinset := by decide

/-- The pipeline's arrays at contents `G`, window by window: the embeddings' buffer as two halves. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The buffers behind the arrays, each whole at contents `W`, one by one. -/
theorem arrBufs_eq4 (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) :=
  bigSep_eq_bigSepL_of_eq [main_arg0, main_v0, main_v1, main_v2] arrRefs_eq (by decide) _

/-! ## Entering and leaving the region -/

theorem Vx_v2 (c : Dev nD) : Vx m c (Proc.devRef .tc main_v2) = (dats m 0 c).arrAt 4 cfg0.N := by
  unfold Vx; exact Function.update_self _ _ _
theorem Vx_of_ne (c : Dev nD) (b : Ref sig .tc) (hb : b ≠ main_v2) : Vx m c (Proc.devRef .tc b) = V m c b := by
  unfold Vx; exact Function.update_of_ne (fun h => hb (Proc.devRef_injective _ h)) _ _

/-- ENTRY: a core's unscoped buffers at the region-entry valuation are the pipeline's arrays at their entry contents —
    the embeddings' buffer dealt as two halves — and the buffers that bypass the region. -/
theorem entry_split (c : Dev nD) :
    (StableHlo.held (c : Thread nD τ) ucR (V0 m c) : sProp 𝕄)
      ⊢ iprop((dats m 0 c).arrays ((dats m 0 c).arrAt · 0) ∗ Pipeline.unscopedRest spec0 c (V m c)) := by
  rw [← Pipeline.unscopedBufs_held c (V0 m c)]
  rw [Pipeline.PerCore.unscopedBufs_split₀ (fun _ : Dev nD => cfgs) (0 : Fin 1) c winFacts₀0.arr_unscoped]
  rw [arrBufs_eq4, arrays_eq5]
  iintro ⟨⟨H0, H2, H3, H4⟩, Hr⟩
  ihave H0 := (pointsTo_share (PosShare.mem_left_op_right fullShare)).1 $$ H0
  icases H0 with ⟨H0a, H0b⟩
  isplitr [Hr]
  · isplitl [H0a]; · iexact H0a
    isplitl [H0b]; · iexact H0b
    isplitl [H2]; · iexact H2
    isplitl [H3]; · iexact H3
    iexact H4
  iexact Hr

/-- EXIT: the arrays at their final contents and the bypassing buffers are a core's unscoped buffers at the exit
    valuation: the inputs' arrays were never written, the two halves of the embeddings' buffer join. -/
theorem exit_join (c : Dev nD) :
    iprop((dats m 0 c).arrays ((dats m 0 c).arrAt · cfg0.N) ∗ Pipeline.unscopedRest spec0 c (V m c))
      ⊢ (StableHlo.held (c : Thread nD τ) ucR (Vx m c) : sProp 𝕄) := by
  rw [← Pipeline.unscopedBufs_held c (Vx m c)]
  rw [Pipeline.PerCore.unscopedBufs_split₀ (fun _ : Dev nD => cfgs) (0 : Fin 1) c winFacts₀0.arr_unscoped]
  have hrest : (Pipeline.unscopedRest spec0 c (fun b => Vx m c b) : sProp 𝕄) = Pipeline.unscopedRest spec0 c (V m c) := by
    unfold Pipeline.unscopedRest
    refine bigSep_congr fun b hb => ?_
    have hne : b ≠ main_v2 := fun h => (Finset.mem_sdiff.mp hb).2 (h ▸ Finset.mem_image.mpr ⟨4, Finset.mem_univ _, rfl⟩)
    dsimp only
    rw [Vx_of_ne m c b hne]
  rw [hrest]
  rw [arrBufs_eq4, arrays_eq5]
  dsimp only
  rw [Vx_of_ne m c main_arg0 (by decide), Vx_of_ne m c main_v0 (by decide), Vx_of_ne m c main_v1 (by decide), Vx_v2]
  rw [(dats m 0 c).arrAt_in 0 rfl, (dats m 0 c).arrAt_in 1 rfl, (dats m 0 c).arrAt_in 2 rfl, (dats m 0 c).arrAt_in 3 rfl]
  iintro ⟨⟨H0a, H0b, H2, H3, H4⟩, Hr⟩
  ihave H0 := (pointsTo_share (PosShare.mem_left_op_right fullShare)).2 $$ [H0a H0b]
  · isplitl [H0a]; · iexact H0a
    iexact H0b
  isplitr [Hr]
  · isplitl [H0]; · iexact H0
    isplitl [H2]; · iexact H2
    isplitl [H3]; · iexact H3
    iexact H4
  iexact Hr

/-! ## The three segments -/

/-- The two reshapes of the labels, over the unscoped buffers. -/
def seg0 : Pipeline.HostSeg (Name := ℕ) (U := UR sig nD τ) (pcfgs (F := F)) defs₀ 𝒱₀ L lv :=
  Pipeline.HostSeg.ofOps _ _ _ _ _ ucR hostOps0 (fun op h => Pipeline.sub_ucRefs op ((List.forall_iff_forall_mem.mp hostOps0_sub) op h))
    (fun op h => (List.forall_iff_forall_mem.mp hostOps0_fresh) op h) (Vl m) R

/-- The forty-five operations on the region's result, over the unscoped buffers. -/
def seg1 : Pipeline.HostSeg (Name := ℕ) (U := UR sig nD τ) (pcfgs (F := F)) defs₀ 𝒱₀ L lv :=
  Pipeline.HostSeg.ofOps _ _ _ _ _ ucR hostOps1 (fun op h => Pipeline.sub_ucRefs op ((List.forall_iff_forall_mem.mp hostOps1_sub) op h))
    (fun op h => (List.forall_iff_forall_mem.mp hostOps1_fresh) op h) (Vx m) R

-- an entailment stated over `cfgs p` at the pinned configuration unifies only when unification may unfold plain
-- definitions in a metavariable's type
set_option backward.isDefEq.respectTransparency.types false in
/-- The kernel region: the decided layout, no semaphore of the kernel's own, the body obligation; entered from what the
    reshapes left (the arrays into the pipeline, the generator register into the invariant, every other buffer
    bypassing), left with the result array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) ucR (StableHlo.after hostOps0 (Vl m c)) ∗ R c)
  post c := iprop(StableHlo.held (c : Thread nD τ) ucR (Vx m c) ∗ R c)
  X c := iprop(∃ r, prngReg c r)
  Y c := iprop(∃ r, prngReg c r)
  Z c := Pipeline.unscopedRest spec0 c (V m c)
  hentry c := by
    iintro ⟨⟨Hh, ⟨Hp, HO⟩⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := (show _ ⊢ Pipeline.ΦA spec0 c from by
    unfold Pipeline.ΦA
    iintro ⟨Hp, -, Hr⟩
    isplitl [Hr] <;> iassumption).trans (hin m c)
  hout c := by
    refine (hout m c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Hh := (exit_join m c) $$ [Ha HZ]
    · isplitl [Ha]; · iexact Ha
      iexact HZ
    imodintro
    isplitl [Hh]; · iexact Hh
    isplitl [HY]; · iexact HY
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What a core holds at the end: every unscoped buffer at the last valuation, the generator register at some state. -/
abbrev Tend (c : Dev nD) : sProp 𝕄 := iprop(StableHlo.held (c : Thread nD τ) ucR (Vend m c) ∗ ∃ r, prngReg c r)

-- the launch theorem's implicit arguments are found by unifying its conclusion with this one, which takes unfolding plain
-- definitions in a metavariable's type
set_option backward.isDefEq.respectTransparency.types false in
/-- At the compiled mesh, for any float values, from any memory with zero counters: every weakly fair execution of @main
    terminates, nothing faulting, and every final state has every unscoped buffer at the last segment's valuation. -/
theorem run_main : θ_run defs (onTc (τ := τ) (main (F := F))) ⟨m, fun _ => 0, ρ⟩
    (fun r => ∀ c : Dev nD, ∀ b ∈ ucR, r.2.mem ((c : Thread nD τ).1, b) = Vend m c b) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (Vl m c) ∗ R c)) (Tₙ := Tend m)
    (hch := ⟨fun _ => .rfl, fun _ => .rfl, fun _ => .rfl, fun c => by
      show iprop(StableHlo.held (c : Thread nD τ) ucR (StableHlo.after hostOps1 (Vx m c)) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) ucR (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucR, s.mem ((c : Thread nD τ).1, b) = Vend m c b)
    (hfin := fun c s' => by
      iintro ⟨⟨Hh, -⟩, HSI⟩
      unfold StableHlo.held
      imodintro
      iapply (pointsTo_read_all ucR (fun b => ((c : Thread nD τ).1, b)) (Vend m c) s')
      isplitl [Hh] <;> iassumption)
    (hQ := fun _ h => h)

end Cert.KernelIdeal.Hand

end
-- ==== Proof.TailValueA.lean ====
/-
  The host operations after the kernel region, as one pure function of the table of per-row sums.

  The table has eight columns. The tail cuts each column out as a vector over the 4096 rows, forms per row
  `(1 - p / (p + n)) * (log a + log b)` from columns 0 to 3, sums it over the rows and divides by 4096; it divides the total
  of column 4 by the total of column 6 and the total of column 5 by the total of column 7; and lays these three numbers
  and a zero end to end. `tailFn` is that composition, at any float instance; `after_tail` says that running the
  operations from any contents of the buffers leaves the result buffer at `tailFn` of the table's contents, and
  `after_tail_arg0`, `after_tail_arg1`, `after_tail_table` that the arguments and the table are left as they were.
-/
import proofs.«108788_j55748675502676_1_alg».proof.Proof.Gen.KernelIdeal.Launch
import proofs.«108788_j55748675502676_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section
namespace Cert.KernelIdeal.Tail
open Idealize.ShloMosaic Idealize.ShloMosaic.TcCoe
open Cert.KernelIdeal Cert.KernelIdeal.Gen

variable {F : FTy → Type} [FloatOps F]

/-- Column 0 of the table as a vector over its rows: the slice of that column with its unit axis dropped. -/
def col0 (A : FVec F S4096x8 .f32) : FVec F S4096 .f32 :=
  shapeCast S4096 (extractStridedSlice S4096x1 ![0, 0] A slices_S4096x8_S4096x1_0_0) shapeCasts_S4096x1_S4096
/-- Column 1 of the table. -/
def col1 (A : FVec F S4096x8 .f32) : FVec F S4096 .f32 :=
  shapeCast S4096 (extractStridedSlice S4096x1 ![0, 1] A slices_S4096x8_S4096x1_0_1) shapeCasts_S4096x1_S4096
/-- Column 2 of the table. -/
def col2 (A : FVec F S4096x8 .f32) : FVec F S4096 .f32 :=
  shapeCast S4096 (extractStridedSlice S4096x1 ![0, 2] A slices_S4096x8_S4096x1_0_2) shapeCasts_S4096x1_S4096
/-- Column 3 of the table. -/
def col3 (A : FVec F S4096x8 .f32) : FVec F S4096 .f32 :=
  shapeCast S4096 (extractStridedSlice S4096x1 ![0, 3] A slices_S4096x8_S4096x1_0_3) shapeCasts_S4096x1_S4096
/-- Column 4 of the table. -/
def col4 (A : FVec F S4096x8 .f32) : FVec F S4096 .f32 :=
  shapeCast S4096 (extractStridedSlice S4096x1 ![0, 4] A slices_S4096x8_S4096x1_0_4) shapeCasts_S4096x1_S4096
/-- Column 5 of the table. -/
def col5 (A : FVec F S4096x8 .f32) : FVec F S4096 .f32 :=
  shapeCast S4096 (extractStridedSlice S4096x1 ![0, 5] A slices_S4096x8_S4096x1_0_5) shapeCasts_S4096x1_S4096
/-- Column 6 of the table. -/
def col6 (A : FVec F S4096x8 .f32) : FVec F S4096 .f32 :=
  shapeCast S4096 (extractStridedSlice S4096x1 ![0, 6] A slices_S4096x8_S4096x1_0_6) shapeCasts_S4096x1_S4096
/-- Column 7 of the table. -/
def col7 (A : FVec F S4096x8 .f32) : FVec F S4096 .f32 :=
  shapeCast S4096 (extractStridedSlice S4096x1 ![0, 7] A slices_S4096x8_S4096x1_0_7) shapeCasts_S4096x1_S4096

/-- Per row: `(1 - p / (p + n)) * (log a + log b)` from columns 0 to 3. -/
def rowLoss (A : FVec F S4096x8 .f32) : FVec F S4096 .f32 :=
  mulf
    (subf (broadcastInDim S4096 ![] bcast_S_S4096 (constant (F := F) S_ .f32 0x3F800000#32))
      (Host.divf (col0 A) (addf (col0 A) (col1 A))))
    (addf (Host.log (col2 A)) (Host.log (col3 A)))

/-- The sum of a vector over the rows, from zero. -/
def sumRows (v : FVec F S4096 .f32) : FVec F S_ .f32 :=
  Host.reduceAdd v (constant (F := F) S_ .f32 0x00000000#32) reducesTo_S4096_S_d0 h_S_

/-- The first result: the mean over the rows of the per-row loss. -/
def out0 (A : FVec F S4096x8 .f32) : FVec F S_ .f32 :=
  Host.divf (sumRows (rowLoss A)) (constant (F := F) S_ .f32 0x45800000#32)
/-- The second result: zero. -/
def out1 : FVec F S_ .f32 := constant (F := F) S_ .f32 0x00000000#32
/-- The third result: total of column 4 over total of column 6. -/
def out2 (A : FVec F S4096x8 .f32) : FVec F S_ .f32 := Host.divf (sumRows (col4 A)) (sumRows (col6 A))
/-- The fourth result: total of column 5 over total of column 7. -/
def out3 (A : FVec F S4096x8 .f32) : FVec F S_ .f32 := Host.divf (sumRows (col5 A)) (sumRows (col7 A))

/-- The tail as one pure function of the table: the four results laid end to end. -/
def tailFn (A : FVec F S4096x8 .f32) : FVec F S4 .f32 :=
  concatenate S4 0
    [⟨S1, broadcastInDim S1 ![] bcast_S_S1 (out0 A)⟩, ⟨S1, broadcastInDim S1 ![] bcast_S_S1 (out1 (F := F))⟩,
     ⟨S1, broadcastInDim S1 ![] bcast_S_S1 (out2 A)⟩, ⟨S1, broadcastInDim S1 ![] bcast_S_S1 (out3 A)⟩]
    concatenates_S1_S1_S1_S1_S4_d0

/-- The last operation of the tail: the four one-element results laid end to end. -/
abbrev lastOp : HloOp τ sig (Elt F) :=
  StableHlo.nary ![main_v35, main_v36, main_v37, main_v38] main_v39 (fun u => concatenate S4 0 [⟨S1, u 0⟩, ⟨S1, u 1⟩, ⟨S1, u 2⟩, ⟨S1, u 3⟩] concatenates_S1_S1_S1_S1_S4_d0)

/-- The tail without its last operation. -/
def hostPre : List (HloOp τ sig (Elt F)) := (hostOps1 (F := F)).dropLast

theorem hostOps1_split : (hostOps1 (F := F)) = hostPre (F := F) ++ [lastOp (F := F)] := rfl

/-- A line of operations followed by one more: the last one's result over the line's. -/
theorem after_concat (l : List (HloOp τ sig (Elt F))) (op : HloOp τ sig (Elt F)) (V : Valuation τ sig (Elt F)) :
    StableHlo.after (l ++ [op]) V = op.result (StableHlo.after l V) := by
  induction l generalizing V with
  | nil => rfl
  | cons a l ih => exact ih (a.result V)

/-- A buffer other than the result keeps, over the whole tail, what the tail without its last operation left there. -/
theorem after_pre (W : Valuation τ sig (Elt F)) {r : Ref sig .tc} (h : r ≠ main_v39) :
    StableHlo.after (hostPre (F := F)) W (Proc.devRef .tc r) = StableHlo.after (hostOps1 (F := F)) W (Proc.devRef .tc r) := by
  rw [hostOps1_split, after_concat, StableHlo.nary_result_ne]; exact h

theorem after_v35 (W : Valuation τ sig (Elt F)) :
    StableHlo.after (hostOps1 (F := F)) W (Proc.devRef .tc main_v35) = broadcastInDim S1 ![] bcast_S_S1 (out0 (W (Proc.devRef .tc main_v2))) := by
  after_results_simp
  rfl
theorem after_v36 (W : Valuation τ sig (Elt F)) :
    StableHlo.after (hostOps1 (F := F)) W (Proc.devRef .tc main_v36) = broadcastInDim S1 ![] bcast_S_S1 (out1 (F := F)) := by
  after_results_simp
  rfl
theorem after_v37 (W : Valuation τ sig (Elt F)) :
    StableHlo.after (hostOps1 (F := F)) W (Proc.devRef .tc main_v37) = broadcastInDim S1 ![] bcast_S_S1 (out2 (W (Proc.devRef .tc main_v2))) := by
  after_results_simp
  rfl
theorem after_v38 (W : Valuation τ sig (Elt F)) :
    StableHlo.after (hostOps1 (F := F)) W (Proc.devRef .tc main_v38) = broadcastInDim S1 ![] bcast_S_S1 (out3 (W (Proc.devRef .tc main_v2))) := by
  after_results_simp
  rfl

/-- Running the 45 operations from any contents `W` of the buffers leaves the result buffer at `tailFn` of `W`'s table. -/
theorem after_tail (W : Valuation τ sig (Elt F)) :
    StableHlo.after (hostOps1 (F := F)) W (Proc.devRef .tc main_v39) = tailFn (W (Proc.devRef .tc main_v2)) := by
  rw [hostOps1_split, after_concat, StableHlo.nary4_result,
    after_pre W (r := main_v35) (by decide), after_pre W (r := main_v36) (by decide),
    after_pre W (r := main_v37) (by decide), after_pre W (r := main_v38) (by decide),
    after_v35, after_v36, after_v37, after_v38]
  rfl

/-- None of the 45 operations writes the first argument. -/
theorem after_tail_arg0 (W : Valuation τ sig (Elt F)) :
    StableHlo.after (hostOps1 (F := F)) W (Proc.devRef .tc main_arg0) = W (Proc.devRef .tc main_arg0) := by
  after_results_simp

/-- None of the 45 operations writes the second argument. -/
theorem after_tail_arg1 (W : Valuation τ sig (Elt F)) :
    StableHlo.after (hostOps1 (F := F)) W (Proc.devRef .tc main_arg1) = W (Proc.devRef .tc main_arg1) := by
  after_results_simp

/-- None of the 45 operations writes the table. -/
theorem after_tail_table (W : Valuation τ sig (Elt F)) :
    StableHlo.after (hostOps1 (F := F)) W (Proc.devRef .tc main_v2) = W (Proc.devRef .tc main_v2) := by
  after_results_simp

end Cert.KernelIdeal.Tail
-- ==== Proof.KFrame.lean ====
/-
  What the run says of the argument arrays and of the result.

  The run leaves every unscoped buffer at the last segment's valuation. The embeddings and the labels are
  written by no operation of @main (the two reshapes write the reshaped copies, the forty-five later
  operations each write their own result) and are only read by the region, so they end as launched; the
  result is the forty-five operations' one function of the table the region wrote.
-/
import proofs.«108788_j55748675502676_1_alg».proof.Proof.KLaunch
import proofs.«108788_j55748675502676_1_alg».proof.Proof.TailValueA

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Neither reshape writes a buffer other than its own result. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape_writes, Finset.mem_singleton] <;>
    exact StableHlo.devRef_ne_of_ne ‹_›

/-- The arguments reach the region as launched. -/
theorem V_arg0 (c : Dev nD) : V m c main_arg0 = m ((c : Thread nD τ).loc main_arg0) :=
  StableHlo.after_of_forall_not_mem (b := Proc.devRef .tc main_arg0) hostOps0 (Vl m c) (not_written0 main_arg0 (by decide))
theorem V_arg1 (c : Dev nD) : V m c main_arg1 = m ((c : Thread nD τ).loc main_arg1) :=
  StableHlo.after_of_forall_not_mem (b := Proc.devRef .tc main_arg1) hostOps0 (Vl m c) (not_written0 main_arg1 (by decide))

/-- And they end as launched. -/
theorem Vend_arg0 (c : Dev nD) : Vend m c (Proc.devRef .tc main_arg0) = m ((c : Thread nD τ).loc main_arg0) := by
  show StableHlo.after hostOps1 (Vx m c) (Proc.devRef .tc main_arg0) = _
  rw [Cert.KernelIdeal.Tail.after_tail_arg0, Vx_of_ne m c main_arg0 (by decide)]
  exact V_arg0 m c
theorem Vend_arg1 (c : Dev nD) : Vend m c (Proc.devRef .tc main_arg1) = m ((c : Thread nD τ).loc main_arg1) := by
  show StableHlo.after hostOps1 (Vx m c) (Proc.devRef .tc main_arg1) = _
  rw [Cert.KernelIdeal.Tail.after_tail_arg1, Vx_of_ne m c main_arg1 (by decide)]
  exact V_arg1 m c

/-- The result is the later operations' function of the table the region wrote. -/
theorem Vend_res (c : Dev nD) :
    Vend m c (Proc.devRef .tc main_v39) = Cert.KernelIdeal.Tail.tailFn ((dats m 0 c).arrAt 4 cfg0.N) := by
  show StableHlo.after hostOps1 (Vx m c) (Proc.devRef .tc main_v39) = _
  rw [Cert.KernelIdeal.Tail.after_tail, Vx_v2]

/-- An unscoped TensorCore reference is among the buffers the run's post speaks of. -/
theorem mem_ucR (b : Ref sig .tc) (hb : b.isScoped = false) : (Proc.devRef .tc b : DevRef τ sig) ∈ ucR := by
  unfold ucR Pipeline.ucRefs StableHlo.tcRefs
  refine Finset.mem_filter.mpr ⟨Finset.mem_map.mpr ⟨b, Finset.mem_univ _, rfl⟩, ?_⟩
  intro h
  exact Bool.false_ne_true (hb.symm.trans h)

/-- THE RUN, read at the result and the arguments: every weakly fair execution of @main terminates, nothing faulting,
    with the result at the later operations' function of the region's table and both arguments as launched. -/
theorem run_value : θ_run defs (onTc (τ := τ) (main (F := F))) ⟨m, fun _ => 0, ρ⟩ (fun r => ∀ c : Dev nD,
      r.2.mem ((c.tc : Thread nD τ).loc main_v39) = Cert.KernelIdeal.Tail.tailFn ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucR main_v39 rfl)).trans (Vend_res m c),
     (h c _ (mem_ucR main_arg0 rfl)).trans (Vend_arg0 m c),
     (h c _ (mem_ucR main_arg1 rfl)).trans (Vend_arg1 m c)⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.KernelIdeal.Hand

end
-- ==== Proof.KBlocks.lean ====
/-
  The windows' blocks, read off the arguments.

  Point `t` of the grid works on row block `t / 8` and column block `t % 8`. The first window's block there is
  rows `512 (t / 8) …` of the embeddings, the second's rows `512 (t % 8) …` of the SAME array; the third and fourth
  are the labels of those rows and of those columns, read through the two reshaped copies of the label vector
  (a column [4096,1] and a row [1,4096]) that @main makes before the region.
-/
import proofs.«108788_j55748675502676_1_alg».proof.Proof.KFrame
import proofs.«108788_j55748675502676_1_alg».proof.Proof.Spec
import Idealize.ShloMosaic.Lib.ValueIdx
import Idealize.ShloMosaic.Lib.Pipeline.Value

noncomputable section

namespace Cert.KernelIdeal.Hand

open Cert.KernelIdeal Cert.KernelIdeal.Gen Cert.PairStats
open Idealize.ShloMosaic Idealize.ShloMosaic.TcCoe Idealize.ShloMosaic.ValueIdx
open Idealize.SL Idealize.SL.Sem
open Idealize.ShloMosaic.Pipeline (Dat Cfg)

variable {F : FTy → Type} [FloatOps F]

variable (m : (ℓ : Loc nD τ sig) → Buf (Elt F) ℓ)

/-- The row block and the column block of point `t`. -/
def Ipt (t : Fin cfg0.N) : Fin 8 := ⟨t.val / 8, by have : t.val < 64 := lt_of_lt_of_eq t.isLt (show cfg0.N = 64 from N_0); omega⟩
def Jpt (t : Fin cfg0.N) : Fin 8 := ⟨t.val % 8, by omega⟩

/-- The embeddings and the labels as launched. -/
abbrev xOf (c : Dev nD) : SX.Idx → Elt F .f32 := m ((c : Thread nD τ).loc main_arg0)
abbrev tgOf (c : Dev nD) : ST.Idx → BitVec 32 := m ((c : Thread nD τ).loc main_arg1)

/-- The printed index maps and the grid's coordinates, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ ((grid0.coords t) 0).val = t.val / 8 ∧ ((grid0.coords t) 1).val = t.val % 8 :=
  (by decide +kernel : ∀ t : Fin grid0.N, _)

theorem coords0 (t : Fin cfg0.N) : ((grid0.coords t) 0).val = (Ipt t).val := (idx_facts t).2.2.2.2.2.2.2.2.2.2.1
theorem coords1 (t : Fin cfg0.N) : ((grid0.coords t) 1).val = (Jpt t).val := (idx_facts t).2.2.2.2.2.2.2.2.2.2.2

/-- The column of labels the region finds: the label vector reshaped. -/
theorem V_v0 (c : Dev nD) (r : Fin 4096) : V m c main_v0 (ix2 r (0 : Fin 1)) = tgOf m c (ix1 r) := by
  have e : (V m c main_v0 : S4096x1.Idx → BitVec 32) = shapeCast S4096x1 (tgOf m c) shapeCasts_S4096_S4096x1 := by
    dsimp only [V, V0, hostOps0]; after_results; rfl
  rw [e]
  exact shapeCast_apply _ _ _ _ (by rw [Shape.rowMajor_val_one, Shape.rowMajor_val_two]; show r.val = r.val * 1 + 0; omega)

/-- The row of labels the region finds: the label vector reshaped. -/
theorem V_v1 (c : Dev nD) (r : Fin 4096) : V m c main_v1 (ix2 (0 : Fin 1) r) = tgOf m c (ix1 r) := by
  have e : (V m c main_v1 : S1x4096.Idx → BitVec 32) = shapeCast S1x4096 (tgOf m c) shapeCasts_S4096_S1x4096 := by
    dsimp only [V, V0, hostOps0]; after_results; rfl
  rw [e]
  exact shapeCast_apply _ _ _ _ (by rw [Shape.rowMajor_val_one, Shape.rowMajor_val_two]; show r.val = 0 * 4096 + r.val; omega)

/-- The first window's block at point `t`: rows of row block `t / 8`. -/
theorem blk0 (c : Dev nD) (t : Fin cfg0.N) (p : Fin 512) (k : Fin 1024) :
    iblk m c 0 t (ix2 p k) = xOf m c (ix2 (row (Ipt t) p) k) := by
  unfold iblk
  show V m c main_arg0 (((cfg0.win 0).blk t).view.emb (ix2 p k)) = _
  rw [V_arg0]
  obtain ⟨e0, e1, -⟩ := idx_facts t
  refine congrArg (m ((c : Thread nD τ).loc main_arg0)) (funext fun a => Fin.ext ?_)
  match a with
  | ⟨0, _⟩ => show win0_0.index t (0 : Fin 2) * 512 + 1 * p.val = 512 * (t.val / 8) + p.val; omega
  | ⟨1, _⟩ => show win0_0.index t (1 : Fin 2) * 1024 + 1 * k.val = k.val; omega

/-- The second window's block at point `t`: rows of row block `t % 8` of the same array. -/
theorem blk1 (c : Dev nD) (t : Fin cfg0.N) (q : Fin 512) (k : Fin 1024) :
    iblk m c 1 t (ix2 q k) = xOf m c (ix2 (row (Jpt t) q) k) := by
  unfold iblk
  show V m c main_arg0 (((cfg0.win 1).blk t).view.emb (ix2 q k)) = _
  rw [V_arg0]
  obtain ⟨-, -, e0, e1, -⟩ := idx_facts t
  refine congrArg (m ((c : Thread nD τ).loc main_arg0)) (funext fun a => Fin.ext ?_)
  match a with
  | ⟨0, _⟩ => show win0_1.index t (0 : Fin 2) * 512 + 1 * q.val = 512 * (t.val % 8) + q.val; omega
  | ⟨1, _⟩ => show win0_1.index t (1 : Fin 2) * 1024 + 1 * k.val = k.val; omega

/-- The third window's block at point `t`: the labels of the rows of row block `t / 8`. -/
theorem blk2 (c : Dev nD) (t : Fin cfg0.N) (p : Fin 512) :
    iblk m c 2 t (ix2 p (0 : Fin 1)) = tgOf m c (ix1 (row (Ipt t) p)) := by
  unfold iblk
  show V m c main_v0 (((cfg0.win 2).blk t).view.emb (ix2 p (0 : Fin 1))) = _
  rw [← V_v0 m c (row (Ipt t) p)]
  obtain ⟨-, -, -, -, e0, e1, -⟩ := idx_facts t
  refine congrArg (V m c main_v0) (funext fun a => Fin.ext ?_)
  match a with
  | ⟨0, _⟩ => show win0_2.index t (0 : Fin 2) * 512 + 1 * p.val = 512 * (t.val / 8) + p.val; omega
  | ⟨1, _⟩ => show win0_2.index t (1 : Fin 2) * 1 + 1 * 0 = 0; omega

/-- The fourth window's block at point `t`: the labels of the rows of row block `t % 8`. -/
theorem blk3 (c : Dev nD) (t : Fin cfg0.N) (q : Fin 512) :
    iblk m c 3 t (ix2 (0 : Fin 1) q) = tgOf m c (ix1 (row (Jpt t) q)) := by
  unfold iblk
  show V m c main_v1 (((cfg0.win 3).blk t).view.emb (ix2 (0 : Fin 1) q)) = _
  rw [← V_v1 m c (row (Jpt t) q)]
  obtain ⟨-, -, -, -, -, -, e0, e1, -⟩ := idx_facts t
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 512 + 1 * q.val = 512 * (t.val % 8) + q.val; omega

end Cert.KernelIdeal.Hand

end
-- ==== Proof.SpecSum.lean ====
/-
  Re-indexing a sum over the 4096 columns as a double sum over the 8 blocks of 512 columns.
-/
import proofs.«108788_j55748675502676_1_alg».proof.Proof.Spec
import Mathlib.Algebra.BigOperators.Group.Finset.Defs
import Mathlib.Data.Fintype.BigOperators

noncomputable section

open scoped BigOperators

namespace Cert.PairStats

open Idealize.ShloMosaic Idealize.ShloMosaic.ValueIdx

theorem row_val (I : Fin 8) (p : Fin 512) : (row I p).val = 512 * I.val + p.val := rfl

/-- Every row is some row of some block. -/
theorem row_surj (r : Fin 4096) : ∃ (I : Fin 8) (p : Fin 512), r = row I p := by
  refine ⟨⟨r.val / 512, by have := r.isLt; omega⟩, ⟨r.val % 512, by omega⟩, ?_⟩
  apply Fin.ext
  simp only [row_val]
  omega

/-- The block and the place inside the block are determined by the row. -/
theorem row_inj {I I' : Fin 8} {p p' : Fin 512} (h : row I p = row I' p') : I = I' ∧ p = p' := by
  have h' : 512 * I.val + p.val = 512 * I'.val + p'.val := by
    have := congrArg Fin.val h
    simpa only [row_val] using this
  have hp := p.isLt
  have hp' := p'.isLt
  constructor
  · apply Fin.ext; omega
  · apply Fin.ext; omega

/-- Pairs (block, place) correspond one to one to rows. -/
def rowEquiv : Fin 8 × Fin 512 ≃ Fin 4096 where
  toFun jq := row jq.1 jq.2
  invFun r := (⟨r.val / 512, by have := r.isLt; omega⟩, ⟨r.val % 512, by omega⟩)
  left_inv := by
    rintro ⟨J, q⟩
    have hq := q.isLt
    apply Prod.ext
    · apply Fin.ext
      simp only [row_val]
      omega
    · apply Fin.ext
      simp only [row_val]
      omega
  right_inv := by
    intro r
    apply Fin.ext
    simp only [row_val]
    omega

theorem rowEquiv_apply (J : Fin 8) (q : Fin 512) : rowEquiv (J, q) = row J q := rfl

/-- A sum over all rows is the sum over the blocks of the sums over each block's rows. -/
theorem sum_rows (f : Fin 4096 → EReal) : ∑ c : Fin 4096, f c = ∑ J : Fin 8, ∑ q : Fin 512, f (row J q) := by
  rw [← Equiv.sum_comp rowEquiv f, Fintype.sum_prod_type]
  rfl

/-- A row quantity is the sum of its eight tile parts. -/
theorem stat_eq_sum_tiles (x : SX.Idx → EReal) (tg : ST.Idx → BitVec 32) (k : Fin 8) (I : Fin 8) (p : Fin 512) :
    stat x tg (row I p) k = ∑ J : Fin 8, tileStat x tg k I J p := by
  unfold stat tileStat
  exact sum_rows _

end Cert.PairStats

end
-- ==== Proof.KPiecesL.lean ====
/-
  Eight column stores into a block of 512 rows by 8, read back as one function.

  A list of writes, last first, whose `n` newest are the columns `n-1, …, 0` of the block, each holding "what the column held
  before plus that column's row sum", reads at `(r, k)`: for a column `k < n` already stored, the base value there plus the
  row sum; for a later column, what the writes underneath left. Stated once as an invariant and its step, for a column
  loaded from the writes underneath (the accumulator was just filled with zeros) and for a column loaded from the contents
  the block started with.
-/
import proofs.«108788_j55748675502676_1_alg».proof.Proof.KData
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- A write into the 512 by 8 block, over the extended reals. -/
abbrev Pc : Type := View.Piece (Elt Ideal) S512x8 .f32

theorem hz2 : (![0, 0] : Fin 2 → Nat) = fun _ => 0 := funext fun a => by fin_cases a <;> rfl

/-- Under a newest write that is column `n`, entry `(r, n)` is the write's entry `r`. -/
theorem canon_col_hit (n : Nat) (hn : n < 8) (inb : ∀ a, (![0, n] : Fin 2 → Nat) a + (![512, 1] : Fin 2 → Nat) a ≤ S512x8.size a)
    (w : (⟨2, ![512, 1]⟩ : Shape).Idx → EReal) (L : List Pc) (r : Fin 512) :
    View.canon ((⟨Rect.unit (s := S512x8) ![0, n] ![512, 1] inb, w⟩ : Pc) :: L) (ix2 r (⟨n, hn⟩ : Fin 8)) = w (ix2 r (0 : Fin 1)) := by
  have e : (Rect.unit (s := S512x8) ![0, n] ![512, 1] inb).emb (ix2 r (0 : Fin 1)) = ix2 r (⟨n, hn⟩ : Fin 8) :=
    funext fun a => Fin.ext (by
      rw [Rect.emb_apply]
      match a with
      | ⟨0, _⟩ => show 0 + 1 * r.val = r.val; omega
      | ⟨1, _⟩ => show n + 1 * 0 = n; omega)
  rw [← e]
  exact View.canon_cons_emb (Rect.unit (s := S512x8) ![0, n] ![512, 1] inb) w L (ix2 r (0 : Fin 1))

/-- Off column `n`, the newest write being column `n`, an entry is what the writes underneath left. -/
theorem canon_col_miss (n : Nat) (inb : ∀ a, (![0, n] : Fin 2 → Nat) a + (![512, 1] : Fin 2 → Nat) a ≤ S512x8.size a)
    (w : (⟨2, ![512, 1]⟩ : Shape).Idx → EReal) (L : List Pc) (r : Fin 512) (k : Fin 8) (hk : k.val ≠ n) :
    View.canon ((⟨Rect.unit (s := S512x8) ![0, n] ![512, 1] inb, w⟩ : Pc) :: L) (ix2 r k) = View.canon L (ix2 r k) := by
  refine View.canon_cons_of_not_mem _ L ?_
  rw [Rect.mem_set_unit]
  intro h
  have h1 : n ≤ k.val ∧ k.val < n + 1 := h 1
  omega

/-- A load of column `n` after the writes `L` reads, at row `r`, what they left at `(r, n)`. -/
theorem readCov_col {sg : RefSig} {κ : Kind} {sp : Space} (v : View sg κ sp S512x8 .f32) (n : Nat) (hn : n < 8)
    (inb : ∀ a, (![0, n] : Fin 2 → Nat) a + (![512, 1] : Fin 2 → Nat) a ≤ S512x8.size a) (L : List Pc) (r : Fin 512) (u : Fin 1) :
    v.readCov L (Rect.unit (s := S512x8) ![0, n] ![512, 1] inb).toLoadRect (ix2 r u) = View.canon L (ix2 r (⟨n, hn⟩ : Fin 8)) := by
  rw [View.readCov_eq_canon']
  refine congrArg (View.canon L) (funext fun a => Fin.ext ?_)
  rw [LoadRect.idx_apply]
  have hu : u.val = 0 := by omega
  match a with
  | ⟨0, _⟩ => show 0 + 1 * r.val = r.val; omega
  | ⟨1, _⟩ => show n + 1 * u.val = n; omega

/-- A load of column `n` of a whole buffer holding `xs` reads, at row `r`, `xs` at `(r, n)`. -/
theorem readAt_col (M : Memref sig .tc .vmem S512x8 .f32) (hM : M.IsWhole) (xs : Vec Ideal S512x8 .f32) (n : Nat) (hn : n < 8)
    (inb : ∀ a, (![0, n] : Fin 2 → Nat) a + (![512, 1] : Fin 2 → Nat) a ≤ S512x8.size a) (r : Fin 512) (u : Fin 1) :
    View.readAt (Elt Ideal) M.view (Rect.unit (s := S512x8) ![0, n] ![512, 1] inb).toLoadRect (hM.unread xs) (ix2 r u)
      = xs (ix2 r (⟨n, hn⟩ : Fin 8)) := by
  rw [View.readAt_eq_ld, hM.read_unread]
  refine congrArg xs (funext fun a => Fin.ext ?_)
  rw [LoadRect.idx_apply]
  have hu : u.val = 0 := by omega
  match a with
  | ⟨0, _⟩ => show 0 + 1 * r.val = r.val; omega
  | ⟨1, _⟩ => show n + 1 * u.val = n; omega

/-- A load of a whole buffer through the whole-shape rectangle reads its contents. -/
theorem readAt_whole {S : Shape} {e : EltTy} (M : Memref sig .tc .vmem S e) (hM : M.IsWhole) (off : Fin S.rank → Nat)
    (hoff : off = fun _ => 0) (inb : ∀ a, off a + S.size a ≤ S.size a) (x : Vec Ideal S e) :
    View.readAt (Elt Ideal) M.view (Rect.unit off S.size inb).toLoadRect (hM.unread x) = x := by
  rw [View.readAt_eq_ld, hM.read_unread, View.ld_unit_zero hoff]

/-! ## The invariant of the column stores -/

/-- After the `n` newest writes of `L` stored columns `n-1, …, 0`: a stored column holds the base `B` plus its row sum `T k`,
    a later column what lies underneath, `U`. -/
def ColInv (T : Fin 8 → (⟨2, ![512, 1]⟩ : Shape).Idx → EReal) (B U : S512x8.Idx → EReal) (n : Nat) (L : List Pc) : Prop :=
  ∀ (r : Fin 512) (k : Fin 8), View.canon L (ix2 r k) = if k.val < n then B (ix2 r k) + T k (ix2 r (0 : Fin 1)) else U (ix2 r k)

/-- One more column stored, holding the base there plus its row sum. -/
theorem ColInv.step {T : Fin 8 → (⟨2, ![512, 1]⟩ : Shape).Idx → EReal} {B U : S512x8.Idx → EReal} {n : Nat} {L : List Pc}
    (hL : ColInv T B U n L) (hn : n < 8) (inb : ∀ a, (![0, n] : Fin 2 → Nat) a + (![512, 1] : Fin 2 → Nat) a ≤ S512x8.size a)
    (w : (⟨2, ![512, 1]⟩ : Shape).Idx → EReal)
    (hw : ∀ r : Fin 512, w (ix2 r (0 : Fin 1)) = B (ix2 r (⟨n, hn⟩ : Fin 8)) + T ⟨n, hn⟩ (ix2 r (0 : Fin 1))) :
    ColInv T B U (n + 1) ((⟨Rect.unit (s := S512x8) ![0, n] ![512, 1] inb, w⟩ : Pc) :: L) := by
  intro r k
  by_cases hk : k.val = n
  · obtain rfl : k = ⟨n, hn⟩ := Fin.ext hk
    rw [canon_col_hit n hn inb w L r, if_pos (Nat.lt_succ_self n), hw r]
  · rw [canon_col_miss n inb w L r k hk, hL r k]
    by_cases h1 : k.val < n
    · rw [if_pos h1, if_pos (Nat.lt_succ_of_lt h1)]
    · rw [if_neg h1, if_neg (by omega)]

/-- The step when the column was loaded from the buffer's starting contents `xs`. -/
theorem ColInv.stepB {T : Fin 8 → (⟨2, ![512, 1]⟩ : Shape).Idx → EReal} {xs U : S512x8.Idx → EReal} {n : Nat} {L : List Pc}
    (hL : ColInv T xs U n L) (M : Memref sig .tc .vmem S512x8 .f32) (hM : M.IsWhole) (hn : n < 8)
    (inb : ∀ a, (![0, n] : Fin 2 → Nat) a + (![512, 1] : Fin 2 → Nat) a ≤ S512x8.size a)
    (pay : FVec Ideal S512x1 .f32 → Vec Ideal S512x1 .f32 → FVec Ideal S512x1 .f32)
    (hpay : ∀ (s : FVec Ideal S512x1 .f32) (v : Vec Ideal S512x1 .f32) (x : S512x1.Idx), pay s v x = v x + s x) :
    ColInv T xs U (n + 1) ((⟨Rect.unit (s := S512x8) ![0, n] ![512, 1] inb,
      pay (T ⟨n, hn⟩) (View.readAt (Elt Ideal) M.view (Rect.unit (s := S512x8) ![0, n] ![512, 1] inb).toLoadRect (hM.unread xs))⟩ : Pc) :: L) :=
  hL.step hn inb _ fun r => by rw [hpay, readAt_col M hM xs n hn inb r 0]

/-- The step when the column was loaded from the writes underneath, which left zeros there. -/
theorem ColInv.stepA {T : Fin 8 → (⟨2, ![512, 1]⟩ : Shape).Idx → EReal} {n : Nat} {L : List Pc}
    (hL : ColInv T (fun _ => 0) (fun _ => 0) n L) {sg : RefSig} {κ : Kind} {sp : Space} (v : View sg κ sp S512x8 .f32) (hn : n < 8)
    (inb : ∀ a, (![0, n] : Fin 2 → Nat) a + (![512, 1] : Fin 2 → Nat) a ≤ S512x8.size a)
    (pay : FVec Ideal S512x1 .f32 → Vec Ideal S512x1 .f32 → FVec Ideal S512x1 .f32)
    (hpay : ∀ (s : FVec Ideal S512x1 .f32) (v : Vec Ideal S512x1 .f32) (x : S512x1.Idx), pay s v x = v x + s x) :
    ColInv T (fun _ => 0) (fun _ => 0) (n + 1) ((⟨Rect.unit (s := S512x8) ![0, n] ![512, 1] inb,
      pay (T ⟨n, hn⟩) (v.readCov L (Rect.unit (s := S512x8) ![0, n] ![512, 1] inb).toLoadRect)⟩ : Pc) :: L) :=
  hL.step hn inb _ fun r => by rw [hpay, readCov_col v n hn inb L r 0, hL r ⟨n, hn⟩, if_neg (Nat.lt_irrefl n)]

/-! ## The eight stored payloads: the loaded column plus the row sum -/

theorem pay21_apply (s : FVec Ideal S512x1 .f32) (v : Vec Ideal S512x1 .f32) (x : S512x1.Idx) : k0_pay21 (F := Ideal) s v x = v x + s x := by
  unfold k0_pay21
  show shapeCast S512x1 (addf v s) shapeCasts_S512x1_S512x1 x = _
  rw [shapeCast_self]; rfl
theorem pay22_apply (s : FVec Ideal S512x1 .f32) (v : Vec Ideal S512x1 .f32) (x : S512x1.Idx) : k0_pay22 (F := Ideal) s v x = v x + s x := by
  unfold k0_pay22
  show shapeCast S512x1 (addf v s) shapeCasts_S512x1_S512x1 x = _
  rw [shapeCast_self]; rfl
theorem pay23_apply (s : FVec Ideal S512x1 .f32) (v : Vec Ideal S512x1 .f32) (x : S512x1.Idx) : k0_pay23 (F := Ideal) s v x = v x + s x := by
  unfold k0_pay23
  show shapeCast S512x1 (addf v s) shapeCasts_S512x1_S512x1 x = _
  rw [shapeCast_self]; rfl
theorem pay24_apply (s : FVec Ideal S512x1 .f32) (v : Vec Ideal S512x1 .f32) (x : S512x1.Idx) : k0_pay24 (F := Ideal) s v x = v x + s x := by
  unfold k0_pay24
  show shapeCast S512x1 (addf v s) shapeCasts_S512x1_S512x1 x = _
  rw [shapeCast_self]; rfl
theorem pay1_apply (s : FVec Ideal S512x1 .f32) (v : Vec Ideal S512x1 .f32) (x : S512x1.Idx) :
    k0_pay1 (F := Ideal) (k0_pay25 (F := Ideal) s v) x = v x + s x := by
  unfold k0_pay1 k0_pay25
  show shapeCast S512x1 (addf v s) shapeCasts_S512x1_S512x1 x = _
  rw [shapeCast_self]; rfl
theorem pay2_apply (s : FVec Ideal S512x1 .f32) (v : Vec Ideal S512x1 .f32) (x : S512x1.Idx) : k0_pay2 (F := Ideal) s v x = v x + s x := by
  unfold k0_pay2
  show shapeCast S512x1 (addf v s) shapeCasts_S512x1_S512x1 x = _
  rw [shapeCast_self]; rfl
theorem pay3_apply (s : FVec Ideal S512x1 .f32) (v : Vec Ideal S512x1 .f32) (x : S512x1.Idx) : k0_pay3 (F := Ideal) s v x = v x + s x := by
  unfold k0_pay3
  show shapeCast S512x1 (addf v s) shapeCasts_S512x1_S512x1 x = _
  rw [shapeCast_self]; rfl
theorem pay4_apply (s : FVec Ideal S512x1 .f32) (v : Vec Ideal S512x1 .f32) (x : S512x1.Idx) : k0_pay4 (F := Ideal) s v x = v x + s x := by
  unfold k0_pay4
  show shapeCast S512x1 (addf v s) shapeCasts_S512x1_S512x1 x = _
  rw [shapeCast_self]; rfl

/-- The zero fill is zero everywhere. -/
theorem pay5_apply (y : S512x8.Idx) : k0_pay5 (F := Ideal) y = 0 := by
  unfold k0_pay5
  show shapeCast S512x8 (broadcast S512x8 (Scalar.ofBits (F := Ideal) .f32 0x00000000#32)) shapeCasts_S512x8_S512x8 y = _
  rw [shapeCast_self]
  exact Ideal.ofBits_zero_f32

/-- The tile's eight row sums, by column of the accumulator. -/
def tileCol (i : grid0.Coords) (x0 x1 : Vec Ideal S512x1024 .f32) (x2 : Vec Ideal S512x1 .i32) (x3 : Vec Ideal S1x512 .i32) :
    Fin 8 → FVec Ideal S512x1 .f32
  | ⟨0, _⟩ => k0_pay12 (F := Ideal) (k0_pay6 (F := Ideal) x0 x1) (k0_pay7 (F := Ideal) x2 x3) (k0_pay8 i)
  | ⟨1, _⟩ => k0_pay13 (F := Ideal) (k0_pay6 (F := Ideal) x0 x1) (k0_pay7 (F := Ideal) x2 x3)
  | ⟨2, _⟩ => k0_pay14 (F := Ideal) (k0_pay6 (F := Ideal) x0 x1) (k0_pay7 (F := Ideal) x2 x3) (k0_pay8 i)
  | ⟨3, _⟩ => k0_pay15 (F := Ideal) (k0_pay6 (F := Ideal) x0 x1) (k0_pay7 (F := Ideal) x2 x3)
  | ⟨4, _⟩ => k0_pay16 (F := Ideal) (k0_pay6 (F := Ideal) x0 x1) (k0_pay7 (F := Ideal) x2 x3) (k0_pay8 i)
  | ⟨5, _⟩ => k0_pay18 (F := Ideal) (k0_pay17 (F := Ideal) (k0_pay6 (F := Ideal) x0 x1) (k0_pay7 (F := Ideal) x2 x3))
  | ⟨6, _⟩ => k0_pay19 (F := Ideal) (k0_pay9 (k0_pay7 (F := Ideal) x2 x3) (k0_pay8 i))
  | ⟨7, _⟩ => k0_pay20 (F := Ideal) (k0_pay10 (k0_pay7 (F := Ideal) x2 x3))
  | ⟨_ + 8, h⟩ => absurd h (Nat.not_lt.2 (Nat.le_add_left _ _))

end Cert.KernelIdeal.Hand

end
-- ==== Proof.KPiecesA.lean ====
/-
  The kernel body at a point that starts a row block, read as values over the extended reals: the accumulator is first
  filled with zeros, then each of its eight columns is loaded (zeros, whatever columns were stored before it) and stored
  back with the tile's row sum for that column added, so the accumulator ends at the tile's eight row sums; the result
  block, stored last from a load of the whole accumulator, ends as a copy of it.
-/
import proofs.«108788_j55748675502676_1_alg».proof.Proof.KPiecesL

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-! ## The reset case -/

/-- At a point that starts a row block the accumulator ends, at `(p, k)`, at the tile's row sum `k` of row `p`. -/
theorem soutA_apply (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i)
    (x0 : Vec Ideal S512x1024 .f32) (x1 : Vec Ideal S512x1024 .f32) (x2 : Vec Ideal S512x1 .i32) (x3 : Vec Ideal S1x512 .i32) (p : Fin 512) (k : Fin 8) :
    soutA (F := Ideal) c i arg2 harg2 arg3 harg3 arg4 harg4 arg5 harg5 arg6 harg6 arg7 harg7 hc x0 x1 x2 x3 (ix2 p k)
      = tileCol i x0 x1 x2 x3 k (ix2 p (0 : Fin 1)) := by
  unfold soutA
  rw [View.read_writes_eq_canon _ _ _ (coverA_s c i arg2 harg2 arg3 harg3 arg4 harg4 arg5 harg5 arg6 harg6 arg7 harg7 hc x0 x1 x2 x3)]
  unfold runReset
  dsimp only
  sl_unfold_words
  rw [readAt_whole arg2 harg2 _ hz2, readAt_whole arg3 harg3 _ hz2, readAt_whole arg4 harg4 _ hz2, readAt_whole arg5 harg5 _ hz2]
  have h0 : ColInv (tileCol i x0 x1 x2 x3) (fun _ => 0) (fun _ => 0) 0
      [(⟨Rect.unit (s := S512x8) ![0, 0] S512x8.size inb_S512x8_S512x8_0_0, k0_pay5 (F := Ideal)⟩ : Pc)] := fun r k => by
    rw [if_neg (Nat.not_lt_zero _), View.canon_unit_zero (S := S512x8) hz2]
    exact pay5_apply _
  have h1 := h0.stepA arg7.view (by decide : 0 < 8) inb_S512x8_S512x1_0_0 (k0_pay21 (F := Ideal)) pay21_apply
  have h2 := h1.stepA arg7.view (by decide : 1 < 8) inb_S512x8_S512x1_0_1 (k0_pay22 (F := Ideal)) pay22_apply
  have h3 := h2.stepA arg7.view (by decide : 2 < 8) inb_S512x8_S512x1_0_2 (k0_pay23 (F := Ideal)) pay23_apply
  have h4 := h3.stepA arg7.view (by decide : 3 < 8) inb_S512x8_S512x1_0_3 (k0_pay24 (F := Ideal)) pay24_apply
  have h5 := h4.stepA arg7.view (by decide : 4 < 8) inb_S512x8_S512x1_0_4 (fun s v => k0_pay1 (F := Ideal) (k0_pay25 (F := Ideal) s v)) pay1_apply
  have h6 := h5.stepA arg7.view (by decide : 5 < 8) inb_S512x8_S512x1_0_5 (k0_pay2 (F := Ideal)) pay2_apply
  have h7 := h6.stepA arg7.view (by decide : 6 < 8) inb_S512x8_S512x1_0_6 (k0_pay3 (F := Ideal)) pay3_apply
  have h8 := h7.stepA arg7.view (by decide : 7 < 8) inb_S512x8_S512x1_0_7 (k0_pay4 (F := Ideal)) pay4_apply
  exact ((h8 p k).trans (if_pos k.isLt)).trans (zero_add _)

/-- There the result block ends as a copy of the accumulator. -/
theorem outA_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : cond0 i)
    (x0 : Vec Ideal S512x1024 .f32) (x1 : Vec Ideal S512x1024 .f32) (x2 : Vec Ideal S512x1 .i32) (x3 : Vec Ideal S1x512 .i32) :
    outA (F := Ideal) c i arg2 harg2 arg3 harg3 arg4 harg4 arg5 harg5 arg6 harg6 arg7 harg7 hc x0 x1 x2 x3
      = soutA (F := Ideal) c i arg2 harg2 arg3 harg3 arg4 harg4 arg5 harg5 arg6 harg6 arg7 harg7 hc x0 x1 x2 x3 := by
  unfold outA soutA
  rw [View.read_writes_eq_canon _ _ _ (coverA_out c i arg2 harg2 arg3 harg3 arg4 harg4 arg5 harg5 arg6 harg6 arg7 harg7 hc x0 x1 x2 x3),
    View.read_writes_eq_canon _ _ _ (coverA_s c i arg2 harg2 arg3 harg3 arg4 harg4 arg5 harg5 arg6 harg6 arg7 harg7 hc x0 x1 x2 x3)]
  unfold runReset
  dsimp only
  sl_unfold_words
  rw [View.canon_unit_zero (S := S512x8) hz2, View.readCov_eq_canon']
  exact View.ld_unit_zero (S := S512x8) hz2 _ (View.canon _)

end Cert.KernelIdeal.Hand

end
-- ==== Proof.KPiecesB.lean ====
/-
  The kernel body at a point that continues a row block, read as values over the extended reals: the accumulator's eight
  column stores each hold the column it started with plus the tile's row sum for that column, so the accumulator ends
  at what it held plus the tile's eight row sums; the result block, stored last from a load of the whole accumulator,
  ends as a copy of it.
-/
import proofs.«108788_j55748675502676_1_alg».proof.Proof.KPiecesL

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-! ## The carry case -/

/-- At a point that continues a row block the accumulator ends, at `(p, k)`, at what it held plus the tile's row sum `k` of row `p`. -/
theorem soutB_apply (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i)
    (x0 : Vec Ideal S512x1024 .f32) (x1 : Vec Ideal S512x1024 .f32) (x2 : Vec Ideal S512x1 .i32) (x3 : Vec Ideal S1x512 .i32) (xs : Vec Ideal S512x8 .f32) (p : Fin 512) (k : Fin 8) :
    soutB (F := Ideal) c i arg2 harg2 arg3 harg3 arg4 harg4 arg5 harg5 arg6 harg6 arg7 harg7 hc x0 x1 x2 x3 xs (ix2 p k)
      = xs (ix2 p k) + tileCol i x0 x1 x2 x3 k (ix2 p (0 : Fin 1)) := by
  unfold soutB
  rw [View.read_writes_eq_canon _ _ _ (coverB_s c i arg2 harg2 arg3 harg3 arg4 harg4 arg5 harg5 arg6 harg6 arg7 harg7 hc x0 x1 x2 x3 xs)]
  unfold runCarry
  dsimp only
  sl_unfold_words
  rw [readAt_whole arg2 harg2 _ hz2, readAt_whole arg3 harg3 _ hz2, readAt_whole arg4 harg4 _ hz2, readAt_whole arg5 harg5 _ hz2]
  have h0 : ColInv (tileCol i x0 x1 x2 x3) xs (View.canon ([] : List Pc)) 0 [] := fun r k => by
    rw [if_neg (Nat.not_lt_zero _)]
  have h1 := h0.stepB arg7 harg7 (by decide : 0 < 8) inb_S512x8_S512x1_0_0 (k0_pay21 (F := Ideal)) pay21_apply
  have h2 := h1.stepB arg7 harg7 (by decide : 1 < 8) inb_S512x8_S512x1_0_1 (k0_pay22 (F := Ideal)) pay22_apply
  have h3 := h2.stepB arg7 harg7 (by decide : 2 < 8) inb_S512x8_S512x1_0_2 (k0_pay23 (F := Ideal)) pay23_apply
  have h4 := h3.stepB arg7 harg7 (by decide : 3 < 8) inb_S512x8_S512x1_0_3 (k0_pay24 (F := Ideal)) pay24_apply
  have h5 := h4.stepB arg7 harg7 (by decide : 4 < 8) inb_S512x8_S512x1_0_4 (fun s v => k0_pay1 (F := Ideal) (k0_pay25 (F := Ideal) s v)) pay1_apply
  have h6 := h5.stepB arg7 harg7 (by decide : 5 < 8) inb_S512x8_S512x1_0_5 (k0_pay2 (F := Ideal)) pay2_apply
  have h7 := h6.stepB arg7 harg7 (by decide : 6 < 8) inb_S512x8_S512x1_0_6 (k0_pay3 (F := Ideal)) pay3_apply
  have h8 := h7.stepB arg7 harg7 (by decide : 7 < 8) inb_S512x8_S512x1_0_7 (k0_pay4 (F := Ideal)) pay4_apply
  exact (h8 p k).trans (if_pos k.isLt)

/-- There the result block ends as a copy of the accumulator. -/
theorem outB_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x8 .f32) (harg6 : arg6.IsWhole) (arg7 : Memref sig .tc .vmem S512x8 .f32) (harg7 : arg7.IsWhole) (hc : ¬cond0 i)
    (x0 : Vec Ideal S512x1024 .f32) (x1 : Vec Ideal S512x1024 .f32) (x2 : Vec Ideal S512x1 .i32) (x3 : Vec Ideal S1x512 .i32) (xs : Vec Ideal S512x8 .f32) :
    outB (F := Ideal) c i arg2 harg2 arg3 harg3 arg4 harg4 arg5 harg5 arg6 harg6 arg7 harg7 hc x0 x1 x2 x3 xs
      = soutB (F := Ideal) c i arg2 harg2 arg3 harg3 arg4 harg4 arg5 harg5 arg6 harg6 arg7 harg7 hc x0 x1 x2 x3 xs := by
  unfold outB soutB
  rw [View.read_writes_eq_canon _ _ _ (coverB_out c i arg2 harg2 arg3 harg3 arg4 harg4 arg5 harg5 arg6 harg6 arg7 harg7 hc x0 x1 x2 x3 xs),
    View.read_writes_eq_canon _ _ _ (coverB_s c i arg2 harg2 arg3 harg3 arg4 harg4 arg5 harg5 arg6 harg6 arg7 harg7 hc x0 x1 x2 x3 xs)]
  unfold runCarry
  dsimp only
  sl_unfold_words
  rw [View.canon_unit_zero (S := S512x8) hz2, View.readCov_eq_canon']
  exact View.ld_unit_zero (S := S512x8) hz2 _ (View.canon _)

end Cert.KernelIdeal.Hand

end
-- ==== Proof.TileValueL.lean ====
/-
  Reading the tile's layout operations at a cell: a vector viewed as a column, one column or one row spread over a
  512 by 512 tile, and the sum along a row of a block.
-/
import proofs.«108788_j55748675502676_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

section Layout
variable {α : Type}

/-- A vector of `a` entries viewed as a column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along a row of a 512 by 1024 block. -/
theorem rowsum_1024 (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- The sum along a row of a 512 by 512 tile. -/
theorem rowsum_512 (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- The row sums of a 512 by 512 tile, viewed as a column: entry `(p, u)` is the sum of row `p`. -/
theorem rowsum_col (src : FVec Ideal S512x512 .f32) (p : Fin 512) (u : Fin 1) :
    shapeCast S512x1 (multiReduction (F := Ideal) .add [1] S512 src 0x00000000#32 reduces_S512x512_S512 (.inl rfl) rfl) shapeCasts_S512_S512x1 (ix2 p u)
      = ∑ q : Fin 512, src (ix2 p q) :=
  (shapeCast_a_a1_apply _ _ p u).trans (rowsum_512 src _ _ _ p)

end Cert.KernelIdeal.Tile

end
-- ==== Proof.TileValueA.lean ====
/-
  The clamped distance at a cell of the tile: the product of the row block with the transposed column block is the
  inner product of two rows, the broadcast row sums of squares are the two squared lengths, and so entry `(p, q)` of
  the tile of distances is the distance of row `p` of the row block and row `q` of the column block.
-/
import proofs.«108788_j55748675502676_1_alg».proof.Proof.TileValueL
import proofs.«108788_j55748675502676_1_alg».proof.Proof.Spec

noncomputable section

open scoped BigOperators

namespace Cert.KernelIdeal.Tile

open Cert.KernelIdeal Cert.KernelIdeal.Gen Cert.PairStats Idealize.ShloMosaic Idealize.ShloMosaic.ValueIdx

/-! ## The product of the row block with the transposed column block, at a cell -/

theorem lhs_axis0 (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_axis1 (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
theorem rhs_axis0 (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
theorem rhs_axis1 (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Entry `(p, q)` of the product of a 512 by 1024 block with a 1024 by 512 block is the inner product of row `p` of the
    first with column `q` of the second. -/
theorem matmul_cell (l : FVec Ideal S512x1024 .f32) (r : FVec Ideal S1024x512 .f32) (p q : Fin 512) :
    matmul (F := Ideal) dot_S512x1024_S1024x512_S512x512_1_0_0_1_n_n (some .fp32) l r (constant (F := Ideal) S512x512 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 p q) ((ValueIdx.contrEquiv1 dot_S512x1024_S1024x512_S512x512_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x512_S512x512_1_0_0_1_n_n.rhsIdx (ix2 p q) ((ValueIdx.contrEquiv1 dot_S512x1024_S1024x512_S512x512_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The clamped distance at a cell of the tile -/

/-- Entry `(p, q)` of the distance tile, over the two loaded blocks. -/
theorem pay6_cell (xr xc : Vec Ideal S512x1024 .f32) (p q : Fin 512) :
    k0_pay6 (F := Ideal) xr xc (ix2 p q)
      = Ideal.sqrt (max (Ideal.ofBits .f32 0x2B8CBCCC#32)
          ((∑ k : Fin 1024, xr (ix2 p k) * xr (ix2 p k)) + (∑ k : Fin 1024, xc (ix2 q k) * xc (ix2 q k))
            - Ideal.ofBits .f32 0x40000000#32 * ∑ k : Fin 1024, xr (ix2 p k) * xc (ix2 q k))) := by
  have hA : broadcastTo S512x512 (shapeCast S512x1 (multiReduction (F := Ideal) .add [1] S512 (mulf xr xr) 0x00000000#32 reduces_S512x1024_S512 (.inl rfl) rfl) shapeCasts_S512_S512x1) broadcasts_S512x1_S512x512 (ix2 p q)
      = ∑ k : Fin 1024, xr (ix2 p k) * xr (ix2 p k) := by
    refine (broadcastTo_a1_ab_apply _ _ p q).trans ?_
    refine (shapeCast_a_a1_apply _ _ p 0).trans ?_
    exact rowsum_1024 (mulf xr xr) _ _ _ p
  have hB : broadcastTo S512x512 (shapeCast S1x512 (multiReduction (F := Ideal) .add [1] S512 (mulf xc xc) 0x00000000#32 reduces_S512x1024_S512 (.inl rfl) rfl) shapeCasts_S512_S1x512) broadcasts_S1x512_S512x512 (ix2 p q)
      = ∑ k : Fin 1024, xc (ix2 q k) * xc (ix2 q k) := by
    refine (broadcastTo_1b_ab_apply _ _ p q).trans ?_
    refine (shapeCast_a_1a_apply _ _ 0 q).trans ?_
    exact rowsum_1024 (mulf xc xc) _ _ _ q
  have hC : matmul (F := Ideal) (φ₁ := .f32) (φ₂ := .f32) dot_S512x1024_S1024x512_S512x512_1_0_0_1_n_n (some .fp32) xr (transpose S1024x512 [1, 0] xc transposes_S512x1024_p1_0_S1024x512) (constant (F := Ideal) S512x512 .f32 0x00000000#32) (ix2 p q)
      = ∑ k : Fin 1024, xr (ix2 p k) * xc (ix2 q k) := by
    refine (matmul_cell xr _ p q).trans ?_
    exact Finset.sum_congr rfl fun k _ => congrArg (xr (ix2 p k) * ·) (transpose_ix2_apply xc _ k q)
  unfold k0_pay6
  show Ideal.sqrt (max (Ideal.ofBits .f32 0x2B8CBCCC#32) (_ + _ - Ideal.ofBits .f32 0x40000000#32 * _)) = _
  rw [hA, hB, hC]

section
variable (x : SX.Idx → EReal) (xr xc : Vec Ideal S512x1024 .f32) (I J : Fin 8)
  (hxr : ∀ (p : Fin 512) (k : Fin 1024), xr (ix2 p k) = x (ix2 (row I p) k))
  (hxc : ∀ (q : Fin 512) (k : Fin 1024), xc (ix2 q k) = x (ix2 (row J q) k))
include hxr hxc

/-- When the two blocks are rows `I` and `J` of the embeddings, entry `(p, q)` of the distance tile is the clamped distance of
    row `p` of block `I` and row `q` of block `J`. -/
theorem dist_cell (p q : Fin 512) : k0_pay6 (F := Ideal) xr xc (ix2 p q) = PairStats.dist x (row I p) (row J q) := by
  rw [pay6_cell]
  unfold PairStats.dist PairStats.sq PairStats.dotp
  simp only [hxr, hxc]

end

end Cert.KernelIdeal.Tile

end
-- ==== Proof.TileValueB.lean ====
/-
  The masks at a cell of the tile: the same-label bit compares the row block's label with the column block's, the
  same-index bit compares the two global row numbers as 32-bit words (both below 4096, so equal words are equal
  numbers), and from them the positive mask (same label, different rows) and the negative mask (different labels).
-/
import proofs.«108788_j55748675502676_1_alg».proof.Proof.TileValueL
import proofs.«108788_j55748675502676_1_alg».proof.Proof.Spec

noncomputable section

open scoped BigOperators

namespace Cert.KernelIdeal.Tile

open Cert.KernelIdeal Cert.KernelIdeal.Gen Cert.PairStats Idealize.ShloMosaic Idealize.ShloMosaic.ValueIdx

/-! ## One-bit words -/

/-- The equality test of two words is the bit `1` exactly when they are equal. -/
theorem cmpi_eq_one {w : Nat} (a b : BitVec w) : IntOp.cmpi .eq a b = 1#1 ↔ a = b := by
  show BitVec.ofBool (a == b) = 1#1 ↔ a = b
  by_cases h : a = b
  · subst h
    rw [beq_self_eq_true]
    exact ⟨fun _ => rfl, fun _ => rfl⟩
  · rw [beq_eq_false_iff_ne.mpr h]
    exact ⟨fun h' => absurd h' (by decide), fun h' => absurd h' h⟩

/-- `a and (not b)` is the bit `1` exactly when `a` is and `b` is not. -/
theorem andi_xori_one (a b : BitVec 1) : IntOp.andi a (IntOp.xori b 1#1) = 1#1 ↔ (a = 1#1 ∧ ¬ b = 1#1) := by
  rcases BitVec.eq_zero_or_eq_one a with h | h <;> rcases BitVec.eq_zero_or_eq_one b with h' | h' <;>
    subst h <;> subst h' <;> decide

/-- `not a` is the bit `1` exactly when `a` is not. -/
theorem xori_one (a : BitVec 1) : IntOp.xori a 1#1 = 1#1 ↔ ¬ a = 1#1 := by
  rcases BitVec.eq_zero_or_eq_one a with h | h <;> subst h <;> decide

/-! ## The masks at a cell of the tile -/

/-- The same-label bit at `(p, q)`: the row block's label `p` against the column block's label `q`. -/
theorem pay7_cell (tr : Vec Ideal S512x1 .i32) (tc : Vec Ideal S1x512 .i32) (p q : Fin 512) :
    k0_pay7 (F := Ideal) tr tc (ix2 p q) = IntOp.cmpi .eq (tr (ix2 p (0 : Fin 1))) (tc (ix2 (0 : Fin 1) q)) := by
  have hA : broadcastTo S512x512 (shapeCast S512x1 tr shapeCasts_S512x1_S512x1) broadcasts_S512x1_S512x512 (ix2 p q) = tr (ix2 p (0 : Fin 1)) := by
    rw [shapeCast_self]
    exact broadcastTo_a1_ab_apply _ _ p q
  have hB : broadcastTo S512x512 (shapeCast S1x512 tc shapeCasts_S1x512_S1x512) broadcasts_S1x512_S512x512 (ix2 p q) = tc (ix2 (0 : Fin 1) q) := by
    rw [shapeCast_self]
    exact broadcastTo_1b_ab_apply _ _ p q
  unfold k0_pay7
  show IntOp.cmpi .eq _ _ = _
  rw [hA, hB]

/-- The same-index bit at `(p, q)`: the global row number against the global column number, as 32-bit words. -/
theorem pay8_cell (i : grid0.Coords) (p q : Fin 512) :
    k0_pay8 i (ix2 p q) = IntOp.cmpi .eq (BitVec.ofNat 32 p.val + BitVec.ofNat 32 (i 0).val * 512#32)
      (BitVec.ofNat 32 q.val + BitVec.ofNat 32 (i 1).val * 512#32) := by
  have hA : broadcastTo S512x512 (addi (iota .tc S512x1 32 [0] iota_S512x1_d0_w32) (broadcast S512x1 (Scalar.muli (BitVec.ofNat 32 (i 0).val) 512#32))) broadcasts_S512x1_S512x512 (ix2 p q)
      = BitVec.ofNat 32 p.val + BitVec.ofNat 32 (i 0).val * 512#32 := by
    refine (broadcastTo_a1_ab_apply _ _ p q).trans ?_
    show IntOp.addi (iota .tc S512x1 32 [0] iota_S512x1_d0_w32 (ix2 p (0 : Fin 1))) _ = _
    rw [iota_single_apply]
    rfl
  have hB : broadcastTo S512x512 (addi (iota .tc S1x512 32 [1] iota_S1x512_d1_w32) (broadcast S1x512 (Scalar.muli (BitVec.ofNat 32 (i 1).val) 512#32))) broadcasts_S1x512_S512x512 (ix2 p q)
      = BitVec.ofNat 32 q.val + BitVec.ofNat 32 (i 1).val * 512#32 := by
    refine (broadcastTo_1b_ab_apply _ _ p q).trans ?_
    show IntOp.addi (iota .tc S1x512 32 [1] iota_S1x512_d1_w32 (ix2 (0 : Fin 1) q)) _ = _
    rw [iota_single_apply]
    rfl
  unfold k0_pay8
  show IntOp.cmpi .eq _ _ = _
  rw [hA, hB]

/-- The two global numbers are equal as words exactly when they are the same row. -/
theorem word_eq_iff (i : grid0.Coords) (I J : Fin 8) (hI : (i 0).val = I.val) (hJ : (i 1).val = J.val) (p q : Fin 512) :
    (BitVec.ofNat 32 p.val + BitVec.ofNat 32 (i 0).val * 512#32 = BitVec.ofNat 32 q.val + BitVec.ofNat 32 (i 1).val * 512#32)
      ↔ row I p = row J q := by
  have hp := p.isLt
  have hq := q.isLt
  have hIl := I.isLt
  have hJl := J.isLt
  rw [hI, hJ]
  constructor
  · intro h
    have h' := congrArg BitVec.toNat h
    simp only [BitVec.toNat_add, BitVec.toNat_mul, BitVec.toNat_ofNat] at h'
    apply Fin.ext
    show 512 * I.val + p.val = 512 * J.val + q.val
    omega
  · intro h
    have h' : 512 * I.val + p.val = 512 * J.val + q.val := congrArg Fin.val h
    apply BitVec.eq_of_toNat_eq
    simp only [BitVec.toNat_add, BitVec.toNat_mul, BitVec.toNat_ofNat]
    omega

section
variable (tg : ST.Idx → BitVec 32) (tr : Vec Ideal S512x1 .i32) (tc : Vec Ideal S1x512 .i32)
  (i : grid0.Coords) (I J : Fin 8) (hI : (i 0).val = I.val) (hJ : (i 1).val = J.val)
  (htr : ∀ p : Fin 512, tr (ix2 p (0 : Fin 1)) = tg (ix1 (row I p)))
  (htc : ∀ q : Fin 512, tc (ix2 (0 : Fin 1) q) = tg (ix1 (row J q)))
include hI hJ htr htc

/-- The positive mask at `(p, q)` is set exactly when the two rows carry one label and are different rows. -/
theorem pos_cell (p q : Fin 512) :
    k0_pay9 (k0_pay7 (F := Ideal) tr tc) (k0_pay8 i) (ix2 p q) = 1#1 ↔ pos tg (row I p) (row J q) := by
  unfold k0_pay9
  show IntOp.andi (k0_pay7 (F := Ideal) tr tc (ix2 p q)) (IntOp.xori (k0_pay8 i (ix2 p q)) 1#1) = 1#1 ↔ _
  rw [andi_xori_one, pay7_cell, pay8_cell, cmpi_eq_one, cmpi_eq_one, word_eq_iff i I J hI hJ, htr, htc]
  rfl

omit hI hJ in
/-- The negative mask at `(p, q)` is set exactly when the two rows carry different labels. -/
theorem neg_cell (p q : Fin 512) :
    k0_pay10 (k0_pay7 (F := Ideal) tr tc) (ix2 p q) = 1#1 ↔ neg tg (row I p) (row J q) := by
  unfold k0_pay10
  show IntOp.xori (k0_pay7 (F := Ideal) tr tc (ix2 p q)) 1#1 = 1#1 ↔ _
  rw [xori_one, pay7_cell, cmpi_eq_one, htr, htc]
  rfl

end

end Cert.KernelIdeal.Tile

end
-- ==== Proof.TileValue.lean ====
/-
  The eight row sums of one 512 by 512 tile. Each is the sum over the tile's 512 columns of a select on the positive or
  the negative mask between a function of the distance (or the number one) and zero; with the masks and the distance
  read at a cell, each is the tile's part of the corresponding row quantity.
-/
import proofs.«108788_j55748675502676_1_alg».proof.Proof.TileValueA
import proofs.«108788_j55748675502676_1_alg».proof.Proof.TileValueB

noncomputable section

open scoped BigOperators

namespace Cert.KernelIdeal.Tile

open Cert.KernelIdeal Cert.KernelIdeal.Gen Cert.PairStats Idealize.ShloMosaic Idealize.ShloMosaic.ValueIdx

/-! ## A select and a count on a decided bit -/

/-- A select on a bit that is `1` exactly when `P` holds is the `if` on `P`. -/
theorem select_of_iff {α : Type} (c : BitVec 1) (P : Prop) [Decidable P] (h : c = 1#1 ↔ P) (a b : α) :
    Scalar.select c a b = if P then a else b := by
  unfold Scalar.select
  by_cases hP : P
  · have hc : c = 1 := h.mpr hP
    rw [if_pos hc, if_pos hP]
  · have hc : ¬ c = 1 := fun hc => hP (h.mp hc)
    rw [if_neg hc, if_neg hP]

/-- Such a bit, widened to a word and read as a number, is `1` when `P` holds and `0` otherwise. -/
theorem count_of_iff (c : BitVec 1) (P : Prop) [Decidable P] (h : c = 1#1 ↔ P) :
    FloatOps.sitofp (F := Ideal) .f32 (c.setWidth 32) = if P then (1 : EReal) else 0 := by
  rcases BitVec.eq_zero_or_eq_one c with h0 | h1
  · subst h0
    have hP : ¬P := fun hP => absurd (h.mpr hP) (by decide)
    rw [if_neg hP]
    show (((BitVec.setWidth 32 0#1).toInt : ℝ) : EReal) = 0
    have e : (BitVec.setWidth 32 0#1).toInt = 0 := by decide
    rw [e]; simp
  · subst h1
    have hP : P := h.mp rfl
    rw [if_pos hP]
    show (((BitVec.setWidth 32 1#1).toInt : ℝ) : EReal) = 1
    have e : (BitVec.setWidth 32 1#1).toInt = 1 := by decide
    rw [e]; simp

/-- The zero literal spread over the tile is `0` at every cell. -/
theorem zero_cell (j : S512x512.Idx) : broadcast S512x512 (Scalar.ofBits (F := Ideal) .f32 0x00000000#32) j = (0 : EReal) :=
  Ideal.ofBits_zero_f32

section
variable (x : SX.Idx → EReal) (tg : ST.Idx → BitVec 32)
  (xr xc : Vec Ideal S512x1024 .f32) (tr : Vec Ideal S512x1 .i32) (tc : Vec Ideal S1x512 .i32)
  (i : grid0.Coords) (I J : Fin 8) (hI : (i 0).val = I.val) (hJ : (i 1).val = J.val)
  (hxr : ∀ (p : Fin 512) (k : Fin 1024), xr (ix2 p k) = x (ix2 (row I p) k))
  (hxc : ∀ (q : Fin 512) (k : Fin 1024), xc (ix2 q k) = x (ix2 (row J q) k))
  (htr : ∀ p : Fin 512, tr (ix2 p (0 : Fin 1)) = tg (ix1 (row I p)))
  (htc : ∀ q : Fin 512, tc (ix2 (0 : Fin 1) q) = tg (ix1 (row J q)))

include hxr hxc in
/-- The first exponential weight at a cell. -/
theorem wA_cell (p q : Fin 512) :
    k0_pay11 (F := Ideal) (k0_pay6 (F := Ideal) xr xc) (ix2 p q) = wA (PairStats.dist x (row I p) (row J q)) := by
  unfold k0_pay11
  show Ideal.exp (Ideal.ofBits .f32 0x42200000#32 * (Ideal.ofBits .f32 0x3F800000#32 - k0_pay6 (F := Ideal) xr xc (ix2 p q))) = _
  rw [dist_cell x xr xc I J hxr hxc p q]
  rfl

include hI hJ hxr hxc htr htc in
/-- Quantity 0 of the tile: the first weight summed over the positive pairs of row `p`. -/
theorem tile0 (p : Fin 512) :
    k0_pay12 (F := Ideal) (k0_pay6 (F := Ideal) xr xc) (k0_pay7 (F := Ideal) tr tc) (k0_pay8 i) (ix2 p (0 : Fin 1))
      = tileStat x tg 0 I J p := by
  unfold k0_pay12
  refine (rowsum_col _ p 0).trans ?_
  unfold tileStat
  refine Finset.sum_congr rfl fun q _ => ?_
  refine (select_of_iff _ _ (pos_cell tg tr tc i I J hI hJ htr htc p q) _ _).trans ?_
  rw [wA_cell x xr xc I J hxr hxc p q, zero_cell]
  rfl

end

section
variable (x : SX.Idx → EReal) (tg : ST.Idx → BitVec 32)
  (xr xc : Vec Ideal S512x1024 .f32) (tr : Vec Ideal S512x1 .i32) (tc : Vec Ideal S1x512 .i32)
  (i : grid0.Coords) (I J : Fin 8) (hI : (i 0).val = I.val) (hJ : (i 1).val = J.val)
  (hxr : ∀ (p : Fin 512) (k : Fin 1024), xr (ix2 p k) = x (ix2 (row I p) k))
  (hxc : ∀ (q : Fin 512) (k : Fin 1024), xc (ix2 q k) = x (ix2 (row J q) k))
  (htr : ∀ p : Fin 512, tr (ix2 p (0 : Fin 1)) = tg (ix1 (row I p)))
  (htc : ∀ q : Fin 512, tc (ix2 (0 : Fin 1) q) = tg (ix1 (row J q)))

include hxr hxc htr htc in
/-- Quantity 1 of the tile: the first weight summed over the negative pairs of row `p`. -/
theorem tile1 (p : Fin 512) :
    k0_pay13 (F := Ideal) (k0_pay6 (F := Ideal) xr xc) (k0_pay7 (F := Ideal) tr tc) (ix2 p (0 : Fin 1))
      = tileStat x tg 1 I J p := by
  unfold k0_pay13
  refine (rowsum_col _ p 0).trans ?_
  unfold tileStat
  refine Finset.sum_congr rfl fun q _ => ?_
  refine (select_of_iff _ _ (neg_cell tg tr tc I J htr htc p q) _ _).trans ?_
  rw [wA_cell x xr xc I J hxr hxc p q, zero_cell]
  rfl

include hI hJ hxr hxc htr htc in
/-- Quantity 2 of the tile: the second weight summed over the positive pairs of row `p`. -/
theorem tile2 (p : Fin 512) :
    k0_pay14 (F := Ideal) (k0_pay6 (F := Ideal) xr xc) (k0_pay7 (F := Ideal) tr tc) (k0_pay8 i) (ix2 p (0 : Fin 1))
      = tileStat x tg 2 I J p := by
  unfold k0_pay14
  refine (rowsum_col _ p 0).trans ?_
  unfold tileStat
  refine Finset.sum_congr rfl fun q _ => ?_
  refine (select_of_iff _ _ (pos_cell tg tr tc i I J hI hJ htr htc p q) _ _).trans ?_
  show (if _ then Ideal.exp (Ideal.ofBits .f32 0x41A00000#32 * (k0_pay6 (F := Ideal) xr xc (ix2 p q) - Ideal.ofBits .f32 0x3F4CCCCD#32))
      else Ideal.ofBits .f32 0x00000000#32) = _
  rw [dist_cell x xr xc I J hxr hxc p q, Ideal.ofBits_zero_f32]
  rfl

include hxr hxc htr htc in
/-- Quantity 3 of the tile: the third weight summed over the negative pairs of row `p`. -/
theorem tile3 (p : Fin 512) :
    k0_pay15 (F := Ideal) (k0_pay6 (F := Ideal) xr xc) (k0_pay7 (F := Ideal) tr tc) (ix2 p (0 : Fin 1))
      = tileStat x tg 3 I J p := by
  unfold k0_pay15
  refine (rowsum_col _ p 0).trans ?_
  unfold tileStat
  refine Finset.sum_congr rfl fun q _ => ?_
  refine (select_of_iff _ _ (neg_cell tg tr tc I J htr htc p q) _ _).trans ?_
  show (if _ then Ideal.exp (Ideal.ofBits .f32 0x41A00000#32 * (Ideal.ofBits .f32 0x3F8CCCCD#32 - k0_pay6 (F := Ideal) xr xc (ix2 p q)))
      else Ideal.ofBits .f32 0x00000000#32) = _
  rw [dist_cell x xr xc I J hxr hxc p q, Ideal.ofBits_zero_f32]
  rfl

include hI hJ hxr hxc htr htc in
/-- Quantity 4 of the tile: the distance summed over the positive pairs of row `p`. -/
theorem tile4 (p : Fin 512) :
    k0_pay16 (F := Ideal) (k0_pay6 (F := Ideal) xr xc) (k0_pay7 (F := Ideal) tr tc) (k0_pay8 i) (ix2 p (0 : Fin 1))
      = tileStat x tg 4 I J p := by
  unfold k0_pay16
  refine (rowsum_col _ p 0).trans ?_
  unfold tileStat
  refine Finset.sum_congr rfl fun q _ => ?_
  refine (select_of_iff _ _ (pos_cell tg tr tc i I J hI hJ htr htc p q) _ _).trans ?_
  rw [dist_cell x xr xc I J hxr hxc p q, zero_cell]
  rfl

include hxr hxc htr htc in
/-- Quantity 5 of the tile: the distance summed over the negative pairs of row `p`. -/
theorem tile5 (p : Fin 512) :
    k0_pay18 (F := Ideal) (k0_pay17 (F := Ideal) (k0_pay6 (F := Ideal) xr xc) (k0_pay7 (F := Ideal) tr tc)) (ix2 p (0 : Fin 1))
      = tileStat x tg 5 I J p := by
  unfold k0_pay18
  refine (rowsum_col _ p 0).trans ?_
  unfold tileStat
  refine Finset.sum_congr rfl fun q _ => ?_
  unfold k0_pay17
  refine (select_of_iff _ _ (neg_cell tg tr tc I J htr htc p q) _ _).trans ?_
  rw [dist_cell x xr xc I J hxr hxc p q, zero_cell]
  rfl

include hI hJ htr htc in
/-- Quantity 6 of the tile: the number of positive pairs of row `p`. -/
theorem tile6 (p : Fin 512) :
    k0_pay19 (F := Ideal) (k0_pay9 (k0_pay7 (F := Ideal) tr tc) (k0_pay8 i)) (ix2 p (0 : Fin 1))
      = tileStat x tg 6 I J p := by
  unfold k0_pay19
  refine (rowsum_col _ p 0).trans ?_
  unfold tileStat
  refine Finset.sum_congr rfl fun q _ => ?_
  refine (count_of_iff _ _ (pos_cell tg tr tc i I J hI hJ htr htc p q)).trans ?_
  rfl

include htr htc in
/-- Quantity 7 of the tile: the number of negative pairs of row `p`. -/
theorem tile7 (p : Fin 512) :
    k0_pay20 (F := Ideal) (k0_pay10 (k0_pay7 (F := Ideal) tr tc)) (ix2 p (0 : Fin 1))
      = tileStat x tg 7 I J p := by
  unfold k0_pay20
  refine (rowsum_col _ p 0).trans ?_
  unfold tileStat
  refine Finset.sum_congr rfl fun q _ => ?_
  refine (count_of_iff _ _ (neg_cell tg tr tc I J htr htc p q)).trans ?_
  rfl

end

end Cert.KernelIdeal.Tile

end
-- ==== Proof.KAcc.lean ====
/-
  What the accumulator holds after each grid point. Within a row block the points run through the eight column blocks in
  order; the first resets the accumulator to that tile's row sums and each later one adds its tile's row sums, so after
  the point at column block `j` of row block `I` the accumulator holds, at `(p, k)`, the sum over the column blocks
  `J' ≤ j` of the tile parts of quantity `k` of row `p` of block `I`; the result block holds the same.
-/
import proofs.«108788_j55748675502676_1_alg».proof.Proof.KPiecesA
import proofs.«108788_j55748675502676_1_alg».proof.Proof.KPiecesB
import proofs.«108788_j55748675502676_1_alg».proof.Proof.KBlocks
import proofs.«108788_j55748675502676_1_alg».proof.Proof.TileValue

set_option maxRecDepth 16384

noncomputable section

open scoped BigOperators

namespace Cert.KernelIdeal.Hand

open Cert.KernelIdeal Cert.KernelIdeal.Gen Cert.PairStats
open Idealize.ShloMosaic Idealize.ShloMosaic.TcCoe Idealize.ShloMosaic.ValueIdx
open Idealize.SL Idealize.SL.Sem

/-! ## Sums over the column blocks up to a bound -/

/-- With the bound zero only column block 0 counts. -/
theorem sum_le_zero (f : Fin 8 → EReal) (j : Fin 8) (hj : j.val = 0) :
    (∑ J' : Fin 8, if J'.val ≤ 0 then f J' else 0) = f j := by
  have h : ∀ J' : Fin 8, (if J'.val ≤ 0 then f J' else 0) = if J' = j then f J' else 0 := by
    intro J'
    by_cases h1 : J' = j
    · rw [if_pos h1, if_pos (by rw [h1]; omega)]
    · have : ¬ J'.val ≤ 0 := fun h => h1 (Fin.ext (by omega))
      rw [if_neg this, if_neg h1]
  rw [Finset.sum_congr rfl fun J' _ => h J', Finset.sum_ite_eq' Finset.univ j f, if_pos (Finset.mem_univ j)]

/-- Raising the bound by one adds the next column block's term. -/
theorem sum_le_succ (f : Fin 8 → EReal) (j : Fin 8) (j0 : Nat) (hj : j.val = j0 + 1) :
    (∑ J' : Fin 8, if J'.val ≤ j0 then f J' else 0) + f j = ∑ J' : Fin 8, if J'.val ≤ j0 + 1 then f J' else 0 := by
  have h : ∀ J' : Fin 8, (if J'.val ≤ j0 + 1 then f J' else 0)
      = (if J'.val ≤ j0 then f J' else 0) + (if J' = j then f J' else 0) := by
    intro J'
    by_cases h1 : J'.val ≤ j0
    · have h2 : J' ≠ j := fun h => by rw [h] at h1; omega
      rw [if_pos h1, if_pos (by omega), if_neg h2, add_zero]
    · by_cases h2 : J' = j
      · rw [if_neg h1, if_pos (by rw [h2]; omega), if_pos h2, zero_add]
      · have h3 : ¬ J'.val ≤ j0 + 1 := fun h => h2 (Fin.ext (by omega))
        rw [if_neg h1, if_neg h3, if_neg h2, add_zero]
  rw [Finset.sum_congr rfl fun J' _ => h J', Finset.sum_add_distrib, Finset.sum_ite_eq' Finset.univ j f,
    if_pos (Finset.mem_univ j)]

/-! ## The tile's row sums are the tile parts -/

/-- Over blocks that are rows `I` and `J` of the embeddings and of the labels, column `k` of the tile's row sums is the tile part
    of quantity `k`. -/
theorem tileCol_eq (x : SX.Idx → EReal) (tg : ST.Idx → BitVec 32)
    (xr xc : Vec Ideal S512x1024 .f32) (tr : Vec Ideal S512x1 .i32) (tc : Vec Ideal S1x512 .i32)
    (i : grid0.Coords) (I J : Fin 8) (hI : (i 0).val = I.val) (hJ : (i 1).val = J.val)
    (hxr : ∀ (p : Fin 512) (k : Fin 1024), xr (ix2 p k) = x (ix2 (row I p) k))
    (hxc : ∀ (q : Fin 512) (k : Fin 1024), xc (ix2 q k) = x (ix2 (row J q) k))
    (htr : ∀ p : Fin 512, tr (ix2 p (0 : Fin 1)) = tg (ix1 (row I p)))
    (htc : ∀ q : Fin 512, tc (ix2 (0 : Fin 1) q) = tg (ix1 (row J q)))
    (k : Fin 8) (p : Fin 512) :
    tileCol i xr xc tr tc k (ix2 p (0 : Fin 1)) = tileStat x tg k I J p := by
  match k with
  | ⟨0, _⟩ => exact Tile.tile0 x tg xr xc tr tc i I J hI hJ hxr hxc htr htc p
  | ⟨1, _⟩ => exact Tile.tile1 x tg xr xc tr tc I J hxr hxc htr htc p
  | ⟨2, _⟩ => exact Tile.tile2 x tg xr xc tr tc i I J hI hJ hxr hxc htr htc p
  | ⟨3, _⟩ => exact Tile.tile3 x tg xr xc tr tc I J hxr hxc htr htc p
  | ⟨4, _⟩ => exact Tile.tile4 x tg xr xc tr tc i I J hI hJ hxr hxc htr htc p
  | ⟨5, _⟩ => exact Tile.tile5 x tg xr xc tr tc I J hxr hxc htr htc p
  | ⟨6, _⟩ => exact Tile.tile6 x tg tr tc i I J hI hJ htr htc p
  | ⟨7, _⟩ => exact Tile.tile7 x tg tr tc I J htr htc p
  | ⟨_ + 8, h⟩ => exact absurd h (Nat.not_lt.2 (Nat.le_add_left _ _))

variable (m : (ℓ : Loc nD τ sig) → Buf (Elt Ideal) ℓ) (c : Dev nD)

/-- At point `t`, on the blocks the windows hold there. -/
theorem tile_at (t : Fin cfg0.N) (k : Fin 8) (p : Fin 512) :
    tileCol (grid0.coords t) (iblk m c 0 t) (iblk m c 1 t) (iblk m c 2 t) (iblk m c 3 t) k (ix2 p (0 : Fin 1))
      = tileStat (xOf m c) (tgOf m c) k (Ipt t) (Jpt t) p :=
  tileCol_eq (xOf m c) (tgOf m c) (iblk m c 0 t) (iblk m c 1 t) (iblk m c 2 t) (iblk m c 3 t) (grid0.coords t) (Ipt t) (Jpt t)
    (coords0 t) (coords1 t) (blk0 m c t) (blk1 m c t) (blk2 m c t) (blk3 m c t) k p

/-! ## Point by point -/

/-- At every point the result block ends as a copy of the accumulator. -/
theorem outs_fst_eq_snd (t : Fin cfg0.N) : (outsAt (F := Ideal) m c t.val t.isLt).1 = (outsAt (F := Ideal) m c t.val t.isLt).2 := by
  by_cases h0 : t.val % 8 = 0
  · rw [outsAt_A m c t h0]
    dsimp only
    exact outA_eq c (grid0.coords t) (ms0 t) (hs0 t) (ms1 t) (hs1 t) (ms2 t) (hs2 t) (ms3 t) (hs3 t) (ms4 t) (hs4 t) scM (Memref.isWhole_whole _)
      ((hcond0 t).mpr h0) (iblk m c 0 t) (iblk m c 1 t) (iblk m c 2 t) (iblk m c 3 t)
  · rw [outsAt_B m c t h0]
    dsimp only
    exact outB_eq c (grid0.coords t) (ms0 t) (hs0 t) (ms1 t) (hs1 t) (ms2 t) (hs2 t) (ms3 t) (hs3 t) (ms4 t) (hs4 t) scM (Memref.isWhole_whole _)
      (fun h => h0 ((hcond0 t).mp h)) (iblk m c 0 t) (iblk m c 1 t) (iblk m c 2 t) (iblk m c 3 t)
      (outsAt (F := Ideal) m c (t.val - 1) (Nat.lt_of_le_of_lt (Nat.sub_le _ _) t.isLt)).2

/-- The accumulator after point `t`: the tile parts of the column blocks up to `t`'s, summed. -/
theorem acc_snd_aux : ∀ (n : Nat) (t : Fin cfg0.N), t.val = n → ∀ (p : Fin 512) (k : Fin 8),
    (outsAt (F := Ideal) m c t.val t.isLt).2 (ix2 p k)
      = ∑ J' : Fin 8, if J'.val ≤ t.val % 8 then tileStat (xOf m c) (tgOf m c) k (Ipt t) J' p else 0 := by
  intro n
  induction n with
  | zero =>
    intro t ht p k
    have h0 : t.val % 8 = 0 := by rw [ht]
    rw [outsAt_A m c t h0]
    dsimp only
    refine (soutA_apply c (grid0.coords t) (ms0 t) (hs0 t) (ms1 t) (hs1 t) (ms2 t) (hs2 t) (ms3 t) (hs3 t) (ms4 t) (hs4 t) scM (Memref.isWhole_whole _)
      ((hcond0 t).mpr h0) (iblk m c 0 t) (iblk m c 1 t) (iblk m c 2 t) (iblk m c 3 t) p k).trans ?_
    rw [tile_at m c t k p, h0]
    exact (sum_le_zero (fun J' => tileStat (xOf m c) (tgOf m c) k (Ipt t) J' p) (Jpt t) h0).symm
  | succ n ih =>
    intro t ht p k
    by_cases h0 : t.val % 8 = 0
    · rw [outsAt_A m c t h0]
      dsimp only
      refine (soutA_apply c (grid0.coords t) (ms0 t) (hs0 t) (ms1 t) (hs1 t) (ms2 t) (hs2 t) (ms3 t) (hs3 t) (ms4 t) (hs4 t) scM (Memref.isWhole_whole _)
        ((hcond0 t).mpr h0) (iblk m c 0 t) (iblk m c 1 t) (iblk m c 2 t) (iblk m c 3 t) p k).trans ?_
      rw [tile_at m c t k p, h0]
      exact (sum_le_zero (fun J' => tileStat (xOf m c) (tgOf m c) k (Ipt t) J' p) (Jpt t) h0).symm
    · have hlt : t.val - 1 < cfg0.N := Nat.lt_of_le_of_lt (Nat.sub_le _ _) t.isLt
      rw [outsAt_B m c t h0]
      dsimp only
      refine (soutB_apply c (grid0.coords t) (ms0 t) (hs0 t) (ms1 t) (hs1 t) (ms2 t) (hs2 t) (ms3 t) (hs3 t) (ms4 t) (hs4 t) scM (Memref.isWhole_whole _)
        (fun h => h0 ((hcond0 t).mp h)) (iblk m c 0 t) (iblk m c 1 t) (iblk m c 2 t) (iblk m c 3 t)
        (outsAt (F := Ideal) m c (t.val - 1) hlt).2 p k).trans ?_
      have hprev := ih ⟨t.val - 1, hlt⟩ (by show t.val - 1 = n; omega) p k
      have hI : Ipt (⟨t.val - 1, hlt⟩ : Fin cfg0.N) = Ipt t := Fin.ext (by show (t.val - 1) / 8 = t.val / 8; omega)
      have hm : (t.val - 1) % 8 + 1 = t.val % 8 := by omega
      rw [tile_at m c t k p, show (outsAt (F := Ideal) m c (t.val - 1) hlt).2 (ix2 p k) = _ from hprev, hI]
      show (∑ J' : Fin 8, if J'.val ≤ (t.val - 1) % 8 then tileStat (xOf m c) (tgOf m c) k (Ipt t) J' p else 0)
          + tileStat (xOf m c) (tgOf m c) k (Ipt t) (Jpt t) p = _
      rw [sum_le_succ (fun J' => tileStat (xOf m c) (tgOf m c) k (Ipt t) J' p) (Jpt t) ((t.val - 1) % 8) (by show t.val % 8 = (t.val - 1) % 8 + 1; omega), hm]

/-- The accumulator after point `t`. -/
theorem acc_snd (t : Fin cfg0.N) (p : Fin 512) (k : Fin 8) :
    (outsAt (F := Ideal) m c t.val t.isLt).2 (ix2 p k)
      = ∑ J' : Fin 8, if J'.val ≤ t.val % 8 then tileStat (xOf m c) (tgOf m c) k (Ipt t) J' p else 0 :=
  acc_snd_aux m c t.val t rfl p k

/-- The result block after point `t`. -/
theorem acc_value (t : Fin cfg0.N) (p : Fin 512) (k : Fin 8) :
    (outsAt (F := Ideal) m c t.val t.isLt).1 (ix2 p k)
      = ∑ J' : Fin 8, if J'.val ≤ t.val % 8 then tileStat (xOf m c) (tgOf m c) k (Ipt t) J' p else 0 := by
  rw [outs_fst_eq_snd m c t]
  exact acc_snd m c t p k

end Cert.KernelIdeal.Hand

end
-- ==== Proof.KValue.lean ====
/-
  The table the region leaves is the table of row sums.

  The result window's block is written back at the last point of each row block, `t = 8 I + 7`. By then the
  accumulator, copied into the result block at every point, holds for each of its 512 rows and 8 columns the sum
  over all eight column blocks of the tile sums, which is the sum over all 4096 columns. The eight written-back
  blocks are rows `512 I …` of the array, `I = 0 … 7`: they cover it.
-/
import proofs.«108788_j55748675502676_1_alg».proof.Proof.KBlocks
import proofs.«108788_j55748675502676_1_alg».proof.Proof.SpecSum
import proofs.«108788_j55748675502676_1_alg».proof.Proof.KAcc

noncomputable section

namespace Cert.KernelIdeal.Hand

open Cert.KernelIdeal Cert.KernelIdeal.Gen Cert.PairStats
open Idealize.ShloMosaic Idealize.ShloMosaic.TcCoe Idealize.ShloMosaic.ValueIdx
open Idealize.SL Idealize.SL.Sem
open Idealize.ShloMosaic.Pipeline (Dat Cfg)
open scoped BigOperators

variable (m : (ℓ : Loc nD τ sig) → Buf (Elt Ideal) ℓ)

/-- The table of row sums, as an array of 4096 rows by 8. -/
abbrev Gtab (c : Dev nD) : S4096x8.Idx → EReal := fun i => stat (xOf m c) (tgOf m c) (i 0) (i 1)

/-- WHAT A ROW BLOCK'S LAST POINT WRITES BACK is that block of the table. -/
theorem flushed_eq (c : Dev nD) (t : Fin cfg0.N) (hf : (cfg0.win 4).flush t = true) :
    (dats (F := Ideal) m 0 c).flushed 4 t = ((cfg0.win 4).blk t).view.read (Elt Ideal) (Gtab m c) := by
  have h7 : t.val % 8 = 7 := (flush0_4 t).mp hf
  show (cfg0.win 4).cut (grid0.coords t) ((dats (F := Ideal) m 0 c).after 4 t) = _
  rw [after4]
  funext j
  obtain ⟨p, k, rfl⟩ : ∃ (p : Fin 512) (k : Fin 8), j = ix2 p k := ⟨j 0, j 1, eq_ix2 j⟩
  show (outsAt (F := Ideal) m c t.val t.isLt).1 (ix2 p k) = Gtab m c (((cfg0.win 4).blk t).view.emb (ix2 p k))
  rw [acc_value m c t p k]
  have hemb : ((cfg0.win 4).blk t).view.emb (ix2 p k) = ix2 (row (Ipt t) p) k := by
    obtain ⟨-, -, -, -, -, -, -, -, e0, e1, -⟩ := idx_facts t
    funext a; apply Fin.ext
    match a with
    | ⟨0, _⟩ => show win0_4.index t (0 : Fin 2) * 512 + 1 * p.val = 512 * (t.val / 8) + p.val; omega
    | ⟨1, _⟩ => show win0_4.index t (1 : Fin 2) * 8 + 1 * k.val = k.val; omega
  rw [hemb]
  show _ = stat (xOf m c) (tgOf m c) (row (Ipt t) p) k
  rw [stat_eq_sum_tiles]
  refine Finset.sum_congr rfl fun J' _ => ?_
  rw [if_pos (by have := J'.isLt; omega)]

/-- An index of the array is in point `t`'s block iff each coordinate is in the block's range on its axis. -/
theorem mem_blk4 (t : Fin cfg0.N) (i : S4096x8.Idx) :
    i ∈ ((cfg0.win 4).blk t).view.set ↔ ∀ a : Fin 2, win0_4.index t a * S512x8.size a ≤ (i a).val ∧ (i a).val < win0_4.index t a * S512x8.size a + S512x8.size a := by
  show i ∈ ((View.whole main_v2).slice (win0_4.rect t)).set ↔ _
  rw [View.set_slice_whole, Rect.mem_set_unit]
  exact Iff.rfl

/-- Every index of the array is in the block some row block's last point writes back. -/
theorem covered (i : S4096x8.Idx) : ∃ t : Fin cfg0.N, (cfg0.win 4).flush t = true ∧ i ∈ ((cfg0.win 4).blk t).view.set := by
  have hi0 : (i 0).val < 4096 := (i 0).isLt
  have hi1 : (i 1).val < 8 := (i 1).isLt
  have hN : cfg0.N = 64 := N_0
  let t : Fin cfg0.N := ⟨8 * ((i 0).val / 512) + 7, by rw [hN]; omega⟩
  have htv : t.val = 8 * ((i 0).val / 512) + 7 := rfl
  refine ⟨t, (flush0_4 t).mpr (by rw [htv]; omega), ?_⟩
  rw [mem_blk4]
  obtain ⟨-, -, -, -, -, -, -, -, e0, e1, -⟩ := idx_facts t
  intro a
  match a with
  | ⟨0, _⟩ => show win0_4.index t (0 : Fin 2) * 512 ≤ (i 0).val ∧ (i 0).val < win0_4.index t (0 : Fin 2) * 512 + 512; rw [e0, htv]; omega
  | ⟨1, _⟩ => show win0_4.index t (1 : Fin 2) * 8 ≤ (i 1).val ∧ (i 1).val < win0_4.index t (1 : Fin 2) * 8 + 8; rw [e1]; omega

/-- THE TABLE after the region: the row sums over all 4096 columns. -/
theorem region_value (c : Dev nD) :
    (dats (F := Ideal) m 0 c).arrAt 4 cfg0.N
      = fun i => Cert.PairStats.stat (m ((c : Thread nD τ).loc main_arg0)) (m ((c : Thread nD τ).loc main_arg1)) (i 0) (i 1) :=
  (dats (F := Ideal) m 0 c).arrAt_eq_of_cover 4 (Gtab m c) (fun t hf => flushed_eq m c t hf) (covered)

end Cert.KernelIdeal.Hand

end
-- ==== Proof.TailValue.lean ====
/-
  The tail of the program read at the extended reals: `tailFn` of a table is the four results the specification makes
  from it.

  Each column of the table, cut out and with its unit axis dropped, reads at row `r` the table's entry `(r, k)`; a sum
  over the rows from the initial value zero is the sum of the entries; the host's quotient, logarithm and elementwise
  arithmetic are the exact ones at each index; and the four one-element pieces laid end to end read, at index `k`, the
  `k`-th scalar. So index 0 is the mean over the rows of `(1 - p / (p + n)) * (log a + log b)`, index 1 is zero, and
  indices 2 and 3 are the two quotients of column totals.
-/
import proofs.«108788_j55748675502676_1_alg».proof.Proof.TailValueA
import Idealize.ShloMosaic.Lib.IdealHost

noncomputable section
namespace Cert.KernelIdeal.Tail
open Idealize.ShloMosaic Idealize.ShloMosaic.TcCoe Idealize.ShloMosaic.ValueIdx
open Cert.KernelIdeal Cert.KernelIdeal.Gen
open scoped BigOperators

/-- A column of the table, cut out and with its unit axis dropped, read at a row. -/
theorem col_apply (A : FVec Ideal S4096x8 .f32) (o : Nat) (h : S4096x8.Slices ![0, o] S4096x1) (hc : S4096x1.ShapeCasts S4096)
    (r : Fin 4096) (k : Fin 8) (hk : k.val = o) :
    shapeCast S4096 (extractStridedSlice S4096x1 ![0, o] A h) hc (ix1 r) = A (ix2 r k) := by
  rw [shapeCast_apply _ hc (ix1 r) (ix2 r (0 : Fin 1)) (by
        rw [Shape.rowMajor_val_two, Shape.rowMajor_val_one]; show r.val * 1 + 0 = r.val; omega),
      slice2_axis1_apply o A h r (0 : Fin 1) k (by simpa using hk)]

theorem col0_apply (A : FVec Ideal S4096x8 .f32) (r : Fin 4096) : col0 A (ix1 r) = A (ix2 r 0) := col_apply A 0 _ _ r 0 rfl
theorem col1_apply (A : FVec Ideal S4096x8 .f32) (r : Fin 4096) : col1 A (ix1 r) = A (ix2 r 1) := col_apply A 1 _ _ r 1 rfl
theorem col2_apply (A : FVec Ideal S4096x8 .f32) (r : Fin 4096) : col2 A (ix1 r) = A (ix2 r 2) := col_apply A 2 _ _ r 2 rfl
theorem col3_apply (A : FVec Ideal S4096x8 .f32) (r : Fin 4096) : col3 A (ix1 r) = A (ix2 r 3) := col_apply A 3 _ _ r 3 rfl
theorem col4_apply (A : FVec Ideal S4096x8 .f32) (r : Fin 4096) : col4 A (ix1 r) = A (ix2 r 4) := col_apply A 4 _ _ r 4 rfl
theorem col5_apply (A : FVec Ideal S4096x8 .f32) (r : Fin 4096) : col5 A (ix1 r) = A (ix2 r 5) := col_apply A 5 _ _ r 5 rfl
theorem col6_apply (A : FVec Ideal S4096x8 .f32) (r : Fin 4096) : col6 A (ix1 r) = A (ix2 r 6) := col_apply A 6 _ _ r 6 rfl
theorem col7_apply (A : FVec Ideal S4096x8 .f32) (r : Fin 4096) : col7 A (ix1 r) = A (ix2 r 7) := col_apply A 7 _ _ r 7 rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the rows from zero is the sum of the entries. -/
theorem sumRows_apply (v : FVec Ideal S4096 .f32) : sumRows v ix0 = ∑ r : Fin 4096, v (ix1 r) := by
  unfold sumRows
  rw [hostReduceAdd_apply, Ideal.hostReduceAdd_total reducesTo_S4096_S_d0 (fun b => b.elim0),
    constant_apply, Ideal.ofBits_zero_f32, zero_add]
  exact sum_idx1 v

/-- The host's logarithm at an index is the logarithm of the entry. -/
theorem hostLog_apply {s : Shape} {φ : FTy} (v : FVec Ideal s φ) (i : s.Idx) : Host.log v i = Ideal.log (v i) := rfl

/-- The tail read at its four indices: each is the scalar laid there. -/
theorem tailFn_apply0 (A : FVec Ideal S4096x8 .f32) (i : S4.Idx) (hi : (i 0).val = 0) : tailFn A i = out0 A ix0 := by
  unfold tailFn
  rw [concatenate_apply_piece (0 : Fin S4.rank)
      [⟨S1, broadcastInDim S1 ![] bcast_S_S1 (out0 A)⟩, ⟨S1, broadcastInDim S1 ![] bcast_S_S1 (out1 (F := Ideal))⟩,
       ⟨S1, broadcastInDim S1 ![] bcast_S_S1 (out2 A)⟩, ⟨S1, broadcastInDim S1 ![] bcast_S_S1 (out3 A)⟩]
      concatenates_S1_S1_S1_S1_S4_d0 i 0 (by simp) S1 _ rfl rfl 0 rfl
      (ix1 (0 : Fin 1)) (fun b hb => absurd (Subsingleton.elim _ _) hb) (by show 0 + 0 = (i 0).val; omega),
    broadcastInDim_scalar_apply]
theorem tailFn_apply1 (A : FVec Ideal S4096x8 .f32) (i : S4.Idx) (hi : (i 0).val = 1) : tailFn A i = out1 (F := Ideal) ix0 := by
  unfold tailFn
  rw [concatenate_apply_piece (0 : Fin S4.rank)
      [⟨S1, broadcastInDim S1 ![] bcast_S_S1 (out0 A)⟩, ⟨S1, broadcastInDim S1 ![] bcast_S_S1 (out1 (F := Ideal))⟩,
       ⟨S1, broadcastInDim S1 ![] bcast_S_S1 (out2 A)⟩, ⟨S1, broadcastInDim S1 ![] bcast_S_S1 (out3 A)⟩]
      concatenates_S1_S1_S1_S1_S4_d0 i 1 (by simp) S1 _ rfl rfl 1 rfl
      (ix1 (0 : Fin 1)) (fun b hb => absurd (Subsingleton.elim _ _) hb) (by show 1 + 0 = (i 0).val; omega),
    broadcastInDim_scalar_apply]
theorem tailFn_apply2 (A : FVec Ideal S4096x8 .f32) (i : S4.Idx) (hi : (i 0).val = 2) : tailFn A i = out2 A ix0 := by
  unfold tailFn
  rw [concatenate_apply_piece (0 : Fin S4.rank)
      [⟨S1, broadcastInDim S1 ![] bcast_S_S1 (out0 A)⟩, ⟨S1, broadcastInDim S1 ![] bcast_S_S1 (out1 (F := Ideal))⟩,
       ⟨S1, broadcastInDim S1 ![] bcast_S_S1 (out2 A)⟩, ⟨S1, broadcastInDim S1 ![] bcast_S_S1 (out3 A)⟩]
      concatenates_S1_S1_S1_S1_S4_d0 i 2 (by simp) S1 _ rfl rfl 2 rfl
      (ix1 (0 : Fin 1)) (fun b hb => absurd (Subsingleton.elim _ _) hb) (by show 2 + 0 = (i 0).val; omega),
    broadcastInDim_scalar_apply]
theorem tailFn_apply3 (A : FVec Ideal S4096x8 .f32) (i : S4.Idx) (hi : (i 0).val = 3) : tailFn A i = out3 A ix0 := by
  unfold tailFn
  rw [concatenate_apply_piece (0 : Fin S4.rank)
      [⟨S1, broadcastInDim S1 ![] bcast_S_S1 (out0 A)⟩, ⟨S1, broadcastInDim S1 ![] bcast_S_S1 (out1 (F := Ideal))⟩,
       ⟨S1, broadcastInDim S1 ![] bcast_S_S1 (out2 A)⟩, ⟨S1, broadcastInDim S1 ![] bcast_S_S1 (out3 A)⟩]
      concatenates_S1_S1_S1_S1_S4_d0 i 3 (by simp) S1 _ rfl rfl 3 rfl
      (ix1 (0 : Fin 1)) (fun b hb => absurd (Subsingleton.elim _ _) hb) (by show 3 + 0 = (i 0).val; omega),
    broadcastInDim_scalar_apply]

/-- The first scalar: the mean over the rows of `(1 - p / (p + n)) * (log a + log b)`. -/
theorem out0_apply (A : FVec Ideal S4096x8 .f32) :
    out0 A ix0 = Ideal.div (∑ r : Fin 4096, (Ideal.ofBits .f32 0x3F800000#32 - Ideal.div (A (ix2 r 0)) (A (ix2 r 0) + A (ix2 r 1)))
        * (Ideal.log (A (ix2 r 2)) + Ideal.log (A (ix2 r 3)))) (Ideal.ofBits .f32 0x45800000#32) := by
  unfold out0
  rw [hostDivf_apply, sumRows_apply, constant_apply]
  congr 1
  refine Finset.sum_congr rfl fun r _ => ?_
  unfold rowLoss
  rw [mulf_apply, subf_apply, addf_apply, hostDivf_apply, addf_apply, broadcastInDim_scalar_apply, constant_apply,
    hostLog_apply, hostLog_apply, col0_apply, col1_apply, col2_apply, col3_apply]

/-- The second scalar is zero. -/
theorem out1_apply : out1 (F := Ideal) ix0 = 0 := by
  unfold out1
  rw [constant_apply, Ideal.ofBits_zero_f32]

/-- The third scalar: the total of column 4 over the total of column 6. -/
theorem out2_apply (A : FVec Ideal S4096x8 .f32) :
    out2 A ix0 = Ideal.div (∑ r : Fin 4096, A (ix2 r 4)) (∑ r : Fin 4096, A (ix2 r 6)) := by
  unfold out2
  rw [hostDivf_apply, sumRows_apply, sumRows_apply]
  congr 1
  · exact Finset.sum_congr rfl fun r _ => col4_apply A r
  · exact Finset.sum_congr rfl fun r _ => col6_apply A r

/-- The fourth scalar: the total of column 5 over the total of column 7. -/
theorem out3_apply (A : FVec Ideal S4096x8 .f32) :
    out3 A ix0 = Ideal.div (∑ r : Fin 4096, A (ix2 r 5)) (∑ r : Fin 4096, A (ix2 r 7)) := by
  unfold out3
  rw [hostDivf_apply, sumRows_apply, sumRows_apply]
  congr 1
  · exact Finset.sum_congr rfl fun r _ => col5_apply A r
  · exact Finset.sum_congr rfl fun r _ => col7_apply A r

/-- The specification's four results, by the index's value. -/
theorem final_at0 (S : Fin 4096 → Fin 8 → EReal) (k : Fin 4) (hk : k.val = 0) :
    Cert.PairStats.final S k = Ideal.div (∑ r : Fin 4096, (Ideal.ofBits .f32 0x3F800000#32 - Ideal.div (S r 0) (S r 0 + S r 1))
        * (Ideal.log (S r 2) + Ideal.log (S r 3))) (Ideal.ofBits .f32 0x45800000#32) := by
  match k, hk with
  | ⟨0, _⟩, _ => rfl
theorem final_at1 (S : Fin 4096 → Fin 8 → EReal) (k : Fin 4) (hk : k.val = 1) : Cert.PairStats.final S k = 0 := by
  match k, hk with
  | ⟨1, _⟩, _ => rfl
theorem final_at2 (S : Fin 4096 → Fin 8 → EReal) (k : Fin 4) (hk : k.val = 2) :
    Cert.PairStats.final S k = Ideal.div (∑ r : Fin 4096, S r 4) (∑ r : Fin 4096, S r 6) := by
  match k, hk with
  | ⟨2, _⟩, _ => rfl
theorem final_at3 (S : Fin 4096 → Fin 8 → EReal) (k : Fin 4) (hk : k.val = 3) :
    Cert.PairStats.final S k = Ideal.div (∑ r : Fin 4096, S r 5) (∑ r : Fin 4096, S r 7) := by
  match k, hk with
  | ⟨3, _⟩, _ => rfl

/-- At the extended reals the tail of a table is the four results the specification makes from it. -/
theorem tailFn_final (A : FVec Ideal S4096x8 .f32) :
    tailFn (F := Ideal) A = fun i => Cert.PairStats.final (fun r k => A (Idealize.ShloMosaic.ValueIdx.ix2 r k)) (i 0) := by
  funext i
  have hlt : (i 0).val < 4 := (i 0).isLt
  obtain h | h | h | h : (i 0).val = 0 ∨ (i 0).val = 1 ∨ (i 0).val = 2 ∨ (i 0).val = 3 := by omega
  · exact (tailFn_apply0 A i h).trans ((out0_apply A).trans (final_at0 (fun r k => A (ix2 r k)) (i 0) h).symm)
  · exact (tailFn_apply1 A i h).trans (out1_apply.trans (final_at1 (fun r k => A (ix2 r k)) (i 0) h).symm)
  · exact (tailFn_apply2 A i h).trans ((out2_apply A).trans (final_at2 (fun r k => A (ix2 r k)) (i 0) h).symm)
  · exact (tailFn_apply3 A i h).trans ((out3_apply A).trans (final_at3 (fun r k => A (ix2 r k)) (i 0) h).symm)

end Cert.KernelIdeal.Tail
-- ==== Proof.RefValue.lean ====
/-
  The reference program's result is the shared specification.

  The reference works on whole 4096 × 4096 arrays: the squared lengths of the rows broadcast down and across, the
  matrix of inner products, from them the clamped distance of every pair; the two masks (same label and different
  rows; different labels) from the labels broadcast both ways and the two index arrays; six masked arrays, four of
  them summed along each row and two summed over all pairs; the two masks themselves summed as 32-bit integers and
  read as reals; and the four results joined into one vector. Read one entry at a time, every stage is the matching
  quantity of `Cert.PairStats`: the entry `(r, c)` of a masked array is `cell x tg k r c`, a row sum is `stat x tg r k`,
  a sum over all pairs is the sum over the rows of the row sums, and the result is `final (stat x tg)`.

  The one point that is not a rewriting of sums is the integer count: the 32-bit sum of 2^24 words that are each 0 or 1
  does not wrap (it is at most 2^24 < 2^31), so read as a signed integer it is the number of pairs in the mask.
-/
import proofs.«108788_j55748675502676_1_alg».proof.Proof.RefRead
import proofs.«108788_j55748675502676_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.RefSide

open Cert.ReferenceIdeal Cert.ReferenceIdeal.Gen Cert.ReferenceIdeal.ReadP Idealize.ShloMosaic Idealize.ShloMosaic.ValueIdx Cert.PairStats

/-! ## Sums: words that do not wrap, naturals read as extended reals, index sets as coordinate ranges -/

/-- The 32-bit sum of fewer than 2^32 words, each 0 or 1, does not wrap: its value is the count. -/
theorem fold_addi_toNat {ι : Type} [DecidableEq ι] (s : Finset ι) (f : ι → BitVec 32) (hf : ∀ i, (f i).toNat ≤ 1)
    (hs : s.card < 2 ^ 32) : (s.fold IntOp.addi 0#32 f).toNat = ∑ i ∈ s, (f i).toNat := by
  induction s using Finset.induction_on with
  | empty => simp
  | insert a s ha ih =>
    rw [Finset.card_insert_of_notMem ha] at hs
    have ih' := ih (by omega)
    have hb : ∑ i ∈ s, (f i).toNat ≤ s.card := by
      calc ∑ i ∈ s, (f i).toNat ≤ ∑ _i ∈ s, 1 := Finset.sum_le_sum fun i _ => hf i
        _ = s.card := by simp
    rw [Finset.fold_insert ha, Finset.sum_insert ha]
    show (f a + s.fold IntOp.addi 0#32 f).toNat = _
    rw [BitVec.toNat_add, ih']
    have := hf a
    omega

/-- A sum of natural numbers read in the extended reals is the sum of the terms read there. -/
theorem coe_nat_sum {ι : Type} [DecidableEq ι] (s : Finset ι) (g : ι → ℕ) :
    (((∑ i ∈ s, g i : ℕ) : ℝ) : EReal) = ∑ i ∈ s, ((g i : ℝ) : EReal) := by
  induction s using Finset.induction_on with
  | empty => simp
  | insert a s ha ih => rw [Finset.sum_insert ha, Finset.sum_insert ha, Nat.cast_add, EReal.coe_add, ih]

/-- A rank-1 index set is its coordinate's range: a sum over it is the sum over the coordinate. -/
theorem sum_idx1 {M : Type} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- There are 2^24 pairs of rows. -/
theorem card_idx2 : (Finset.univ : Finset (⟨2, ![4096, 4096]⟩ : Shape).Idx).card = 16777216 := by
  rw [Finset.card_univ, Fintype.card_congr (idxEquiv2 (n0 := 4096) (n1 := 4096)), Fintype.card_prod, Fintype.card_fin]

/-- A choice on a bit that is `1` exactly when `p` holds is the choice on `p`. -/
theorem sel_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-! ## The distance of a pair -/

section Distance

variable (x : SX.Idx → EReal)

/-- The row sum of the squares is the squared length of the row. -/
theorem v1_at (r : Fin 4096) : val_main_v1 (F := Ideal) x (ix1 r) = sq x r := by
  rw [val_main_v1_apply]
  simp only [val_main_cst_apply, val_main_v0_apply, Ideal.ofBits_def, Ideal.mulf_def, Ideal.ofBits_zero_f32, zero_add]
  unfold PairStats.sq
  refine Finset.sum_congr rfl fun k _ => ?_
  have e : idx_main_v1 (ix1 r) k = ix2 r k := funext fun a => by match a with | ⟨0, _⟩ => rfl | ⟨1, _⟩ => rfl
  rw [e]

/-- The product of the array with its transpose holds the inner products of the rows. -/
theorem v8_at (r c : Fin 4096) : val_main_v8 (F := Ideal) x (ix2 r c) = dotp x r c := by
  rw [val_main_v8_apply]
  simp only [val_main_v7_apply]
  unfold PairStats.dotp
  refine Finset.sum_congr rfl fun k _ => ?_
  have e1 : lidx_main_v8 (ix2 r c) k = ix2 r k := funext fun a => by match a with | ⟨0, _⟩ => rfl | ⟨1, _⟩ => rfl
  have e2 : idx_main_v7 (ridx_main_v8 (ix2 r c) k) = ix2 c k := funext fun a => by match a with | ⟨0, _⟩ => rfl | ⟨1, _⟩ => rfl
  rw [e1, e2]

/-- The squared distance before clamping: `|x r|² + |x c|² - 2 ⟨x r, x c⟩`. -/
theorem v11_at (r c : Fin 4096) : val_main_v11 (F := Ideal) x (ix2 r c)
    = sq x r + sq x c - Ideal.ofBits .f32 0x40000000#32 * dotp x r c := by
  rw [val_main_v11_apply, val_main_v6_apply, val_main_v10_apply, val_main_v4_apply, val_main_v5_apply, val_main_v2_apply,
    val_main_v3_apply, val_main_v9_apply, val_main_cst_0_apply, v8_at]
  simp only [Ideal.ofBits_def, Ideal.mulf_def, Ideal.addf_def, Ideal.subf_def]
  have e1 : idx_main_v2 (idx_main_v4 (ix2 r c)) = ix1 r := funext fun a => by match a with | ⟨0, _⟩ => rfl
  have e2 : idx_main_v3 (idx_main_v5 (ix2 r c)) = ix1 c := funext fun a => by match a with | ⟨0, _⟩ => rfl
  rw [e1, e2, v1_at, v1_at]

/-- The clamped distance of rows `r` and `c`. -/
theorem v13_at (r c : Fin 4096) : val_main_v13 (F := Ideal) x (ix2 r c) = dist x r c := by
  rw [val_main_v13_apply, val_main_v12_apply, val_main_call0_v1_apply, val_main_call0_v0_apply, val_main_cst_1_apply, v11_at]
  rfl

/-- `exp (40 (1 - dist))`. -/
theorem v31_at (r c : Fin 4096) : val_main_v31 (F := Ideal) x (ix2 r c) = wA (dist x r c) := by
  rw [val_main_v31_apply, val_main_v30_apply, val_main_v29_apply, val_main_cst_3_apply, val_main_v28_apply,
    val_main_v27_apply, val_main_cst_2_apply, v13_at]
  rfl

/-- `exp (20 (dist - 0.8))`. -/
theorem v44_at (r c : Fin 4096) : val_main_v44 (F := Ideal) x (ix2 r c) = wP (dist x r c) := by
  rw [val_main_v44_apply, val_main_v43_apply, val_main_v42_apply, val_main_cst_10_apply, val_main_v41_apply,
    val_main_v40_apply, val_main_cst_9_apply, v13_at]
  rfl

/-- `exp (20 (1.1 - dist))`. -/
theorem v52_at (r c : Fin 4096) : val_main_v52 (F := Ideal) x (ix2 r c) = wN (dist x r c) := by
  rw [val_main_v52_apply, val_main_v51_apply, val_main_v50_apply, val_main_cst_14_apply, val_main_v49_apply,
    val_main_v48_apply, val_main_cst_13_apply, v13_at]
  rfl

end Distance

/-! ## The two masks -/

section Masks

variable (tg : ST.Idx → BitVec 32)

/-- Two row numbers below 4096 are equal as 32-bit words exactly when they are equal. -/
theorem ofNat_eq_iff (r c : Fin 4096) : (BitVec.ofNat 32 r.val + 0#32 == BitVec.ofNat 32 c.val) = decide (r = c) := by
  rw [BitVec.add_zero]
  by_cases h : r = c
  · subst h; simp
  · have : ¬ BitVec.ofNat 32 r.val = BitVec.ofNat 32 c.val := fun e => h (Fin.ext (by
      have := congrArg BitVec.toNat e
      simp only [BitVec.toNat_ofNat] at this
      have := r.isLt; have := c.isLt; omega))
    simp [h, this]

/-- The labels broadcast both ways and compared: the bit "rows `r` and `c` carry the same label". -/
theorem v18_at (r c : Fin 4096) : val_main_v18 (F := Ideal) tg (ix2 r c) = BitVec.ofBool (decide (tg (ix1 r) = tg (ix1 c))) := by
  rw [val_main_v18_apply, val_main_v16_apply, val_main_v17_apply, val_main_v14_apply, val_main_v15_apply]
  have e1 : idx_main_v14 (idx_main_v16 (ix2 r c)) = ix1 r := funext fun a => by match a with | ⟨0, _⟩ => rfl
  have e2 : idx_main_v15 (idx_main_v17 (ix2 r c)) = ix1 c := funext fun a => by match a with | ⟨0, _⟩ => rfl
  rw [e1, e2]
  rfl

/-- The row numbers and the column numbers compared: the bit "`r` and `c` are the same row". -/
theorem v23_at (r c : Fin 4096) : val_main_v23 (F := Ideal) (ix2 r c) = BitVec.ofBool (decide (r = c)) := by
  rw [val_main_v23_apply, val_main_v22_apply, val_main_v19_apply, val_main_v20_apply, val_main_v21_apply, val_main_c_apply]
  show BitVec.ofBool (BitVec.ofNat 32 r.val + 0#32 == BitVec.ofNat 32 c.val) = _
  rw [ofNat_eq_iff]

/-- The positive mask: same label and different rows. -/
theorem v25_at (r c : Fin 4096) : val_main_v25 (F := Ideal) tg (ix2 r c) = if pos tg r c then 1#1 else 0#1 := by
  rw [val_main_v25_apply, val_main_v24_apply, v18_at, v23_at]
  unfold PairStats.pos
  by_cases h1 : tg (ix1 r) = tg (ix1 c) <;> by_cases h2 : r = c <;> simp [h1, h2, IntOp.andi]

/-- The negative mask: different labels. -/
theorem v26_at (r c : Fin 4096) : val_main_v26 (F := Ideal) tg (ix2 r c) = if neg tg r c then 1#1 else 0#1 := by
  rw [val_main_v26_apply, v18_at]
  unfold PairStats.neg
  by_cases h1 : tg (ix1 r) = tg (ix1 c) <;> simp [h1]

end Masks

/-! ## The masked arrays, their row sums and their sums over all pairs -/

section Sums

variable (x : SX.Idx → EReal) (tg : ST.Idx → BitVec 32)

/-- `exp (40 (1 - dist))` over the positive pairs. -/
theorem v32_at (r c : Fin 4096) : val_main_v32 (F := Ideal) x tg (ix2 r c) = cell x tg 0 r c := by
  rw [val_main_v32_apply, v25_at, v31_at, val_main_call1_v1_apply, val_main_call1_v0_apply, val_main_cst_4_apply,
    Ideal.ofBits_def, Ideal.ofBits_zero_f32, sel_ite]
  rfl

/-- `exp (40 (1 - dist))` over the negative pairs. -/
theorem v34_at (r c : Fin 4096) : val_main_v34 (F := Ideal) x tg (ix2 r c) = cell x tg 1 r c := by
  rw [val_main_v34_apply, v26_at, v31_at, val_main_call2_v1_apply, val_main_call2_v0_apply, val_main_cst_6_apply,
    Ideal.ofBits_def, Ideal.ofBits_zero_f32, sel_ite]
  rfl

/-- `exp (20 (dist - 0.8))` over the positive pairs. -/
theorem v45_at (r c : Fin 4096) : val_main_v45 (F := Ideal) x tg (ix2 r c) = cell x tg 2 r c := by
  rw [val_main_v45_apply, v25_at, v44_at, val_main_call3_v1_apply, val_main_call3_v0_apply, val_main_cst_11_apply,
    Ideal.ofBits_def, Ideal.ofBits_zero_f32, sel_ite]
  rfl

/-- `exp (20 (1.1 - dist))` over the negative pairs. -/
theorem v53_at (r c : Fin 4096) : val_main_v53 (F := Ideal) x tg (ix2 r c) = cell x tg 3 r c := by
  rw [val_main_v53_apply, v26_at, v52_at, val_main_call4_v1_apply, val_main_call4_v0_apply, val_main_cst_15_apply,
    Ideal.ofBits_def, Ideal.ofBits_zero_f32, sel_ite]
  rfl

/-- The distance over the positive pairs. -/
theorem v60_at (r c : Fin 4096) : val_main_v60 (F := Ideal) x tg (ix2 r c) = cell x tg 4 r c := by
  rw [val_main_v60_apply, v25_at, v13_at, val_main_call5_v1_apply, val_main_call5_v0_apply, val_main_cst_19_apply,
    Ideal.ofBits_def, Ideal.ofBits_zero_f32, sel_ite]
  rfl

/-- The distance over the negative pairs. -/
theorem v66_at (r c : Fin 4096) : val_main_v66 (F := Ideal) x tg (ix2 r c) = cell x tg 5 r c := by
  rw [val_main_v66_apply, v26_at, v13_at, val_main_call6_v1_apply, val_main_call6_v0_apply, val_main_cst_22_apply,
    Ideal.ofBits_def, Ideal.ofBits_zero_f32, sel_ite]
  rfl

/-- The first weight summed over the positive pairs of row `r`. -/
theorem v33_at (r : Fin 4096) : val_main_v33 (F := Ideal) x tg (ix1 r) = stat x tg r 0 := by
  rw [val_main_v33_apply, val_main_cst_5_apply, Ideal.ofBits_def, Ideal.ofBits_zero_f32, zero_add]
  unfold PairStats.stat
  refine Finset.sum_congr rfl fun k _ => ?_
  have e : idx_main_v33 (ix1 r) k = ix2 r k := funext fun a => by match a with | ⟨0, _⟩ => rfl | ⟨1, _⟩ => rfl
  rw [e, v32_at]

/-- The first weight summed over the negative pairs of row `r`. -/
theorem v35_at (r : Fin 4096) : val_main_v35 (F := Ideal) x tg (ix1 r) = stat x tg r 1 := by
  rw [val_main_v35_apply, val_main_cst_7_apply, Ideal.ofBits_def, Ideal.ofBits_zero_f32, zero_add]
  unfold PairStats.stat
  refine Finset.sum_congr rfl fun k _ => ?_
  have e : idx_main_v35 (ix1 r) k = ix2 r k := funext fun a => by match a with | ⟨0, _⟩ => rfl | ⟨1, _⟩ => rfl
  rw [e, v34_at]

/-- The second weight summed over the positive pairs of row `r`. -/
theorem v46_at (r : Fin 4096) : val_main_v46 (F := Ideal) x tg (ix1 r) = stat x tg r 2 := by
  rw [val_main_v46_apply, val_main_cst_12_apply, Ideal.ofBits_def, Ideal.ofBits_zero_f32, zero_add]
  unfold PairStats.stat
  refine Finset.sum_congr rfl fun k _ => ?_
  have e : idx_main_v46 (ix1 r) k = ix2 r k := funext fun a => by match a with | ⟨0, _⟩ => rfl | ⟨1, _⟩ => rfl
  rw [e, v45_at]

/-- The third weight summed over the negative pairs of row `r`. -/
theorem v54_at (r : Fin 4096) : val_main_v54 (F := Ideal) x tg (ix1 r) = stat x tg r 3 := by
  rw [val_main_v54_apply, val_main_cst_16_apply, Ideal.ofBits_def, Ideal.ofBits_zero_f32, zero_add]
  unfold PairStats.stat
  refine Finset.sum_congr rfl fun k _ => ?_
  have e : idx_main_v54 (ix1 r) k = ix2 r k := funext fun a => by match a with | ⟨0, _⟩ => rfl | ⟨1, _⟩ => rfl
  rw [e, v53_at]

/-- The loss term of row `r`: `(1 - p / (p + n)) (log a + log b)` of its four sums. -/
theorem v57_at (r : Fin 4096) : val_main_v57 (F := Ideal) x tg (ix1 r)
    = (Ideal.ofBits .f32 0x3F800000#32 - Ideal.div (stat x tg r 0) (stat x tg r 0 + stat x tg r 1))
        * (Ideal.log (stat x tg r 2) + Ideal.log (stat x tg r 3)) := by
  rw [val_main_v57_apply, val_main_v39_apply, val_main_v56_apply, val_main_v38_apply, val_main_cst_8_apply, val_main_v37_apply,
    val_main_v36_apply, val_main_v47_apply, val_main_v55_apply, v33_at, v35_at, v46_at, v54_at]
  rfl

/-- The mean of the loss terms over the rows: the first result. -/
theorem v59_at (i : S_.Idx) : val_main_v59 (F := Ideal) x tg i = final (stat x tg) 0 := by
  rw [val_main_v59_apply, val_main_v58_apply, val_main_cst_17_apply, val_main_cst_18_apply, Ideal.ofBits_def, Ideal.ofBits_def,
    Ideal.ofBits_zero_f32, zero_add, sum_idx1]
  simp only [v57_at]
  rfl

/-- The total distance over the positive pairs is the sum over the rows of the rows' totals. -/
theorem v61_at (i : S_.Idx) : val_main_v61 (F := Ideal) x tg i = ∑ r : Fin 4096, stat x tg r 4 := by
  rw [val_main_v61_apply, val_main_cst_20_apply, Ideal.ofBits_def, Ideal.ofBits_zero_f32, zero_add, sum_idx2]
  simp only [v60_at]
  rfl

/-- The total distance over the negative pairs likewise. -/
theorem v67_at (i : S_.Idx) : val_main_v67 (F := Ideal) x tg i = ∑ r : Fin 4096, stat x tg r 5 := by
  rw [val_main_v67_apply, val_main_cst_23_apply, Ideal.ofBits_def, Ideal.ofBits_zero_f32, zero_add, sum_idx2]
  simp only [v66_at]
  rfl

/-- A positive pair's mask bit, widened to 32 bits, is 0 or 1. -/
theorem v62_le (j : S4096x4096.Idx) : (val_main_v62 (F := Ideal) tg j).toNat ≤ 1 := by
  rw [val_main_v62_apply, BitVec.toNat_setWidth]
  have := (val_main_v25 (F := Ideal) tg j).isLt
  omega

/-- The 32-bit sum of the positive mask over all 2^24 pairs is the number of positive pairs. -/
theorem v63_toNat (i : S_.Idx) : (val_main_v63 (F := Ideal) tg i).toNat
    = ∑ r : Fin 4096, ∑ c : Fin 4096, (if pos tg r c then 1 else 0 : ℕ) := by
  unfold val_main_v63
  rw [Host.reduce_eq_fold, Finset.filter_true_of_mem (fun j _ => funext fun b => b.elim0), val_main_c_21_apply,
    fold_addi_toNat _ _ (v62_le tg) (by rw [card_idx2]; decide), sum_idx2]
  refine Finset.sum_congr rfl fun r _ => Finset.sum_congr rfl fun c _ => ?_
  rw [val_main_v62_apply, v25_at]
  split_ifs <;> rfl

/-- That number is at most 2^24, so the word is not negative when read signed. -/
theorem v63_le (i : S_.Idx) : (val_main_v63 (F := Ideal) tg i).toNat ≤ 16777216 := by
  unfold val_main_v63
  rw [Host.reduce_eq_fold, Finset.filter_true_of_mem (fun j _ => funext fun b => b.elim0), val_main_c_21_apply,
    fold_addi_toNat _ _ (v62_le tg) (by rw [card_idx2]; decide), ← card_idx2]
  calc ∑ j, (val_main_v62 (F := Ideal) tg j).toNat ≤ ∑ _j : S4096x4096.Idx, 1 := Finset.sum_le_sum fun j _ => v62_le tg j
    _ = _ := by simp

/-- The count of positive pairs as an extended real: the sum over the rows of the rows' counts. -/
theorem v64_at (i : S_.Idx) : val_main_v64 (F := Ideal) tg i = ∑ r : Fin 4096, stat x tg r 6 := by
  rw [val_main_v64_apply]
  show (((val_main_v63 (F := Ideal) tg i).toInt : ℝ) : EReal) = _
  have hle := v63_le tg i
  rw [BitVec.toInt_eq_toNat_of_lt (by omega), Int.cast_natCast, v63_toNat, coe_nat_sum]
  refine Finset.sum_congr rfl fun r _ => ?_
  rw [coe_nat_sum]
  unfold PairStats.stat
  refine Finset.sum_congr rfl fun c _ => ?_
  show _ = (if pos tg r c then (1 : EReal) else 0)
  split_ifs <;> simp

/-- A negative pair's mask bit, widened to 32 bits, is 0 or 1. -/
theorem v68_le (j : S4096x4096.Idx) : (val_main_v68 (F := Ideal) tg j).toNat ≤ 1 := by
  rw [val_main_v68_apply, BitVec.toNat_setWidth]
  have := (val_main_v26 (F := Ideal) tg j).isLt
  omega

/-- The 32-bit sum of the negative mask over all 2^24 pairs is the number of negative pairs. -/
theorem v69_toNat (i : S_.Idx) : (val_main_v69 (F := Ideal) tg i).toNat
    = ∑ r : Fin 4096, ∑ c : Fin 4096, (if neg tg r c then 1 else 0 : ℕ) := by
  unfold val_main_v69
  rw [Host.reduce_eq_fold, Finset.filter_true_of_mem (fun j _ => funext fun b => b.elim0), val_main_c_24_apply,
    fold_addi_toNat _ _ (v68_le tg) (by rw [card_idx2]; decide), sum_idx2]
  refine Finset.sum_congr rfl fun r _ => Finset.sum_congr rfl fun c _ => ?_
  rw [val_main_v68_apply, v26_at]
  split_ifs <;> rfl

/-- That number is at most 2^24, so the word is not negative when read signed. -/
theorem v69_le (i : S_.Idx) : (val_main_v69 (F := Ideal) tg i).toNat ≤ 16777216 := by
  unfold val_main_v69
  rw [Host.reduce_eq_fold, Finset.filter_true_of_mem (fun j _ => funext fun b => b.elim0), val_main_c_24_apply,
    fold_addi_toNat _ _ (v68_le tg) (by rw [card_idx2]; decide), ← card_idx2]
  calc ∑ j, (val_main_v68 (F := Ideal) tg j).toNat ≤ ∑ _j : S4096x4096.Idx, 1 := Finset.sum_le_sum fun j _ => v68_le tg j
    _ = _ := by simp

/-- The count of negative pairs as an extended real: the sum over the rows of the rows' counts. -/
theorem v70_at (i : S_.Idx) : val_main_v70 (F := Ideal) tg i = ∑ r : Fin 4096, stat x tg r 7 := by
  rw [val_main_v70_apply]
  show (((val_main_v69 (F := Ideal) tg i).toInt : ℝ) : EReal) = _
  have hle := v69_le tg i
  rw [BitVec.toInt_eq_toNat_of_lt (by omega), Int.cast_natCast, v69_toNat, coe_nat_sum]
  refine Finset.sum_congr rfl fun r _ => ?_
  rw [coe_nat_sum]
  unfold PairStats.stat
  refine Finset.sum_congr rfl fun c _ => ?_
  show _ = (if neg tg r c then (1 : EReal) else 0)
  split_ifs <;> simp

/-- The four results joined: entry `i` of the reference's vector is `final (stat x tg) i`. -/
theorem v76_at (i : S4.Idx) : val_main_v76 (F := Ideal) x tg i = final (stat x tg) (i 0) := by
  unfold val_main_v76
  obtain ⟨k, hk⟩ : ∃ k : Fin 4, i 0 = k := ⟨_, rfl⟩
  rw [hk]
  match k, hk with
  | ⟨0, _⟩, hk =>
    refine (concatenate_apply_piece (0 : Fin S4.rank)
      [⟨S1, val_main_v72 (F := Ideal) x tg⟩, ⟨S1, val_main_v73 (F := Ideal)⟩, ⟨S1, val_main_v74 (F := Ideal) x tg⟩, ⟨S1, val_main_v75 (F := Ideal) x tg⟩]
      concatenates_S1_S1_S1_S1_S4_d0 i 0 (by simp) S1 _ rfl rfl 0 rfl (ix1 (0 : Fin 1))
      (fun b hb => absurd (Fin.ext (by have hb1 : b.val < 1 := b.isLt; show b.val = 0; omega)) hb) (by rw [hk]; rfl)).trans ?_
    rw [val_main_v72_apply, v59_at]; rfl
  | ⟨1, _⟩, hk =>
    refine (concatenate_apply_piece (0 : Fin S4.rank)
      [⟨S1, val_main_v72 (F := Ideal) x tg⟩, ⟨S1, val_main_v73 (F := Ideal)⟩, ⟨S1, val_main_v74 (F := Ideal) x tg⟩, ⟨S1, val_main_v75 (F := Ideal) x tg⟩]
      concatenates_S1_S1_S1_S1_S4_d0 i 1 (by simp) S1 _ rfl rfl 1 rfl (ix1 (0 : Fin 1))
      (fun b hb => absurd (Fin.ext (by have hb1 : b.val < 1 := b.isLt; show b.val = 0; omega)) hb) (by rw [hk]; rfl)).trans ?_
    rw [val_main_v73_apply, val_main_cst_25_apply, Ideal.ofBits_def, Ideal.ofBits_zero_f32]; rfl
  | ⟨2, _⟩, hk =>
    refine (concatenate_apply_piece (0 : Fin S4.rank)
      [⟨S1, val_main_v72 (F := Ideal) x tg⟩, ⟨S1, val_main_v73 (F := Ideal)⟩, ⟨S1, val_main_v74 (F := Ideal) x tg⟩, ⟨S1, val_main_v75 (F := Ideal) x tg⟩]
      concatenates_S1_S1_S1_S1_S4_d0 i 2 (by simp) S1 _ rfl rfl 2 rfl (ix1 (0 : Fin 1))
      (fun b hb => absurd (Fin.ext (by have hb1 : b.val < 1 := b.isLt; show b.val = 0; omega)) hb) (by rw [hk]; rfl)).trans ?_
    rw [val_main_v74_apply, val_main_v65_apply, v61_at, v64_at x]; rfl
  | ⟨3, _⟩, hk =>
    refine (concatenate_apply_piece (0 : Fin S4.rank)
      [⟨S1, val_main_v72 (F := Ideal) x tg⟩, ⟨S1, val_main_v73 (F := Ideal)⟩, ⟨S1, val_main_v74 (F := Ideal) x tg⟩, ⟨S1, val_main_v75 (F := Ideal) x tg⟩]
      concatenates_S1_S1_S1_S1_S4_d0 i 3 (by simp) S1 _ rfl rfl 3 rfl (ix1 (0 : Fin 1))
      (fun b hb => absurd (Fin.ext (by have hb1 : b.val < 1 := b.isLt; show b.val = 0; omega)) hb) (by rw [hk]; rfl)).trans ?_
    rw [val_main_v75_apply, val_main_v71_apply, v67_at, v70_at x]; rfl

end Sums

/-- **The reference's value.** On every device the reference's result buffer holds, entry by entry, the four numbers
    `final` makes from the table `stat` of the row sums of the launch contents of its two arguments. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v76 (F := Ideal) m c
      = fun i => Cert.PairStats.final (Cert.PairStats.stat (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) (i 0) := by
  rw [val_main_v76_eq]
  funext i
  exact v76_at _ _ i

end Cert.RefSide

end
-- ==== Proof.lean ====
/-
  A kernel that computes pairwise-distance loss statistics of 4096 embeddings tile by tile agrees, over the
  extended reals, with the reference that computes them from whole arrays.

  For embeddings `x` (4096 rows of 1024 numbers) and labels `tg`, both programs form the clamped distance of
  every pair of rows, mask the pairs by "same label, different row" and by "different label", and from the
  eight per-row sums over all columns (two exponential weights of the distance, two loss exponentials, the
  distance itself over either mask, and the two pair counts) make four numbers: the mean over rows of
  `(1 - p / (p + n)) (log a + log b)`, zero, and the two mean distances. The kernel walks an 8 by 8 grid of
  512 by 512 tiles: at each tile it adds the tile's eight row sums to an accumulator it resets at the start
  of every row block, and copies the accumulator to the result block, which is written back after the row
  block's last tile; sums of extended reals may be regrouped freely, so the eight tile sums of a row add up to
  the row's sum over all 4096 columns. The kernel counts pairs by summing ones as floats; the reference sums
  them as 32-bit integers and converts — at most 2^24 ones, so the integer sum is the count.

  The claims: each program runs to the end without a fault and leaves its arguments unchanged (for the kernel
  program, whose two embedding windows read one array, the region holds that array as two half shares and
  joins them at its exit; the word-level program's frame is the same text in its own namespace); the
  idealization rewrote nothing; and the two idealized programs end with the same four numbers, both being
  `final (stat x tg)` of the specification.
-/
import proofs.«108788_j55748675502676_1_alg».proof.Defs
import proofs.«108788_j55748675502676_1_alg».proof.Proof.Gen.Kernel
import proofs.«108788_j55748675502676_1_alg».proof.Proof.Gen.KernelIdeal
import proofs.«108788_j55748675502676_1_alg».proof.Proof.Gen.ReferenceIdeal
import proofs.«108788_j55748675502676_1_alg».proof.Proof.Gen.Pre_finite_inputs
import proofs.«108788_j55748675502676_1_alg».proof.Proof.WFrame
import proofs.«108788_j55748675502676_1_alg».proof.Proof.KFrame
import proofs.«108788_j55748675502676_1_alg».proof.Proof.KValue
import proofs.«108788_j55748675502676_1_alg».proof.Proof.TailValue
import proofs.«108788_j55748675502676_1_alg».proof.Proof.RefValue

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- And the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with `final (stat x tg)`: the kernel's table is `stat x tg` and its later host
    operations are `final` of the table; the reference's result is `final (stat x tg)` of its own arguments, which
    agree with the kernel's. -/
theorem algebraic : Cert.algebraic_KernelIdeal_ReferenceIdeal := by
  intro m ρ m' ρ' _ hagree
  refine ⟨fun c => fun i => Cert.PairStats.final (Cert.PairStats.stat (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (i 0), ?_, ?_⟩
  · refine (θ_run Cert.KernelIdeal.defs _ _).mono (fun r h c => ⟨(h c).1.trans ?_, (h c).2⟩) (Cert.KernelIdeal.Hand.run_value (F := Ideal) m ρ)
    rw [Cert.KernelIdeal.Hand.region_value m c, Cert.KernelIdeal.Tail.tailFn_final]
    rfl
  · refine (θ_run Cert.ReferenceIdeal.defs _ _).mono (fun r h c => ⟨(h c).1.trans ?_, (h c).2⟩) (Cert.ReferenceIdeal.ValueP.run (F := Ideal) m' ρ')
    rw [Cert.RefSide.ref_value m' c, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
